-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S2x800000 : Shape := ⟨2, ![2, 800000]⟩
abbrev S16x64 : Shape := ⟨2, ![16, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S64x2 .f32) (main_arg9 : FVec F S2 .f32) (main_arg10 : FVec F S64x2 .f32) (main_v33 : IVec S_ 1) : IVec S_ 1 :=
  let main_v34 : FVec F S64x2 .f32 := Host.absf main_arg8
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S64x2 .f32 := Host.absf main_arg10
  let main_cst_16 : FVec F S_ .f32 := constant S_ .f32 0x7F800000#32
  let main_v45 : FVec F S64x2 .f32 := broadcastInDim S64x2 ![] bcast_S_S64x2 main_cst_16
  let main_v46 : IVec S64x2 1 := cmpf .olt main_v44 main_v45
  let main_c_17 : IVec S_ 1 := constantI S_ 1 1#1
  let main_v47 : IVec S_ 1 := (fun x v => Host.reduce IntOp.andi x v reducesTo_S64x2_S_d0_1 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64x64 .f32) (main_arg8 : FVec F S64x2 .f32) (main_arg9 : FVec F S2 .f32) (main_arg10 : FVec F S64x2 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x16 .f32) (main_arg1 : IVec S2x800000 32) (main_arg2 : FVec F S16x64 .f32) (main_arg3 : FVec F S64 .f32) (main_arg4 : FVec F S16x64 .f32) (main_arg5 : FVec F S64x64 .f32) (main_arg6 : FVec F S64 .f32) (main_arg7 : FVec F S64x64 .f32) (main_arg8 : FVec F S64x2 .f32) (main_arg9 : FVec F S2 .f32) (main_arg10 : FVec F S64x2 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S16x64 .f32 := Host.absf main_arg2
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_arg6 main_arg7 main_arg8 main_arg9 main_arg10 main_v13 main_v16
-- ==== Kernel.lean ====
abbrev S50000x16 : Shape := ⟨2, ![50000, 16]⟩
abbrev S2x800000 : Shape := ⟨2, ![2, 800000]⟩
abbrev S16x64 : Shape := ⟨2, ![16, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x16 : Shape := ⟨2, ![800000, 16]⟩
abbrev S1x64 : Shape := ⟨2, ![1, 64]⟩
abbrev S50000x64 : Shape := ⟨2, ![50000, 64]⟩
abbrev S2000x16 : Shape := ⟨2, ![2000, 16]⟩
abbrev S2000x1 : Shape := ⟨2, ![2000, 1]⟩
abbrev S2000x64 : Shape := ⟨2, ![2000, 64]⟩
abbrev S800000x64 : Shape := ⟨2, ![800000, 64]⟩
abbrev S50000x2 : Shape := ⟨2, ![50000, 2]⟩
abbrev S2000x2 : Shape := ⟨2, ![2000, 2]⟩
abbrev S800000x2 : Shape := ⟨2, ![800000, 2]⟩
abbrev S1x2 : Shape := ⟨2, ![1, 2]⟩
abbrev S2000 : Shape := ⟨1, ![2000]⟩

abbrev nBuf : Space → Nat
  | .hbm => 81
  | .vmem => 37
  | .smem => 0
  | _ => 0

abbrev bufTy : (tb : Table) → Fin (tcTables nBuf tb) → BufTy
  | .hbm, ⟨0, _⟩ => ⟨S50000x16, .f32⟩
  | .hbm, ⟨1, _⟩ => ⟨S2x800000, .i32⟩
  | .hbm, ⟨2, _⟩ => ⟨S16x64, .f32⟩
  | .hbm, ⟨3, _⟩ => ⟨S64, .f32⟩
  | .hbm, ⟨4, _⟩ => ⟨S16x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x2, .f32⟩
  | .hbm, ⟨9, _⟩ => ⟨S2, .f32⟩
  | .hbm, ⟨10, _⟩ => ⟨S64x2, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x16, .f32⟩
  | .hbm, ⟨44, _⟩ => ⟨S_, .f32⟩
  | .hbm, ⟨45, _⟩ => ⟨S50000x16, .f32⟩
  | .hbm, ⟨46, _⟩ => ⟨S800000x1, .i32⟩
  | .hbm, ⟨47, _⟩ => ⟨S50000x16, .f32⟩
  | .hbm, ⟨48, _⟩ => ⟨S1x64, .f32⟩
  | .hbm, ⟨49, _⟩ => ⟨S50000x64, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x64, .f32⟩
  | .hbm, ⟨59, _⟩ => ⟨S_, .f32⟩
  | .hbm, ⟨60, _⟩ => ⟨S50000x64, .f32⟩
  | .hbm, ⟨61, _⟩ => ⟨S800000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x2, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x2, .f32⟩
  | .hbm, ⟨75, _⟩ => ⟨S_, .f32⟩
  | .hbm, ⟨76, _⟩ => ⟨S50000x2, .f32⟩
  | .hbm, ⟨77, _⟩ => ⟨S800000x1, .i32⟩
  | .hbm, ⟨78, _⟩ => ⟨S50000x2, .f32⟩
  | .hbm, ⟨79, _⟩ => ⟨S1x2, .f32⟩
  | .hbm, ⟨80, _⟩ => ⟨S50000x2, .f32⟩
  | .local _ .vmem, ⟨0, _⟩ => ⟨S2000x16, .f32⟩
  | .local _ .vmem, ⟨1, _⟩ => ⟨S2000x16, .f32⟩
  | .local _ .vmem, ⟨2, _⟩ => ⟨S2000x16, .f32⟩
  | .local _ .vmem, ⟨3, _⟩ => ⟨S2000x16, .f32⟩
  | .local _ .vmem, ⟨4, _⟩ => ⟨S2000x1, .f32⟩
  | .local _ .vmem, ⟨5, _⟩ => ⟨S2000x1, .f32⟩
  | .local _ .vmem, ⟨6, _⟩ => ⟨S16x64, .f32⟩
  | .local _ .vmem, ⟨7, _⟩ => ⟨S1x64, .f32⟩
  | .local _ .vmem, ⟨8, _⟩ => ⟨S16x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x1, .f32⟩
  | .local _ .vmem, ⟨16, _⟩ => ⟨S2000x1, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S64x2, .f32⟩
  | .local _ .vmem, ⟨25, _⟩ => ⟨S2000x2, .f32⟩
  | .local _ .vmem, ⟨26, _⟩ => ⟨S2000x2, .f32⟩
  | .local _ .vmem, ⟨27, _⟩ => ⟨S2000x2, .f32⟩
  | .local _ .vmem, ⟨28, _⟩ => ⟨S2000x2, .f32⟩
  | .local _ .vmem, ⟨29, _⟩ => ⟨S2000x64, .f32⟩
  | .local _ .vmem, ⟨30, _⟩ => ⟨S2000x64, .f32⟩
  | .local _ .vmem, ⟨31, _⟩ => ⟨S2000x1, .f32⟩
  | .local _ .vmem, ⟨32, _⟩ => ⟨S2000x1, .f32⟩
  | .local _ .vmem, ⟨33, _⟩ => ⟨S1x2, .f32⟩
  | .local _ .vmem, ⟨34, _⟩ => ⟨S64x2, .f32⟩
  | .local _ .vmem, ⟨35, _⟩ => ⟨S2000x2, .f32⟩
  | .local _ .vmem, ⟨36, _⟩ => ⟨S2000x2, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_7 : Ref sig .tc := ⟨.hbm, 50, rfl⟩
abbrev main_v28 : Ref sig .tc := ⟨.hbm, 51, rfl⟩
abbrev main_v29 : Ref sig .tc := ⟨.hbm, 52, rfl⟩
abbrev main_c_8 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_10 : Ref sig .tc := ⟨.hbm, 66, rfl⟩
abbrev main_v41 : Ref sig .tc := ⟨.hbm, 67, rfl⟩
abbrev main_v42 : Ref sig .tc := ⟨.hbm, 68, rfl⟩
abbrev main_c_11 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_12 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem5_1 : DmaSem sig := 36

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x2 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x16 : S_.BroadcastsInDim S50000x16 (![] : Fin 0 → Fin S50000x16.rank)
  shapeCasts_S64_S1x64 : S64.ShapeCasts S1x64
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x16 : S2000x1.Broadcasts S2000x16
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S50000x64 : S_.BroadcastsInDim S50000x64 (![] : Fin 0 → Fin S50000x64.rank)
  shapeCasts_S2000x64_S2000x64 : S2000x64.ShapeCasts S2000x64
  broadcasts_S2000x1_S2000x64 : S2000x1.Broadcasts S2000x64
  inb_S64x64_S64x64_0_0 : ∀ a, (![0, 0] : Fin 2 → Nat) a + S64x64.size a ≤ S64x64.size a
  h_S64x64 : 0 < S64x64.numel
  inb_S64x2_S64x2_0_0 : ∀ a, (![0, 0] : Fin 2 → Nat) a + S64x2.size a ≤ S64x2.size a
  h_S64x2 : 0 < S64x2.numel
  inb_S2000x2_S2000x2_0_0 : ∀ a, (![0, 0] : Fin 2 → Nat) a + S2000x2.size a ≤ S2000x2.size a
  h_S2000x2 : 0 < S2000x2.numel
  bcast_S_S50000x2 : S_.BroadcastsInDim S50000x2 (![] : Fin 0 → Fin S50000x2.rank)
  shapeCasts_S2_S1x2 : S2.ShapeCasts S1x2
  shapeCasts_S2000x2_S2000x2 : S2000x2.ShapeCasts S2000x2
  broadcasts_S2000x1_S2000x2 : S2000x1.Broadcasts S2000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  shapeCasts_S2000_S2000x1 : S2000.ShapeCasts S2000x1
  scatter_S50000_S800000x1_S800000_n_0_0_1_wf : ScatterDims.WF S50000 S800000x1 S800000 [] [0] [0] 1
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  dot_S2000x16_S16x64_S2000x64_1_0_0_1_n_n_wf : DotDims.WF S2000x16 S16x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  dot_S2000x64_S64x2_S2000x2_1_0_0_1_n_n_wf : DotDims.WF S2000x64 S64x2 S2000x2 [1] [0] [0] [1] [] []
  gather_S50000x2_S800000x1_S800000x2_1_0_n_n_0_1_12_wf : GatherDims.WF S50000x2 S800000x1 S800000x2 [1] [0] [] [0] [] 1 ![1, 2]
  scatter_S50000x2_S800000x1_S800000x2_1_0_0_1_wf : ScatterDims.WF S50000x2 S800000x1 S800000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x16.size a ≤ S50000x16.size a
  hwx0_0 : ∀ i : grid0.Coords, EltTy.bits .f32 = 32 ∨ (Rect.block (s := S50000x16) S2000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x16.size a ≤ S50000x16.size a
  hwx0_1 : ∀ i : grid0.Coords, EltTy.bits .f32 = 32 ∨ (Rect.block (s := S50000x16) S2000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x64.size a ≤ S16x64.size a
  hwx0_5 : ∀ i : grid0.Coords, EltTy.bits .f32 = 32 ∨ (Rect.block (s := S16x64) S16x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S50000x64.size a
  hwx0_6 : ∀ i : grid0.Coords, EltTy.bits .f32 = 32 ∨ (Rect.block (s := S50000x64) S2000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S50000x64.size a
  hwx1_6 : ∀ i : grid1.Coords, EltTy.bits .f32 = 32 ∨ (Rect.block (s := S50000x64) S2000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x2.size a ≤ S64x2.size a
  hwx2_1 : ∀ i : grid2.Coords, EltTy.bits .f32 = 32 ∨ (Rect.block (s := S64x2) S64x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x2.size a ≤ S50000x2.size a
  hwx2_2 : ∀ i : grid2.Coords, EltTy.bits .f32 = 32 ∨ (Rect.block (s := S50000x2) S2000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x2.size a ≤ S50000x2.size a
  hwx3_0 : ∀ i : grid3.Coords, EltTy.bits .f32 = 32 ∨ (Rect.block (s := S50000x2) S2000x2.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2.size a ≤ S1x2.size a
  hwx3_3 : ∀ i : grid3.Coords, EltTy.bits .f32 = 32 ∨ (Rect.block (s := S1x2) S1x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x2.size a ≤ S64x2.size a
  hwx3_4 : ∀ i : grid3.Coords, EltTy.bits .f32 = 32 ∨ (Rect.block (s := S64x2) S64x2.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x2.size a ≤ S50000x2.size a
  hwx3_5 : ∀ i : grid3.Coords, EltTy.bits .f32 = 32 ∨ (Rect.block (s := S50000x2) S2000x2.size (cc3_transform_5 i) (hinb3_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S2000x16_S16x64_S2000x64_1_0_0_1_n_n : DotDims S2000x16 S16x64 S2000x64 where
  lhsContracting := [1]
  rhsContracting := [0]
  lhsNonContracting := [0]
  rhsNonContracting := [1]
  lhsBatch := []
  rhsBatch := []
  wf := dot_S2000x16_S16x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x2_S2000x2_1_0_0_1_n_n : DotDims S2000x64 S64x2 S2000x2 where
  lhsContracting := [1]
  rhsContracting := [0]
  lhsNonContracting := [0]
  rhsNonContracting := [1]
  lhsBatch := []
  rhsBatch := []
  wf := dot_S2000x64_S64x2_S2000x2_1_0_0_1_n_n_wf
def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def scatter_S50000x2_S800000x1_S800000x2_1_0_0_1 : ScatterDims S50000x2 S800000x1 S800000x2 where
  updateWindowDims := [1]
  insertedWindowDims := [0]
  scatterDimsToOperandDims := [0]
  indexVectorDim := 1
  wf := scatter_S50000x2_S800000x1_S800000x2_1_0_0_1_wf

abbrev win0_0 : Pipeline.Window sig grid0 :=
  Pipeline.Window.ofSpec (Memref.whole main_v25) S2000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S16x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v39) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S2000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v50) S2000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v51) S1x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S64x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v52) S2000x2.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x16 : Shape := ⟨2, ![50000, 16]⟩
abbrev S2x800000 : Shape := ⟨2, ![2, 800000]⟩
abbrev S16x64 : Shape := ⟨2, ![16, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x16 : Shape := ⟨2, ![800000, 16]⟩
abbrev S50000x1 : Shape := ⟨2, ![50000, 1]⟩
abbrev S50000x64 : Shape := ⟨2, ![50000, 64]⟩
abbrev S1x64 : Shape := ⟨2, ![1, 64]⟩
abbrev S800000x64 : Shape := ⟨2, ![800000, 64]⟩
abbrev S50000x2 : Shape := ⟨2, ![50000, 2]⟩
abbrev S1x2 : Shape := ⟨2, ![1, 2]⟩

abbrev nBuf : Space → Nat
  | .hbm => 121
  | .vmem => 0
  | .smem => 0
  | _ => 0

abbrev bufTy : (tb : Table) → Fin (tcTables nBuf tb) → BufTy
  | .hbm, ⟨0, _⟩ => ⟨S50000x16, .f32⟩
  | .hbm, ⟨1, _⟩ => ⟨S2x800000, .i32⟩
  | .hbm, ⟨2, _⟩ => ⟨S16x64, .f32⟩
  | .hbm, ⟨3, _⟩ => ⟨S64, .f32⟩
  | .hbm, ⟨4, _⟩ => ⟨S16x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x2, .f32⟩
  | .hbm, ⟨9, _⟩ => ⟨S2, .f32⟩
  | .hbm, ⟨10, _⟩ => ⟨S64x2, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x16, .f32⟩
  | .hbm, ⟨43, _⟩ => ⟨S_, .f32⟩
  | .hbm, ⟨44, _⟩ => ⟨S50000x16, .f32⟩
  | .hbm, ⟨45, _⟩ => ⟨S800000x1, .i32⟩
  | .hbm, ⟨46, _⟩ => ⟨S50000x16, .f32⟩
  | .hbm, ⟨47, _⟩ => ⟨S50000x1, .f32⟩
  | .hbm, ⟨48, _⟩ => ⟨S50000x16, .f32⟩
  | .hbm, ⟨49, _⟩ => ⟨S50000x16, .f32⟩
  | .hbm, ⟨50, _⟩ => ⟨S50000x64, .f32⟩
  | .hbm, ⟨51, _⟩ => ⟨S1x64, .f32⟩
  | .hbm, ⟨52, _⟩ => ⟨S50000x64, .f32⟩
  | .hbm, ⟨53, _⟩ => ⟨S50000x64, .f32⟩
  | .hbm, ⟨54, _⟩ => ⟨S50000x64, .f32⟩
  | .hbm, ⟨55, _⟩ => ⟨S50000x64, .f32⟩
  | .hbm, ⟨56, _⟩ => ⟨S_, .f32⟩
  | .hbm, ⟨57, _⟩ => ⟨S50000x64, .f32⟩
  | .hbm, ⟨58, _⟩ => ⟨S50000x64, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x64, .f32⟩
  | .hbm, ⟨68, _⟩ => ⟨S_, .f32⟩
  | .hbm, ⟨69, _⟩ => ⟨S50000x64, .f32⟩
  | .hbm, ⟨70, _⟩ => ⟨S800000x1, .i32⟩
  | .hbm, ⟨71, _⟩ => ⟨S50000x64, .f32⟩
  | .hbm, ⟨72, _⟩ => ⟨S50000x1, .f32⟩
  | .hbm, ⟨73, _⟩ => ⟨S50000x64, .f32⟩
  | .hbm, ⟨74, _⟩ => ⟨S50000x64, .f32⟩
  | .hbm, ⟨75, _⟩ => ⟨S50000x64, .f32⟩
  | .hbm, ⟨76, _⟩ => ⟨S1x64, .f32⟩
  | .hbm, ⟨77, _⟩ => ⟨S50000x64, .f32⟩
  | .hbm, ⟨78, _⟩ => ⟨S50000x64, .f32⟩
  | .hbm, ⟨79, _⟩ => ⟨S50000x64, .f32⟩
  | .hbm, ⟨80, _⟩ => ⟨S50000x64, .f32⟩
  | .hbm, ⟨81, _⟩ => ⟨S_, .f32⟩
  | .hbm, ⟨82, _⟩ => ⟨S50000x64, .f32⟩
  | .hbm, ⟨83, _⟩ => ⟨S50000x64, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x64, .f32⟩
  | .hbm, ⟨93, _⟩ => ⟨S_, .f32⟩
  | .hbm, ⟨94, _⟩ => ⟨S50000x64, .f32⟩
  | .hbm, ⟨95, _⟩ => ⟨S800000x1, .i32⟩
  | .hbm, ⟨96, _⟩ => ⟨S50000x64, .f32⟩
  | .hbm, ⟨97, _⟩ => ⟨S50000x1, .f32⟩
  | .hbm, ⟨98, _⟩ => ⟨S50000x64, .f32⟩
  | .hbm, ⟨99, _⟩ => ⟨S50000x64, .f32⟩
  | .hbm, ⟨100, _⟩ => ⟨S50000x2, .f32⟩
  | .hbm, ⟨101, _⟩ => ⟨S1x2, .f32⟩
  | .hbm, ⟨102, _⟩ => ⟨S50000x2, .f32⟩
  | .hbm, ⟨103, _⟩ => ⟨S50000x2, .f32⟩
  | .hbm, ⟨104, _⟩ => ⟨S50000x2, .f32⟩
  | .hbm, ⟨105, _⟩ => ⟨S50000x2, .f32⟩
  | .hbm, ⟨106, _⟩ => ⟨S_, .f32⟩
  | .hbm, ⟨107, _⟩ => ⟨S50000, .f32⟩
  | .hbm, ⟨108, _⟩ => ⟨S_, .f32⟩
  | .hbm, ⟨109, _⟩ => ⟨S50000, .f32⟩
  | .hbm, ⟨110, _⟩ => ⟨S50000, .f32⟩
  | .hbm, ⟨111, _⟩ => ⟨S50000x1, .f32⟩
  | .hbm, ⟨112, _⟩ => ⟨S50000x2, .f32⟩
  | .hbm, ⟨113, _⟩ => ⟨S50000x2, .f32⟩
  | .hbm, ⟨114, _⟩ => ⟨S50000x2, .f32⟩
  | .hbm, ⟨115, _⟩ => ⟨S_, .f32⟩
  | .hbm, ⟨116, _⟩ => ⟨S50000, .f32⟩
  | .hbm, ⟨117, _⟩ => ⟨S50000x1, .f32⟩
  | .hbm, ⟨118, _⟩ => ⟨S50000x1, .f32⟩
  | .hbm, ⟨119, _⟩ => ⟨S50000x2, .f32⟩
  | .hbm, ⟨120, _⟩ => ⟨S50000x2, .f32⟩
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call1_cst : Ref sig .tc := ⟨.hbm, 56, rfl⟩
abbrev main_call1_v0 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call2_cst : Ref sig .tc := ⟨.hbm, 81, rfl⟩
abbrev main_call2_v0 : Ref sig .tc := ⟨.hbm, 82, rfl⟩
abbrev main_v54 : Ref sig .tc := ⟨.hbm, 83, rfl⟩
abbrev main_c_10 : Ref sig .tc := ⟨.hbm, 84, rfl⟩
abbrev main_v55 : Ref sig .tc := ⟨.hbm, 85, rfl⟩
abbrev main_v56 : Ref sig .tc := ⟨.hbm, 86, rfl⟩
abbrev main_c_11 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_12 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_call3_cst : Ref sig .tc := ⟨.hbm, 106, rfl⟩
abbrev main_call3_v0 : Ref sig .tc := ⟨.hbm, 107, rfl⟩
abbrev main_call3_cst_0 : Ref sig .tc := ⟨.hbm, 108, rfl⟩
abbrev main_call3_v1 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_call3_v5 : Ref sig .tc := ⟨.hbm, 113, rfl⟩
abbrev main_call3_v6 : Ref sig .tc := ⟨.hbm, 114, rfl⟩
abbrev main_call3_cst_1 : Ref sig .tc := ⟨.hbm, 115, rfl⟩
abbrev main_call3_v7 : Ref sig .tc := ⟨.hbm, 116, rfl⟩
abbrev main_call3_v8 : Ref sig .tc := ⟨.hbm, 117, rfl⟩
abbrev main_call3_v9 : Ref sig .tc := ⟨.hbm, 118, rfl⟩
abbrev main_call3_v10 : Ref sig .tc := ⟨.hbm, 119, rfl⟩
abbrev main_v74 : Ref sig .tc := ⟨.hbm, 120, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x16 : S_.BroadcastsInDim S50000x16 (![] : Fin 0 → Fin S50000x16.rank)
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S50000x1_S50000x2_0_1 : S50000x1.BroadcastsInDim S50000x2 (![0, 1] : Fin 2 → Fin S50000x2.rank)
  scatter_S50000_S800000x1_S800000_n_0_0_1_wf : ScatterDims.WF S50000 S800000x1 S800000 [] [0] [0] 1
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  dot_S50000x16_S16x64_S50000x64_1_0_0_1_n_n_wf : DotDims.WF S50000x16 S16x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x2_S50000x2_1_0_0_1_n_n_wf : DotDims.WF S50000x64 S64x2 S50000x2 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S50000x16_S16x64_S50000x64_1_0_0_1_n_n : DotDims S50000x16 S16x64 S50000x64 where
  lhsContracting := [1]
  rhsContracting := [0]
  lhsNonContracting := [0]
  rhsNonContracting := [1]
  lhsBatch := []
  rhsBatch := []
  wf := dot_S50000x16_S16x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf

class Facts : Prop extends Facts₀ where

variable [Facts]
-- ==== Proof.Spec.lean ====
/-
  The mathematics both programs compute, as functions of whole arrays over the extended reals.

  A three-layer mean-aggregating graph network on 50000 nodes and 800000 edges.  For an edge list (src, dst) the
  neighbour sum of a node-feature array h is  N h (r, o) = sum over the edges e with dst e = r of h (src e, o),
  and with inv r the reciprocal in-degree of node r (zero for an isolated node) one layer is
      pre (r, o) = ((sum_k (N h (r,k) * inv r) * Wl (k,o)) + b o) + sum_k h (r,k) * Wr (k,o).
  Layers one and two apply max(., 0) to pre; layer three applies the row log-softmax over its two columns.
  One of the two programs forms layer three's first summand the other way round: it multiplies h by Wl first
  (a 64 -> 2 projection) and takes the neighbour sum of the two-column result,
      zK (r, o) = ((N (h Wl) (r,o) * inv r) + b o) + sum_k h (r,k) * Wr (k,o).
  Over real entries the two agree because the neighbour sum is linear.

  The neighbour sum itself is kept as ONE opaque function of (dst, src, h): a scatter-add into zeros of gathered
  rows, over whichever dimension records the program at hand carries.
-/
import Idealize.ShloMosaic.PureOps.Ideal
import Idealize.ShloMosaic.PureOps.Ideal.Laws
import Idealize.ShloMosaic.Lib.ValueIdx

open scoped BigOperators

noncomputable section

namespace Cert.Sage

open Idealize.ShloMosaic Idealize.ShloMosaic.ValueIdx

/-- A rank-2 array of extended reals. -/
abbrev Mat (a b : ℕ) := (⟨2, ![a, b]⟩ : Shape).Idx → EReal
/-- The edge-index column: one 32-bit node number per edge. -/
abbrev EdgeCol := IVec (⟨2, ![800000, 1]⟩ : Shape) 32

/-- The float word of +0.0, read as an extended real. -/
abbrev z32 : EReal := Ideal.ofBits .f32 0x00000000#32
/-- The float word of -infinity, read as an extended real. -/
abbrev ninf32 : EReal := Ideal.ofBits .f32 0xFF800000#32

/-- The float word of 1.0, read as an extended real. -/
abbrev one32 : EReal := Ideal.ofBits .f32 0x3F800000#32

/-- The in-degree of every node: a one scatter-added at `dst` into zeros, once per edge. -/
def degOf (vd : ScatterDims ⟨1, ![50000]⟩ ⟨2, ![800000, 1]⟩ ⟨1, ![800000]⟩) (dst : EdgeCol) : (⟨1, ![50000]⟩ : Shape).Idx → EReal :=
  Host.scatterAdd (F := Ideal) (φ := .f32) vd (fun _ => z32) dst (fun _ => one32)

/-- The reciprocal in-degree, zero at a node no edge points to: where deg > 0 it is 1 / max(deg, 1). -/
def invOf (vd : ScatterDims ⟨1, ![50000]⟩ ⟨2, ![800000, 1]⟩ ⟨1, ![800000]⟩) (dst : EdgeCol) : (⟨1, ![50000]⟩ : Shape).Idx → EReal :=
  select (cmpf (F := Ideal) (φ := .f32) .ogt (degOf vd dst) (fun _ => z32))
    (Host.divf (F := Ideal) (φ := .f32) (fun _ => one32) (maximumf (F := Ideal) (φ := .f32) (degOf vd dst) (fun _ => one32)))
    (fun _ => z32)

/-- The neighbour sum of `h`: rows of `h` gathered at `src`, scatter-added at `dst` into zeros. -/
def nbrSum {C : ℕ} (sd : ScatterDims ⟨2, ![50000, C]⟩ ⟨2, ![800000, 1]⟩ ⟨2, ![800000, C]⟩)
    (gd : GatherDims ⟨2, ![50000, C]⟩ ⟨2, ![800000, 1]⟩ ⟨2, ![800000, C]⟩) (dst src : EdgeCol) (h : Mat 50000 C) : Mat 50000 C :=
  Host.scatterAdd (F := Ideal) (φ := .f32) sd (fun _ => z32) dst (Host.gather gd h src)

/-- One layer before its activation, at node `r` and output feature `o`. -/
def pre (D C : ℕ) (agg root : Mat 50000 D) (inv : Fin 50000 → EReal) (Wl Wr : Mat D C) (b : Fin C → EReal)
    (r : Fin 50000) (o : Fin C) : EReal :=
  ((∑ k : Fin D, (agg (ix2 r k) * inv r) * Wl (ix2 k o)) + b o) + ∑ k : Fin D, root (ix2 r k) * Wr (ix2 k o)

/-- A hidden layer: the pre-activation clipped below at zero. -/
def layer (D : ℕ) (agg root : Mat 50000 D) (inv : Fin 50000 → EReal) (Wl Wr : Mat D 64) (b : Fin 64 → EReal) : Mat 50000 64 :=
  fun i => max (pre D 64 agg root inv Wl Wr b (i 0) (i 1)) z32

/-- The 64 -> 2 projection of the node features. -/
def proj (h : Mat 50000 64) (W : Mat 64 2) : Mat 50000 2 :=
  fun i => ∑ k : Fin 64, h (ix2 (i 0) k) * W (ix2 k (i 1))

/-- Layer three before the softmax when the neighbour sum was taken AFTER the projection. -/
def zK (agg2 : Mat 50000 2) (root : Mat 50000 64) (inv : Fin 50000 → EReal) (Wr : Mat 64 2) (b : Fin 2 → EReal)
    (r : Fin 50000) (o : Fin 2) : EReal :=
  ((agg2 (ix2 r o) * inv r) + b o) + ∑ k : Fin 64, root (ix2 r k) * Wr (ix2 k o)

/-- The log-softmax of one row of two logits: shift by max(-inf, row maximum), subtract the log of the sum of
    exponentials of the shifted row. -/
def lsm (z : Fin 2 → EReal) (o : Fin 2) : EReal :=
  (z o - max ninf32 ((Finset.univ : Finset (Fin 2)).fold max ninf32 z))
    - Ideal.log (∑ j : Fin 2, Ideal.exp (z j - max ninf32 ((Finset.univ : Finset (Fin 2)).fold max ninf32 z)))

/-- The network's output when layer three projects first and sums neighbours second. -/
def outK (agg2 : Mat 50000 2) (root : Mat 50000 64) (inv : Fin 50000 → EReal) (Wr : Mat 64 2) (b : Fin 2 → EReal) : Mat 50000 2 :=
  fun i => lsm (fun j => zK agg2 root inv Wr b (i 0) j) (i 1)

/-- The network's output when layer three sums neighbours first and projects second. -/
def outR (agg root : Mat 50000 64) (inv : Fin 50000 → EReal) (Wl Wr : Mat 64 2) (b : Fin 2 → EReal) : Mat 50000 2 :=
  fun i => lsm (fun j => pre 64 2 agg root inv Wl Wr b (i 0) j) (i 1)

/-- The dimension records of the gathers and scatter-adds a program carries: the in-degree count, and the neighbour
    sums of 16-, 64- and 2-column features. -/
structure Recs where
  v : ScatterDims ⟨1, ![50000]⟩ ⟨2, ![800000, 1]⟩ ⟨1, ![800000]⟩
  s16 : ScatterDims ⟨2, ![50000, 16]⟩ ⟨2, ![800000, 1]⟩ ⟨2, ![800000, 16]⟩
  g16 : GatherDims ⟨2, ![50000, 16]⟩ ⟨2, ![800000, 1]⟩ ⟨2, ![800000, 16]⟩
  s64 : ScatterDims ⟨2, ![50000, 64]⟩ ⟨2, ![800000, 1]⟩ ⟨2, ![800000, 64]⟩
  g64 : GatherDims ⟨2, ![50000, 64]⟩ ⟨2, ![800000, 1]⟩ ⟨2, ![800000, 64]⟩
  s2 : ScatterDims ⟨2, ![50000, 2]⟩ ⟨2, ![800000, 1]⟩ ⟨2, ![800000, 2]⟩
  g2 : GatherDims ⟨2, ![50000, 2]⟩ ⟨2, ![800000, 1]⟩ ⟨2, ![800000, 2]⟩

/-- A rank-1 array of extended reals. -/
abbrev Vec1 (a : ℕ) := (⟨1, ![a]⟩ : Shape).Idx → EReal

/-- The reciprocal in-degree by node number. -/
def inv (R : Recs) (dst : EdgeCol) : Fin 50000 → EReal := fun r => invOf R.v dst (ix1 r)

/-- The first hidden layer: 16 input features. -/
def h1 (R : Recs) (dst src : EdgeCol) (x : Mat 50000 16) (W1l : Mat 16 64) (b1 : Vec1 64) (W1r : Mat 16 64) : Mat 50000 64 :=
  layer 16 (nbrSum R.s16 R.g16 dst src x) x (inv R dst) W1l W1r (fun o => b1 (ix1 o))

/-- The second hidden layer, over the first. -/
def h2 (R : Recs) (dst src : EdgeCol) (x : Mat 50000 16) (W1l : Mat 16 64) (b1 : Vec1 64) (W1r : Mat 16 64)
    (W2l : Mat 64 64) (b2 : Vec1 64) (W2r : Mat 64 64) : Mat 50000 64 :=
  layer 64 (nbrSum R.s64 R.g64 dst src (h1 R dst src x W1l b1 W1r)) (h1 R dst src x W1l b1 W1r) (inv R dst) W2l W2r (fun o => b2 (ix1 o))

/-- The whole network when layer three projects first and sums neighbours second. -/
def netK (R : Recs) (dst src : EdgeCol) (x : Mat 50000 16) (W1l : Mat 16 64) (b1 : Vec1 64) (W1r : Mat 16 64)
    (W2l : Mat 64 64) (b2 : Vec1 64) (W2r : Mat 64 64) (W3l : Mat 64 2) (b3 : Vec1 2) (W3r : Mat 64 2) : Mat 50000 2 :=
  outK (nbrSum R.s2 R.g2 dst src (proj (h2 R dst src x W1l b1 W1r W2l b2 W2r) W3l)) (h2 R dst src x W1l b1 W1r W2l b2 W2r)
    (inv R dst) W3r (fun o => b3 (ix1 o))

/-- The whole network when layer three sums neighbours first and projects second. -/
def netR (R : Recs) (dst src : EdgeCol) (x : Mat 50000 16) (W1l : Mat 16 64) (b1 : Vec1 64) (W1r : Mat 16 64)
    (W2l : Mat 64 64) (b2 : Vec1 64) (W2r : Mat 64 64) (W3l : Mat 64 2) (b3 : Vec1 2) (W3r : Mat 64 2) : Mat 50000 2 :=
  outR (nbrSum R.s64 R.g64 dst src (h2 R dst src x W1l b1 W1r W2l b2 W2r)) (h2 R dst src x W1l b1 W1r W2l b2 W2r)
    (inv R dst) W3l W3r (fun o => b3 (ix1 o))

/-- An array of extended reals all of whose entries are real numbers. -/
def IsReal {ι : Type} (f : ι → EReal) : Prop := ∀ i, ∃ x : ℝ, f i = (x : EReal)

/-- The two outputs agree as soon as the two pre-softmax logits do. -/
theorem outK_eq_outR (agg2 : Mat 50000 2) (agg root : Mat 50000 64) (inv : Fin 50000 → EReal) (Wl Wr : Mat 64 2) (b : Fin 2 → EReal)
    (h : ∀ r o, zK agg2 root inv Wr b r o = pre 64 2 agg root inv Wl Wr b r o) :
    outK agg2 root inv Wr b = outR agg root inv Wl Wr b := by
  funext i
  unfold outK outR
  exact congrArg (fun z => lsm z (i 1)) (funext fun j => h (i 0) j)

end Cert.Sage

end
-- ==== Proof.LibLayoutColumn.lean ====
/-
  Layout operations on a column, read at an index: the forms a "sum the rows, keep the axis" computation meets.

  A vector of length `a` viewed as an `[a, 1]` column, a column broadcast across `b` lanes, a column placed under a
  leading unit axis, an array with two leading unit axes flattened, and the all-unit shapes a reduction to one element
  passes through.  Each reads the operand at the index with the same row-major position (a cast) or at the index with
  the unit axes at zero (a broadcast).  Last, a sum over the indices of a `[1, a, 1]` array is the sum over its one
  free coordinate.  Every statement holds at any extents.
-/
import Idealize.ShloMosaic.Lib.ValueIdx
import Idealize.ShloMosaic.Lib.Pipeline.Value

noncomputable section

open scoped BigOperators

namespace Idealize.ShloMosaic.ValueIdx

open Idealize.ShloMosaic

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` array cast to an `[a, 1]` column reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[1, a, 1]` reads, at `(u, p, w)`, the operand at `(p, 0)`. -/
theorem shapeCast_a1_1a1_apply {a : ℕ} (x : (⟨2, ![a, 1]⟩ : Shape).Idx → α)
    (h : (⟨2, ![a, 1]⟩ : Shape).ShapeCasts ⟨3, ![1, a, 1]⟩) (u : Fin 1) (p : Fin a) (w : Fin 1) :
    shapeCast ⟨3, ![1, a, 1]⟩ x h (ix3 u p w) = x (ix2 p (0 : Fin 1)) :=
  shapeCast_apply x h _ _ (by
    have hu : u.val = 0 := by omega
    have hw : w.val = 0 := by omega
    rw [Shape.rowMajor_val_three, Shape.rowMajor_val_two]
    show p.val * 1 + 0 = (u.val * a + p.val) * 1 + w.val
    rw [hu, hw, Nat.zero_mul, Nat.zero_add])

/-- A one-element array cast to `[1, 1, 1]` reads its one element. -/
theorem shapeCast_1_111_apply (x : (⟨1, ![1]⟩ : Shape).Idx → α)
    (h : (⟨1, ![1]⟩ : Shape).ShapeCasts ⟨3, ![1, 1, 1]⟩) (u v w : Fin 1) :
    shapeCast ⟨3, ![1, 1, 1]⟩ x h (ix3 u v w) = x (ix1 (0 : Fin 1)) :=
  shapeCast_apply x h _ _ (by
    have hu : u.val = 0 := by omega
    have hv : v.val = 0 := by omega
    have hw : w.val = 0 := by omega
    rw [Shape.rowMajor_val_three, Shape.rowMajor_val_one]
    show 0 = (u.val * 1 + v.val) * 1 + w.val
    rw [hu, hv, hw])

/-- A `[1, 1]` array cast to `[1, 1, 1]` reads its one element. -/
theorem shapeCast_11_111_apply (x : (⟨2, ![1, 1]⟩ : Shape).Idx → α)
    (h : (⟨2, ![1, 1]⟩ : Shape).ShapeCasts ⟨3, ![1, 1, 1]⟩) (u v w : Fin 1) :
    shapeCast ⟨3, ![1, 1, 1]⟩ x h (ix3 u v w) = x (ix2 (0 : Fin 1) (0 : Fin 1)) :=
  shapeCast_apply x h _ _ (by
    have hu : u.val = 0 := by omega
    have hv : v.val = 0 := by omega
    have hw : w.val = 0 := by omega
    rw [Shape.rowMajor_val_three, Shape.rowMajor_val_two]
    show 0 * 1 + 0 = (u.val * 1 + v.val) * 1 + w.val
    rw [hu, hv, hw])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, 1]` array broadcast to `[1, 1, b]` reads its one element in every lane. -/
theorem broadcastTo_111_11b_apply {b : ℕ} (v : (⟨3, ![1, 1, 1]⟩ : Shape).Idx → α)
    (h : (⟨3, ![1, 1, 1]⟩ : Shape).Broadcasts ⟨3, ![1, 1, b]⟩) (u w : Fin 1) (l : Fin b) :
    broadcastTo ⟨3, ![1, 1, b]⟩ v h (ix3 u w l) = v (ix3 (0 : Fin 1) (0 : Fin 1) (0 : Fin 1)) := by
  refine broadcastTo_apply v h (ix3 u w l) (ix3 (0 : Fin 1) (0 : Fin 1) (0 : Fin 1)) fun ax => ?_
  match ax with
  | ⟨0, _⟩ => rfl
  | ⟨1, _⟩ => rfl
  | ⟨2, _⟩ => rfl

/-- The indices of a `[1, a, 1]` array are its one free coordinate … -/
def idxEquiv1a1 {a : ℕ} : (⟨3, ![1, a, 1]⟩ : Shape).Idx ≃ Fin a where
  toFun i := i 1
  invFun p := ix3 (0 : Fin 1) p (0 : Fin 1)
  left_inv i := by
    funext ax
    match ax with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over them is the sum over that coordinate. -/
theorem sum_idx_1a1 {M : Type*} [AddCommMonoid M] {a : ℕ} (f : (⟨3, ![1, a, 1]⟩ : Shape).Idx → M) :
    ∑ i, f i = ∑ p : Fin a, f (ix3 (0 : Fin 1) p (0 : Fin 1)) := by
  rw [← Equiv.sum_comp (idxEquiv1a1 (a := a)).symm f]
  rfl

end Idealize.ShloMosaic.ValueIdx

end
-- ==== Proof.Fold0.lean ====
/-
  The host side of the kernel's program before its first call, read through the fold of buffer contents.

  From the edge-index input the program cuts the two rows (src, dst), counts each node's in-degree by scatter-adding
  ones at dst, takes the reciprocal (zero where the degree is zero), wraps negative src entries by 50000, gathers the
  rows of x at src and scatter-adds them at dst: the neighbour sum of x.  Each of these buffers, at the entry of the
  first call, holds the named function of the launch contents; the arguments and the two index rows are then never
  written again.
-/
import proofs.«404284_j84817014161825_4_alg».proof.Proof.Gen.KernelIdeal.Frame
import proofs.«404284_j84817014161825_4_alg».proof.Proof.Spec
import proofs.«404284_j84817014161825_4_alg».proof.Proof.LibLayoutColumn
import Idealize.ShloMosaic.Lib.StableHlo.Run
import Idealize.ShloMosaic.Lib.ValueLayout

set_option maxRecDepth 16384

noncomputable section

namespace Cert.KernelIdeal.Fold

open Cert.KernelIdeal Cert.KernelIdeal.Gen Cert.Sage
open Idealize.ShloMosaic Idealize.ShloMosaic.TcCoe Idealize.ShloMosaic.ValueIdx Idealize.SL.Sem Idealize.ShloMosaic.StableHlo

/-- A host stretch leaves a buffer none of its operations writes as it found it. -/
macro "kept_by " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Row 0 of the edge index: the source node of every edge. -/
def srcRow (ei : IVec S2x800000 32) : IVec S800000 32 :=
  shapeCast _ (extractStridedSlice S1x800000 ![0, 0] ei slices_S2x800000_S1x800000_0_0) shapeCasts_S1x800000_S800000
/-- Row 1 of the edge index: the target node of every edge. -/
def dstRow (ei : IVec S2x800000 32) : IVec S800000 32 :=
  shapeCast _ (extractStridedSlice S1x800000 ![1, 0] ei slices_S2x800000_S1x800000_1_0) shapeCasts_S1x800000_S800000
/-- A row of node numbers as a column of scatter indices. -/
def dstCol (d : IVec S800000 32) : EdgeCol := broadcastInDim S800000x1 ![0] bcast_S800000_S800000x1_0 d
/-- A row of node numbers, a negative one wrapped by 50000, as a column of gather indices. -/
def srcCol (s : IVec S800000 32) : EdgeCol :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)
/-- The target nodes as a column of scatter indices. -/
def dstK (ei : IVec S2x800000 32) : EdgeCol :=
  broadcastInDim S800000x1 ![0] bcast_S800000_S800000x1_0 (dstRow ei)
/-- The source nodes, a negative one wrapped by 50000, as a column of gather indices. -/
def srcK (ei : IVec S2x800000 32) : EdgeCol :=
  broadcastInDim S800000x1 ![0] bcast_S800000_S800000x1_0
    (select (cmpi .slt (srcRow ei) (broadcastInDim S800000 ![] bcast_S_S800000 (constantI S_ 32 0#32)))
      (addi (srcRow ei) (broadcastInDim S800000 ![] bcast_S_S800000 (constantI S_ 32 50000#32))) (srcRow ei))

/-- The gather and scatter-add records this program carries. -/
def recsK : Recs :=
  ⟨scatter_S50000_S800000x1_S800000_n_0_0_1, scatter_S50000x16_S800000x1_S800000x16_1_0_0_1,
   gather_S50000x16_S800000x1_S800000x16_1_0_n_n_0_1_116, scatter_S50000x64_S800000x1_S800000x64_1_0_0_1,
   gather_S50000x64_S800000x1_S800000x64_1_0_n_n_0_1_164, scatter_S50000x2_S800000x1_S800000x2_1_0_0_1,
   gather_S50000x2_S800000x1_S800000x2_1_0_n_n_0_1_12⟩

variable (m : (ℓ : Loc nD τ sig) → Buf (Elt Ideal) ℓ) (ρ : Dev nD → PrngReg)

/-- The edge-index input as launched. -/
abbrev ei (c : Dev nD) : IVec S2x800000 32 := m ((c : Thread nD τ).loc main_arg1)

theorem dstK_eq (e : IVec S2x800000 32) : dstK e = dstCol (dstRow e) := rfl
theorem srcK_eq (e : IVec S2x800000 32) : srcK e = srcCol (srcRow e) := rfl

/-! ## Each stretch from ANY contents W: what it writes, as functions of what it reads -/

section Stretches
variable (W : Valuation τ sig (Elt Ideal))

theorem s0_v1 : StableHlo.after hostOps0 W (Proc.devRef .tc main_v1) = srcRow (W (Proc.devRef .tc main_arg1)) := by
  after_results; rfl
theorem s0_v3 : StableHlo.after hostOps0 W (Proc.devRef .tc main_v3) = dstRow (W (Proc.devRef .tc main_arg1)) := by
  after_results; rfl
theorem s0_v9 : StableHlo.after hostOps0 W (Proc.devRef .tc main_v9)
    = cmpf (F := Ideal) (φ := .f32) .ogt (degOf recsK.v (dstK (W (Proc.devRef .tc main_arg1)))) (fun _ => z32) := by
  after_results; rfl
theorem s0_v13 : StableHlo.after hostOps0 W (Proc.devRef .tc main_v13)
    = Host.divf (F := Ideal) (φ := .f32) (fun _ => one32) (maximumf (F := Ideal) (φ := .f32) (degOf recsK.v (dstK (W (Proc.devRef .tc main_arg1)))) (fun _ => one32)) := by
  after_results; rfl
theorem s0_cst4 : StableHlo.after hostOps0 W (Proc.devRef .tc main_cst_4) = constant (F := Ideal) S_ .f32 0x00000000#32 := by
  after_results

theorem s01_v14 : StableHlo.after hostOps0_1 W (Proc.devRef .tc main_v14)
    = select (W (Proc.devRef .tc main_v9) : IVec S50000 1) (W (Proc.devRef .tc main_v13) : FVec Ideal S50000 .f32)
        (broadcastInDim S50000 ![] bcast_S_S50000 (W (Proc.devRef .tc main_cst_4) : FVec Ideal S_ .f32)) := by
  after_results; rfl

theorem s02_v15 : StableHlo.after hostOps0_2 W (Proc.devRef .tc main_v15)
    = shapeCast S50000x1 (W (Proc.devRef .tc main_v14) : FVec Ideal S50000 .f32) shapeCasts_S50000_S50000x1 := by
  after_results; rfl
set_option maxHeartbeats 2000000 in
theorem s02_v25 : StableHlo.after hostOps0_2 W (Proc.devRef .tc main_v25)
    = nbrSum recsK.s16 recsK.g16 (dstCol (W (Proc.devRef .tc main_v3))) (srcCol (W (Proc.devRef .tc main_v1))) (W (Proc.devRef .tc main_arg0)) := by
  after_results; rfl
theorem s02_v26 : StableHlo.after hostOps0_2 W (Proc.devRef .tc main_v26)
    = shapeCast S1x64 (W (Proc.devRef .tc main_arg3) : FVec Ideal S64 .f32) shapeCasts_S64_S1x64 := by
  after_results; rfl

set_option maxHeartbeats 2000000 in
theorem s1_v37 : StableHlo.after hostOps1 W (Proc.devRef .tc main_v37)
    = nbrSum recsK.s64 recsK.g64 (dstCol (W (Proc.devRef .tc main_v3))) (srcCol (W (Proc.devRef .tc main_v1))) (W (Proc.devRef .tc main_v27)) := by
  after_results; rfl
theorem s1_v38 : StableHlo.after hostOps1 W (Proc.devRef .tc main_v38)
    = shapeCast S1x64 (W (Proc.devRef .tc main_arg6) : FVec Ideal S64 .f32) shapeCasts_S64_S1x64 := by
  after_results; rfl

set_option maxHeartbeats 2000000 in
theorem s3_v50 : StableHlo.after hostOps3 W (Proc.devRef .tc main_v50)
    = nbrSum recsK.s2 recsK.g2 (dstCol (W (Proc.devRef .tc main_v3))) (srcCol (W (Proc.devRef .tc main_v1))) (W (Proc.devRef .tc main_v40)) := by
  after_results; rfl
theorem s3_v51 : StableHlo.after hostOps3 W (Proc.devRef .tc main_v51)
    = shapeCast S1x2 (W (Proc.devRef .tc main_arg9) : FVec Ideal S2 .f32) shapeCasts_S2_S1x2 := by
  after_results; rfl

end Stretches

/-- No operation of a stretch writes the buffer: the side condition of "kept by the stretch". -/
macro "nw " ops:ident : tactic =>
  `(tactic| exact List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## The boundaries: what each buffer the next step reads holds, in terms of the launch contents -/

section Boundaries
variable (c : Dev nD)

/-- A buffer none of the three leading stretches writes holds its launch contents at the first call's entry. -/
theorem W3_kept (b : DevRef τ sig) (h2 : ∀ op ∈ (hostOps0_2 : List (HloOp τ sig (Elt Ideal))), b ∉ op.writes)
    (h1 : ∀ op ∈ (hostOps0_1 : List (HloOp τ sig (Elt Ideal))), b ∉ op.writes)
    (h0 : ∀ op ∈ (hostOps0 : List (HloOp τ sig (Elt Ideal))), b ∉ op.writes) : W3 m ρ c b = W0 m ρ c b :=
  (StableHlo.after_of_forall_not_mem _ _ h2).trans ((StableHlo.after_of_forall_not_mem _ _ h1).trans (StableHlo.after_of_forall_not_mem _ _ h0))
/-- A buffer the second stretch of host operations does not write is kept across it. -/
theorem W5_kept (b : DevRef τ sig) (h : ∀ op ∈ (hostOps1 : List (HloOp τ sig (Elt Ideal))), b ∉ op.writes) : W5 m ρ c b = W4 m ρ c b :=
  StableHlo.after_of_forall_not_mem _ _ h
/-- A buffer the last stretch of host operations does not write is kept across it. -/
theorem W8_kept (b : DevRef τ sig) (h : ∀ op ∈ (hostOps3 : List (HloOp τ sig (Elt Ideal))), b ∉ op.writes) : W8 m ρ c b = W7 m ρ c b :=
  StableHlo.after_of_forall_not_mem _ _ h

/-! ### Entry of the first call -/

theorem W3_arg0 : W3 m ρ c (Proc.devRef .tc main_arg0) = m ((c : Thread nD τ).loc main_arg0) :=
  W3_kept m ρ c _ (by nw hostOps0_2) (by nw hostOps0_1) (by nw hostOps0)
theorem W3_arg2 : W3 m ρ c (Proc.devRef .tc main_arg2) = m ((c : Thread nD τ).loc main_arg2) :=
  W3_kept m ρ c _ (by nw hostOps0_2) (by nw hostOps0_1) (by nw hostOps0)
theorem W3_arg4 : W3 m ρ c (Proc.devRef .tc main_arg4) = m ((c : Thread nD τ).loc main_arg4) :=
  W3_kept m ρ c _ (by nw hostOps0_2) (by nw hostOps0_1) (by nw hostOps0)
theorem W3_arg5 : W3 m ρ c (Proc.devRef .tc main_arg5) = m ((c : Thread nD τ).loc main_arg5) :=
  W3_kept m ρ c _ (by nw hostOps0_2) (by nw hostOps0_1) (by nw hostOps0)
theorem W3_arg6 : W3 m ρ c (Proc.devRef .tc main_arg6) = m ((c : Thread nD τ).loc main_arg6) :=
  W3_kept m ρ c _ (by nw hostOps0_2) (by nw hostOps0_1) (by nw hostOps0)
theorem W3_arg7 : W3 m ρ c (Proc.devRef .tc main_arg7) = m ((c : Thread nD τ).loc main_arg7) :=
  W3_kept m ρ c _ (by nw hostOps0_2) (by nw hostOps0_1) (by nw hostOps0)
theorem W3_arg8 : W3 m ρ c (Proc.devRef .tc main_arg8) = m ((c : Thread nD τ).loc main_arg8) :=
  W3_kept m ρ c _ (by nw hostOps0_2) (by nw hostOps0_1) (by nw hostOps0)
theorem W3_arg9 : W3 m ρ c (Proc.devRef .tc main_arg9) = m ((c : Thread nD τ).loc main_arg9) :=
  W3_kept m ρ c _ (by nw hostOps0_2) (by nw hostOps0_1) (by nw hostOps0)
theorem W3_arg10 : W3 m ρ c (Proc.devRef .tc main_arg10) = m ((c : Thread nD τ).loc main_arg10) :=
  W3_kept m ρ c _ (by nw hostOps0_2) (by nw hostOps0_1) (by nw hostOps0)

theorem W2_v1 : W2 m ρ c (Proc.devRef .tc main_v1) = srcRow (ei m c) :=
  (StableHlo.after_of_forall_not_mem _ _ (by nw hostOps0_1)).trans (s0_v1 (W0 m ρ c))
theorem W2_v3 : W2 m ρ c (Proc.devRef .tc main_v3) = dstRow (ei m c) :=
  (StableHlo.after_of_forall_not_mem _ _ (by nw hostOps0_1)).trans (s0_v3 (W0 m ρ c))
theorem W2_arg0 : W2 m ρ c (Proc.devRef .tc main_arg0) = m ((c : Thread nD τ).loc main_arg0) :=
  (StableHlo.after_of_forall_not_mem _ _ (by nw hostOps0_1)).trans (StableHlo.after_of_forall_not_mem _ _ (by nw hostOps0))
theorem W2_arg3 : W2 m ρ c (Proc.devRef .tc main_arg3) = m ((c : Thread nD τ).loc main_arg3) :=
  (StableHlo.after_of_forall_not_mem _ _ (by nw hostOps0_1)).trans (StableHlo.after_of_forall_not_mem _ _ (by nw hostOps0))
theorem W3_v1 : W3 m ρ c (Proc.devRef .tc main_v1) = srcRow (ei m c) :=
  (StableHlo.after_of_forall_not_mem _ _ (by nw hostOps0_2)).trans (W2_v1 m ρ c)
theorem W3_v3 : W3 m ρ c (Proc.devRef .tc main_v3) = dstRow (ei m c) :=
  (StableHlo.after_of_forall_not_mem _ _ (by nw hostOps0_2)).trans (W2_v3 m ρ c)

/-- The reciprocal in-degree vector, once the select has run. -/
theorem W2_v14 : W2 m ρ c (Proc.devRef .tc main_v14) = invOf recsK.v (dstK (ei m c)) := by
  refine (s01_v14 (W1 m ρ c)).trans ?_
  rw [show W1 m ρ c (Proc.devRef .tc main_v9) = _ from s0_v9 (W0 m ρ c),
    show W1 m ρ c (Proc.devRef .tc main_v13) = _ from s0_v13 (W0 m ρ c),
    show W1 m ρ c (Proc.devRef .tc main_cst_4) = _ from s0_cst4 (W0 m ρ c)]
  rfl

/-- The reciprocal in-degree column the calls read, by node number. -/
theorem W3_inv : (fun r : Fin 50000 => (W3 m ρ c (Proc.devRef .tc main_v15) : Mat 50000 1) (ix2 r (0 : Fin 1))) = inv recsK (dstK (ei m c)) := by
  funext r
  rw [show W3 m ρ c (Proc.devRef .tc main_v15) = _ from s02_v15 (W2 m ρ c), W2_v14]
  exact shapeCast_a_a1_apply _ _ r 0

/-- The neighbour sum of the input features. -/
theorem W3_v25 : W3 m ρ c (Proc.devRef .tc main_v25)
    = nbrSum recsK.s16 recsK.g16 (dstK (ei m c)) (srcK (ei m c)) (m ((c : Thread nD τ).loc main_arg0)) := by
  refine (s02_v25 (W2 m ρ c)).trans ?_
  rw [W2_v3, W2_v1, W2_arg0, dstK_eq, srcK_eq]

/-- The first bias as the row the first call reads, by column. -/
theorem W3_b1 : (fun o : Fin 64 => (W3 m ρ c (Proc.devRef .tc main_v26) : Mat 1 64) (ix2 (0 : Fin 1) o))
    = fun o => (m ((c : Thread nD τ).loc main_arg3) : Vec1 64) (ix1 o) := by
  funext o
  rw [show W3 m ρ c (Proc.devRef .tc main_v26) = _ from s02_v26 (W2 m ρ c), W2_arg3]
  exact shapeCast_a_1a_apply _ _ 0 o

end Boundaries

/-! ## The calls and the two later stretches -/

/-- What the first hidden-layer call leaves in its output array, for any entry contents. -/
def R0 : Prop := ∀ (V : (c : Dev nD) → (b : Ref sig .tc) → Buf (Elt Ideal) ((c : Thread nD τ).loc b)) (c : Dev nD), (dat0 V c).arrAt 6 cfg0.N
    = layer 16 (V c main_v25) (V c main_arg0) (fun r => V c main_v15 (ix2 r (0 : Fin 1))) (V c main_arg2) (V c main_arg4) (fun o => V c main_v26 (ix2 (0 : Fin 1) o))
/-- What the second hidden-layer call leaves in its output array. -/
def R1 : Prop := ∀ (V : (c : Dev nD) → (b : Ref sig .tc) → Buf (Elt Ideal) ((c : Thread nD τ).loc b)) (c : Dev nD), (dat1 V c).arrAt 6 cfg1.N
    = layer 64 (V c main_v37) (V c main_v27) (fun r => V c main_v15 (ix2 r (0 : Fin 1))) (V c main_arg5) (V c main_arg7) (fun o => V c main_v38 (ix2 (0 : Fin 1) o))
/-- What the projection call leaves in its output array. -/
def R2 : Prop := ∀ (V : (c : Dev nD) → (b : Ref sig .tc) → Buf (Elt Ideal) ((c : Thread nD τ).loc b)) (c : Dev nD), (dat2 V c).arrAt 2 cfg2.N = proj (V c main_v39) (V c main_arg8)
/-- What the last call leaves in its output array. -/
def R3 : Prop := ∀ (V : (c : Dev nD) → (b : Ref sig .tc) → Buf (Elt Ideal) ((c : Thread nD τ).loc b)) (c : Dev nD), (dat3 V c).arrAt 5 cfg3.N
    = outK (V c main_v50) (V c main_v39) (fun r => V c main_v15 (ix2 r (0 : Fin 1))) (V c main_arg10) (fun o => V c main_v51 (ix2 (0 : Fin 1) o))

section Run
variable (c : Dev nD)

/-- The first hidden layer, as a function of the launch contents. -/
abbrev H1 : Mat 50000 64 :=
  h1 recsK (dstK (ei m c)) (srcK (ei m c)) (m ((c : Thread nD τ).loc main_arg0)) (m ((c : Thread nD τ).loc main_arg2))
    (m ((c : Thread nD τ).loc main_arg3)) (m ((c : Thread nD τ).loc main_arg4))
/-- The second hidden layer, as a function of the launch contents. -/
abbrev H2 : Mat 50000 64 :=
  h2 recsK (dstK (ei m c)) (srcK (ei m c)) (m ((c : Thread nD τ).loc main_arg0)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-! ### Exit of the first call -/

theorem W4_v27 (hr0 : R0) : W4 m ρ c (Proc.devRef .tc main_v27) = H1 m c := by
  refine (W4_arr m ρ c 6).trans ((hr0 (V3 m ρ) c).trans ?_)
  show layer 16 (W3 m ρ c (Proc.devRef .tc main_v25)) (W3 m ρ c (Proc.devRef .tc main_arg0))
      (fun r : Fin 50000 => (W3 m ρ c (Proc.devRef .tc main_v15) : Mat 50000 1) (ix2 r (0 : Fin 1)))
      (W3 m ρ c (Proc.devRef .tc main_arg2)) (W3 m ρ c (Proc.devRef .tc main_arg4))
      (fun o : Fin 64 => (W3 m ρ c (Proc.devRef .tc main_v26) : Mat 1 64) (ix2 (0 : Fin 1) o)) = _
  rw [W3_v25, W3_arg0, W3_arg2, W3_arg4, W3_inv, W3_b1]
  rfl
theorem W4_v1 : W4 m ρ c (Proc.devRef .tc main_v1) = srcRow (ei m c) := (W4_of_ne m ρ c main_v1 (by decide)).trans (W3_v1 m ρ c)
theorem W4_v3 : W4 m ρ c (Proc.devRef .tc main_v3) = dstRow (ei m c) := (W4_of_ne m ρ c main_v3 (by decide)).trans (W3_v3 m ρ c)
theorem W4_v15 : W4 m ρ c (Proc.devRef .tc main_v15) = W3 m ρ c (Proc.devRef .tc main_v15) :=
  (W4_arr m ρ c 2).trans (((dat0 (V3 m ρ) c).arrAt_in 2 rfl _).trans (A_eq0 (V3 m ρ) c 2))
theorem W4_arg5 : W4 m ρ c (Proc.devRef .tc main_arg5) = m ((c : Thread nD τ).loc main_arg5) := (W4_of_ne m ρ c main_arg5 (by decide)).trans (W3_arg5 m ρ c)
theorem W4_arg6 : W4 m ρ c (Proc.devRef .tc main_arg6) = m ((c : Thread nD τ).loc main_arg6) := (W4_of_ne m ρ c main_arg6 (by decide)).trans (W3_arg6 m ρ c)
theorem W4_arg7 : W4 m ρ c (Proc.devRef .tc main_arg7) = m ((c : Thread nD τ).loc main_arg7) := (W4_of_ne m ρ c main_arg7 (by decide)).trans (W3_arg7 m ρ c)
theorem W4_arg8 : W4 m ρ c (Proc.devRef .tc main_arg8) = m ((c : Thread nD τ).loc main_arg8) := (W4_of_ne m ρ c main_arg8 (by decide)).trans (W3_arg8 m ρ c)
theorem W4_arg9 : W4 m ρ c (Proc.devRef .tc main_arg9) = m ((c : Thread nD τ).loc main_arg9) := (W4_of_ne m ρ c main_arg9 (by decide)).trans (W3_arg9 m ρ c)
theorem W4_arg10 : W4 m ρ c (Proc.devRef .tc main_arg10) = m ((c : Thread nD τ).loc main_arg10) := (W4_of_ne m ρ c main_arg10 (by decide)).trans (W3_arg10 m ρ c)

/-! ### Entry of the second call -/

theorem W5_v27 (hr0 : R0) : W5 m ρ c (Proc.devRef .tc main_v27) = H1 m c := (W5_kept m ρ c _ (by nw hostOps1)).trans (W4_v27 m ρ c hr0)
theorem W5_v1 : W5 m ρ c (Proc.devRef .tc main_v1) = srcRow (ei m c) := (W5_kept m ρ c _ (by nw hostOps1)).trans (W4_v1 m ρ c)
theorem W5_v3 : W5 m ρ c (Proc.devRef .tc main_v3) = dstRow (ei m c) := (W5_kept m ρ c _ (by nw hostOps1)).trans (W4_v3 m ρ c)
theorem W5_v15 : W5 m ρ c (Proc.devRef .tc main_v15) = W3 m ρ c (Proc.devRef .tc main_v15) := (W5_kept m ρ c _ (by nw hostOps1)).trans (W4_v15 m ρ c)
theorem W5_arg5 : W5 m ρ c (Proc.devRef .tc main_arg5) = m ((c : Thread nD τ).loc main_arg5) := (W5_kept m ρ c _ (by nw hostOps1)).trans (W4_arg5 m ρ c)
theorem W5_arg7 : W5 m ρ c (Proc.devRef .tc main_arg7) = m ((c : Thread nD τ).loc main_arg7) := (W5_kept m ρ c _ (by nw hostOps1)).trans (W4_arg7 m ρ c)
theorem W5_arg8 : W5 m ρ c (Proc.devRef .tc main_arg8) = m ((c : Thread nD τ).loc main_arg8) := (W5_kept m ρ c _ (by nw hostOps1)).trans (W4_arg8 m ρ c)
theorem W5_arg9 : W5 m ρ c (Proc.devRef .tc main_arg9) = m ((c : Thread nD τ).loc main_arg9) := (W5_kept m ρ c _ (by nw hostOps1)).trans (W4_arg9 m ρ c)
theorem W5_arg10 : W5 m ρ c (Proc.devRef .tc main_arg10) = m ((c : Thread nD τ).loc main_arg10) := (W5_kept m ρ c _ (by nw hostOps1)).trans (W4_arg10 m ρ c)

/-- The neighbour sum of the first hidden layer. -/
theorem W5_v37 (hr0 : R0) : W5 m ρ c (Proc.devRef .tc main_v37)
    = nbrSum recsK.s64 recsK.g64 (dstK (ei m c)) (srcK (ei m c)) (H1 m c) := by
  refine (s1_v37 (W4 m ρ c)).trans ?_
  rw [W4_v3, W4_v1, W4_v27 m ρ c hr0, dstK_eq, srcK_eq]
theorem W5_inv : (fun r : Fin 50000 => (W5 m ρ c (Proc.devRef .tc main_v15) : Mat 50000 1) (ix2 r (0 : Fin 1))) = inv recsK (dstK (ei m c)) := by
  rw [W5_v15]; exact W3_inv m ρ c
theorem W5_b2 : (fun o : Fin 64 => (W5 m ρ c (Proc.devRef .tc main_v38) : Mat 1 64) (ix2 (0 : Fin 1) o))
    = fun o => (m ((c : Thread nD τ).loc main_arg6) : Vec1 64) (ix1 o) := by
  funext o
  rw [show W5 m ρ c (Proc.devRef .tc main_v38) = _ from s1_v38 (W4 m ρ c), W4_arg6]
  exact shapeCast_a_1a_apply _ _ 0 o

/-! ### Exit of the second call, and the projection call -/

theorem W6_v39 (hr0 : R0) (hr1 : R1) : W6 m ρ c (Proc.devRef .tc main_v39) = H2 m c := by
  refine (W6_arr m ρ c 6).trans ((hr1 (V5 m ρ) c).trans ?_)
  show layer 64 (W5 m ρ c (Proc.devRef .tc main_v37)) (W5 m ρ c (Proc.devRef .tc main_v27))
      (fun r : Fin 50000 => (W5 m ρ c (Proc.devRef .tc main_v15) : Mat 50000 1) (ix2 r (0 : Fin 1)))
      (W5 m ρ c (Proc.devRef .tc main_arg5)) (W5 m ρ c (Proc.devRef .tc main_arg7))
      (fun o : Fin 64 => (W5 m ρ c (Proc.devRef .tc main_v38) : Mat 1 64) (ix2 (0 : Fin 1) o)) = _
  rw [W5_v37 m ρ c hr0, W5_v27 m ρ c hr0, W5_arg5, W5_arg7, W5_inv, W5_b2]
  rfl
theorem W6_v1 : W6 m ρ c (Proc.devRef .tc main_v1) = srcRow (ei m c) := (W6_of_ne m ρ c main_v1 (by decide)).trans (W5_v1 m ρ c)
theorem W6_v3 : W6 m ρ c (Proc.devRef .tc main_v3) = dstRow (ei m c) := (W6_of_ne m ρ c main_v3 (by decide)).trans (W5_v3 m ρ c)
theorem W6_v15 : W6 m ρ c (Proc.devRef .tc main_v15) = W3 m ρ c (Proc.devRef .tc main_v15) :=
  ((W6_arr m ρ c 2).trans (((dat1 (V5 m ρ) c).arrAt_in 2 rfl _).trans (A_eq1 (V5 m ρ) c 2))).trans (W5_v15 m ρ c)
theorem W6_arg8 : W6 m ρ c (Proc.devRef .tc main_arg8) = m ((c : Thread nD τ).loc main_arg8) := (W6_of_ne m ρ c main_arg8 (by decide)).trans (W5_arg8 m ρ c)
theorem W6_arg9 : W6 m ρ c (Proc.devRef .tc main_arg9) = m ((c : Thread nD τ).loc main_arg9) := (W6_of_ne m ρ c main_arg9 (by decide)).trans (W5_arg9 m ρ c)
theorem W6_arg10 : W6 m ρ c (Proc.devRef .tc main_arg10) = m ((c : Thread nD τ).loc main_arg10) := (W6_of_ne m ρ c main_arg10 (by decide)).trans (W5_arg10 m ρ c)

/-- The projected second hidden layer. -/
theorem W7_v40 (hr0 : R0) (hr1 : R1) (hr2 : R2) : W7 m ρ c (Proc.devRef .tc main_v40) = proj (H2 m c) (m ((c : Thread nD τ).loc main_arg8)) := by
  refine (W7_arr m ρ c 2).trans ((hr2 (V6 m ρ) c).trans ?_)
  show proj (W6 m ρ c (Proc.devRef .tc main_v39)) (W6 m ρ c (Proc.devRef .tc main_arg8)) = _
  rw [W6_v39 m ρ c hr0 hr1, W6_arg8]
theorem W7_v39 (hr0 : R0) (hr1 : R1) : W7 m ρ c (Proc.devRef .tc main_v39) = H2 m c :=
  ((W7_arr m ρ c 0).trans (((dat2 (V6 m ρ) c).arrAt_in 0 rfl _).trans (A_eq2 (V6 m ρ) c 0))).trans (W6_v39 m ρ c hr0 hr1)
theorem W7_v1 : W7 m ρ c (Proc.devRef .tc main_v1) = srcRow (ei m c) := (W7_of_ne m ρ c main_v1 (by decide)).trans (W6_v1 m ρ c)
theorem W7_v3 : W7 m ρ c (Proc.devRef .tc main_v3) = dstRow (ei m c) := (W7_of_ne m ρ c main_v3 (by decide)).trans (W6_v3 m ρ c)
theorem W7_v15 : W7 m ρ c (Proc.devRef .tc main_v15) = W3 m ρ c (Proc.devRef .tc main_v15) := (W7_of_ne m ρ c main_v15 (by decide)).trans (W6_v15 m ρ c)
theorem W7_arg9 : W7 m ρ c (Proc.devRef .tc main_arg9) = m ((c : Thread nD τ).loc main_arg9) := (W7_of_ne m ρ c main_arg9 (by decide)).trans (W6_arg9 m ρ c)
theorem W7_arg10 : W7 m ρ c (Proc.devRef .tc main_arg10) = m ((c : Thread nD τ).loc main_arg10) := (W7_of_ne m ρ c main_arg10 (by decide)).trans (W6_arg10 m ρ c)

/-! ### Entry of the last call -/

theorem W8_v50 (hr0 : R0) (hr1 : R1) (hr2 : R2) : W8 m ρ c (Proc.devRef .tc main_v50)
    = nbrSum recsK.s2 recsK.g2 (dstK (ei m c)) (srcK (ei m c)) (proj (H2 m c) (m ((c : Thread nD τ).loc main_arg8))) := by
  refine (s3_v50 (W7 m ρ c)).trans ?_
  rw [W7_v3, W7_v1, W7_v40 m ρ c hr0 hr1 hr2, dstK_eq, srcK_eq]
theorem W8_v39 (hr0 : R0) (hr1 : R1) : W8 m ρ c (Proc.devRef .tc main_v39) = H2 m c := (W8_kept m ρ c _ (by nw hostOps3)).trans (W7_v39 m ρ c hr0 hr1)
theorem W8_v15 : W8 m ρ c (Proc.devRef .tc main_v15) = W3 m ρ c (Proc.devRef .tc main_v15) := (W8_kept m ρ c _ (by nw hostOps3)).trans (W7_v15 m ρ c)
theorem W8_arg10 : W8 m ρ c (Proc.devRef .tc main_arg10) = m ((c : Thread nD τ).loc main_arg10) := (W8_kept m ρ c _ (by nw hostOps3)).trans (W7_arg10 m ρ c)
theorem W8_inv : (fun r : Fin 50000 => (W8 m ρ c (Proc.devRef .tc main_v15) : Mat 50000 1) (ix2 r (0 : Fin 1))) = inv recsK (dstK (ei m c)) := by
  rw [W8_v15]; exact W3_inv m ρ c
theorem W8_b3 : (fun o : Fin 2 => (W8 m ρ c (Proc.devRef .tc main_v51) : Mat 1 2) (ix2 (0 : Fin 1) o))
    = fun o => (m ((c : Thread nD τ).loc main_arg9) : Vec1 2) (ix1 o) := by
  funext o
  rw [show W8 m ρ c (Proc.devRef .tc main_v51) = _ from s3_v51 (W7 m ρ c), W7_arg9]
  exact shapeCast_a_1a_apply _ _ 0 o

/-! ### The result -/

/-- THE KERNEL'S VALUE: after the last call the result buffer holds the network `netK` of the launch contents. -/
theorem result (hr0 : R0) (hr1 : R1) (hr2 : R2) (hr3 : R3) : W9 m ρ c (Proc.devRef .tc main_v52)
    = netK recsK (dstK (ei m c)) (srcK (ei m c)) (m ((c : Thread nD τ).loc main_arg0)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine (W9_arr m ρ c 5).trans ((hr3 (V8 m ρ) c).trans ?_)
  show outK (W8 m ρ c (Proc.devRef .tc main_v50)) (W8 m ρ c (Proc.devRef .tc main_v39))
      (fun r : Fin 50000 => (W8 m ρ c (Proc.devRef .tc main_v15) : Mat 50000 1) (ix2 r (0 : Fin 1)))
      (W8 m ρ c (Proc.devRef .tc main_arg10))
      (fun o : Fin 2 => (W8 m ρ c (Proc.devRef .tc main_v51) : Mat 1 2) (ix2 (0 : Fin 1) o)) = _
  rw [W8_v50 m ρ c hr0 hr1 hr2, W8_v39 m ρ c hr0 hr1, W8_arg10, W8_inv, W8_b3]
  rfl

end Run

end Cert.KernelIdeal.Fold

end
-- ==== Proof.LibRowTile.lean ====
/-
  A row tile of a matrix product is the product of the row tile.

  For a plain two-dimensional contraction (left operand [rows, K] contracted on its second axis, right operand
  [K, n] on its first, no batch axes) the result element at (r, c) is the sum over k of lhs (r, k) * rhs (k, c).
  So if a tile [m, K] of a taller left operand [M, K] holds, on its row r, the taller operand's row i, then the
  tile's product at (r, c) and the whole product at (i, c) are the same sum. The two contractions are given by
  their own dimension records, whose contraction index types differ; both sums are re-indexed over Fin K.
-/
import Idealize.ShloMosaic.PureOps.Ideal.Laws
import Idealize.ShloMosaic.Lib.ValueIdx

open scoped BigOperators

namespace Cert.Lib

open Idealize.ShloMosaic Idealize.ShloMosaic.ValueIdx

/-- A coordinate of an index depends on the axis only through the axis's number. -/
theorem idx_val_congr {s : Shape} (j : s.Idx) {p q : Nat} (hp : p < s.rank) (hq : q < s.rank) (h : p = q) :
    (j ⟨p, hp⟩).val = (j ⟨q, hq⟩).val := by subst h; rfl

section Axes

variable {sl sr so : Shape} (d : DotDims sl sr so)

/-- With no batch axes and one free axis a on the left, the left operand's index on a is the result index's
    first coordinate. -/
theorem lhsIdx_val_of_free {a : Fin sl.rank} (hb : d.lhsBatch = []) (hn : d.lhsNonContracting = [a])
    (j : so.Idx) (k : d.contr.Idx) (h0 : 0 < so.rank) : (d.lhsIdx j k a).val = (j ⟨0, h0⟩).val := by
  have hnb : a ∉ d.lhsBatch := by rw [hb]; simp
  have hmem : a ∈ d.lhsNonContracting := by rw [hn]; simp
  unfold DotDims.lhsIdx
  rw [dif_neg hnb, dif_pos hmem]
  simp only [Fin.val_cast]
  exact idx_val_congr j _ _ (by simp [hb, hn])

/-- With no batch axes, one free axis on the left and one free axis a on the right, the right operand's index on
    a is the result index's second coordinate. -/
theorem rhsIdx_val_of_free {a : Fin sr.rank} {al : Fin sl.rank} (hlb : d.lhsBatch = []) (hln : d.lhsNonContracting = [al])
    (hb : d.rhsBatch = []) (hn : d.rhsNonContracting = [a])
    (j : so.Idx) (k : d.contr.Idx) (h1 : 1 < so.rank) : (d.rhsIdx j k a).val = (j ⟨1, h1⟩).val := by
  have hnb : a ∉ d.rhsBatch := by rw [hb]; simp
  have hmem : a ∈ d.rhsNonContracting := by rw [hn]; simp
  unfold DotDims.rhsIdx
  rw [dif_neg hnb, dif_pos hmem]
  simp only [Fin.val_cast]
  exact idx_val_congr j _ _ (by simp [hlb, hln, hn])

end Axes

/-- The dimension numbers of a plain product [rows, K] · [K, n]: contract the left operand's second axis with the
    right operand's first; the free axes are the left's first and the right's second; no batch axes. -/
structure IsPlain {a K n : Nat} (d : DotDims ⟨2, ![a, K]⟩ ⟨2, ![K, n]⟩ ⟨2, ![a, n]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []
  rank : d.contr.rank = 1
  size : d.contr.size ⟨0, by omega⟩ = K

section Plain

variable {a K n : Nat} {d : DotDims ⟨2, ![a, K]⟩ ⟨2, ![K, n]⟩ ⟨2, ![a, n]⟩}

/-- The left operand is read at (row of the result, k). -/
theorem IsPlain.lhsIdx_eq (h : IsPlain d) (j : (⟨2, ![a, n]⟩ : Shape).Idx) (k : Fin K) :
    d.lhsIdx j ((contrEquiv1 d K h.rank h.size).symm k) = ix2 (j 0) k := by
  funext ax; apply Fin.ext
  match ax with
  | ⟨0, _⟩ => exact lhsIdx_val_of_free d (a := (0 : Fin 2)) h.lb h.ln j _ Nat.zero_lt_two
  | ⟨1, _⟩ =>
    exact (d.lhsIdx_val_of_single (cl := (1 : Fin 2)) h.lc j _).trans (contrEquiv1_symm_val d K h.rank h.size k)

/-- The right operand is read at (k, column of the result). -/
theorem IsPlain.rhsIdx_eq (h : IsPlain d) (j : (⟨2, ![a, n]⟩ : Shape).Idx) (k : Fin K) :
    d.rhsIdx j ((contrEquiv1 d K h.rank h.size).symm k) = ix2 k (j 1) := by
  funext ax; apply Fin.ext
  match ax with
  | ⟨0, _⟩ =>
    exact (d.rhsIdx_val_of_single (cr := (0 : Fin 2)) h.rc j _).trans (contrEquiv1_symm_val d K h.rank h.size k)
  | ⟨1, _⟩ => exact rhsIdx_val_of_free d (a := (1 : Fin 2)) (al := (0 : Fin 2)) h.lb h.ln h.rb h.rn j _ Nat.one_lt_two

/-- A plain product's contraction sum, over the contracted coordinate itself. -/
theorem IsPlain.sum_eq (h : IsPlain d) (l : (⟨2, ![a, K]⟩ : Shape).Idx → EReal) (r : (⟨2, ![K, n]⟩ : Shape).Idx → EReal)
    (j : (⟨2, ![a, n]⟩ : Shape).Idx) :
    ∑ k : d.contr.Idx, l (d.lhsIdx j k) * r (d.rhsIdx j k) = ∑ k : Fin K, l (ix2 (j 0) k) * r (ix2 k (j 1)) := by
  rw [← Equiv.sum_comp (contrEquiv1 d K h.rank h.size).symm]
  exact Finset.sum_congr rfl fun k _ => congrArg₂ (· * ·) (congrArg l (h.lhsIdx_eq j k)) (congrArg r (h.rhsIdx_eq j k))

end Plain

/-- A ROW TILE OF A PRODUCT IS THE PRODUCT OF THE ROW TILE: if row (y 0) of the tile lt is row (i 0) of the whole
    left operand l, and y, i name the same column, the two contraction sums are equal. -/
theorem sum_rowTile {m M K n : Nat}
    {dT : DotDims ⟨2, ![m, K]⟩ ⟨2, ![K, n]⟩ ⟨2, ![m, n]⟩} {dW : DotDims ⟨2, ![M, K]⟩ ⟨2, ![K, n]⟩ ⟨2, ![M, n]⟩}
    (hT : IsPlain dT) (hW : IsPlain dW)
    (lt : (⟨2, ![m, K]⟩ : Shape).Idx → EReal) (l : (⟨2, ![M, K]⟩ : Shape).Idx → EReal) (r : (⟨2, ![K, n]⟩ : Shape).Idx → EReal)
    (y : (⟨2, ![m, n]⟩ : Shape).Idx) (i : (⟨2, ![M, n]⟩ : Shape).Idx)
    (hrow : ∀ k : Fin K, lt (ix2 (y 0) k) = l (ix2 (i 0) k)) (hcol : y 1 = i 1) :
    ∑ k : dT.contr.Idx, lt (dT.lhsIdx y k) * r (dT.rhsIdx y k) = ∑ k : dW.contr.Idx, l (dW.lhsIdx i k) * r (dW.rhsIdx i k) := by
  rw [hT.sum_eq lt r y, hW.sum_eq l r i]
  exact Finset.sum_congr rfl fun k _ => by rw [hrow k, hcol]

end Cert.Lib
-- ==== Proof.Region0.lean ====
/-
  The first hidden layer's call: 25 grid points, point t working on rows 2000 t … 2000 t + 1999 of the node arrays
  (the neighbour sum, the root features, the reciprocal in-degree column) and on the whole of the two 16 x 64 weights
  and of the 1 x 64 bias row.  Every output row depends only on the same row of the node arrays: a row tile of a matrix
  product is the product of the row tile, and the column broadcast, the row broadcast and the pointwise operations are
  row-local.  So after the last point the output array holds the whole layer: entry (r, o) is
      max(((sum_k (agg (r,k) * inv r) * Wl (k,o)) + b o) + sum_k root (r,k) * Wr (k,o), 0).
-/
import proofs.«404284_j84817014161825_4_alg».proof.Proof.Gen.KernelIdeal.Frame
import proofs.«404284_j84817014161825_4_alg».proof.Proof.Spec
import proofs.«404284_j84817014161825_4_alg».proof.Proof.LibRowTile
import proofs.«404284_j84817014161825_4_alg».proof.Proof.LibLayoutColumn
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.Region0

open Cert.KernelIdeal Cert.KernelIdeal.Gen Cert.Sage Cert.Lib
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block products' dimension numbers are those of a plain [2000, 16] x [16, 64] product. -/
theorem plain : IsPlain dot_S2000x16_S16x64_S2000x64_1_0_0_1_n_n := ⟨rfl, rfl, rfl, rfl, rfl, rfl, rfl, rfl⟩

/-- What one point stores, at row p and column q of its block: the neighbour-sum row p scaled by the column's entry p
    and contracted with column q of the first weight, plus the bias row's entry q, plus the root row p contracted with
    column q of the second weight, clipped below at zero. -/
theorem pay_at (v0 : Vec Ideal S2000x16 .f32) (v2 : Vec Ideal S2000x1 .f32) (v6 : Vec Ideal S16x64 .f32)
    (v8 : Vec Ideal S1x64 .f32) (v12 : Vec Ideal S2000x16 .f32) (v13 : Vec Ideal S16x64 .f32) (p : Fin 2000) (q : Fin 64) :
    k0_pay1 (F := Ideal) v0 v2 v6 v8 v12 v13 (ix2 p q)
      = max (((∑ k : Fin 16, (v0 (ix2 p k) * v2 (ix2 p (0 : Fin 1))) * v6 (ix2 k q)) + v8 (ix2 (0 : Fin 1) q))
          + ∑ k : Fin 16, v12 (ix2 p k) * v13 (ix2 k q)) z32 := by
  unfold k0_pay1
  simp only [shapeCast_self]
  rw [maximumf_apply, addf_apply, addf_apply, broadcast_apply]
  refine congrArg₂ max (congrArg₂ (· + ·) (congrArg₂ (· + ·) ?_ ?_) ?_) rfl
  · refine (Ideal.matmul_constant_zero_apply _ none _ v6 (ix2 p q)).trans ?_
    refine (plain.sum_eq _ v6 (ix2 p q)).trans ?_
    exact Finset.sum_congr rfl fun k _ =>
      congrArg (fun z => (v0 (ix2 p k) * z) * v6 (ix2 k q)) (broadcastTo_a1_ab_apply v2 broadcasts_S2000x1_S2000x16 p k)
  · exact broadcastTo_1b_ab_apply v8 broadcasts_S1x64_S2000x64 p q
  · refine (Ideal.matmul_constant_zero_apply _ none v12 v13 (ix2 p q)).trans ?_
    exact plain.sum_eq v12 v13 (ix2 p q)

/-- The printed index maps over the grid: the three node windows and the output window sit at block row t, the two
    weight windows and the bias window at the origin. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Node row 2000 t + p. -/
def row (t : Fin cfg0.N) (p : Fin 2000) : Fin 50000 :=
  ⟨t.val * 2000 + p.val, by have := t.isLt; have h : cfg0.N = 25 := N_0; have := p.isLt; omega⟩

/-- The neighbour-sum block of point t, at (p, k), is the neighbour-sum array at (2000 t + p, k). -/
theorem read_agg (c : Dev nD) (t : Fin cfg0.N) (p : Fin 2000) (k : Fin 16) :
    iblk0 V c 0 t (ix2 p k) = V c main_v25 (ix2 (row t p) k) := by
  obtain ⟨e0, e1, -, -, -, -, -, -, -, -, -, -, -, -⟩ := idx_facts t
  show V c main_v25 (((cfg0.win 0).blk t).view.emb (ix2 p k)) = V c main_v25 (ix2 (row t p) k)
  refine congrArg (V c main_v25) ?_
  funext a; apply Fin.ext
  match a with
  | ⟨0, _⟩ => show win0_0.index t (0 : Fin 2) * 2000 + 1 * p.val = t.val * 2000 + p.val; omega
  | ⟨1, _⟩ => show win0_0.index t (1 : Fin 2) * 16 + 1 * k.val = k.val; omega

/-- The root-feature block of point t, at (p, k), is the root-feature array at (2000 t + p, k). -/
theorem read_root (c : Dev nD) (t : Fin cfg0.N) (p : Fin 2000) (k : Fin 16) :
    iblk0 V c 1 t (ix2 p k) = V c main_arg0 (ix2 (row t p) k) := by
  obtain ⟨-, -, e0, e1, -, -, -, -, -, -, -, -, -, -⟩ := idx_facts t
  show V c main_arg0 (((cfg0.win 1).blk t).view.emb (ix2 p k)) = V c main_arg0 (ix2 (row t p) k)
  refine congrArg (V c main_arg0) ?_
  funext a; apply Fin.ext
  match a with
  | ⟨0, _⟩ => show win0_1.index t (0 : Fin 2) * 2000 + 1 * p.val = t.val * 2000 + p.val; omega
  | ⟨1, _⟩ => show win0_1.index t (1 : Fin 2) * 16 + 1 * k.val = k.val; omega

/-- The reciprocal in-degree block of point t, at (p, 0), is the reciprocal in-degree column at (2000 t + p, 0). -/
theorem read_inv (c : Dev nD) (t : Fin cfg0.N) (p : Fin 2000) :
    iblk0 V c 2 t (ix2 p (0 : Fin 1)) = V c main_v15 (ix2 (row t p) (0 : Fin 1)) := by
  obtain ⟨-, -, -, -, e0, e1, -, -, -, -, -, -, -, -⟩ := idx_facts t
  show V c main_v15 (((cfg0.win 2).blk t).view.emb (ix2 p (0 : Fin 1))) = V c main_v15 (ix2 (row t p) (0 : Fin 1))
  refine congrArg (V c main_v15) ?_
  funext a; apply Fin.ext
  match a with
  | ⟨0, _⟩ => show win0_2.index t (0 : Fin 2) * 2000 + 1 * p.val = t.val * 2000 + p.val; omega
  | ⟨1, _⟩ => show win0_2.index t (1 : Fin 2) * 1 + 1 * 0 = 0; omega

/-- The first weight's block at any point is the whole weight. -/
theorem read_wl (c : Dev nD) (t : Fin cfg0.N) (k : Fin 16) (q : Fin 64) :
    iblk0 V c 3 t (ix2 k q) = V c main_arg2 (ix2 k q) := by
  obtain ⟨-, -, -, -, -, -, e0, e1, -, -, -, -, -, -⟩ := idx_facts t
  show V c main_arg2 (((cfg0.win 3).blk t).view.emb (ix2 k q)) = V c main_arg2 (ix2 k q)
  refine congrArg (V c main_arg2) ?_
  funext a; apply Fin.ext
  match a with
  | ⟨0, _⟩ => show win0_3.index t (0 : Fin 2) * 16 + 1 * k.val = k.val; omega
  | ⟨1, _⟩ => show win0_3.index t (1 : Fin 2) * 64 + 1 * q.val = q.val; omega

/-- The bias row's block at any point is the whole row. -/
theorem read_bias (c : Dev nD) (t : Fin cfg0.N) (q : Fin 64) :
    iblk0 V c 4 t (ix2 (0 : Fin 1) q) = V c main_v26 (ix2 (0 : Fin 1) q) := by
  obtain ⟨-, -, -, -, -, -, -, -, e0, e1, -, -, -, -⟩ := idx_facts t
  show V c main_v26 (((cfg0.win 4).blk t).view.emb (ix2 (0 : Fin 1) q)) = V c main_v26 (ix2 (0 : Fin 1) q)
  refine congrArg (V c main_v26) ?_
  funext a; apply Fin.ext
  match a with
  | ⟨0, _⟩ => show win0_4.index t (0 : Fin 2) * 1 + 1 * 0 = 0; omega
  | ⟨1, _⟩ => show win0_4.index t (1 : Fin 2) * 64 + 1 * q.val = q.val; omega

/-- The second weight's block at any point is the whole weight. -/
theorem read_wr (c : Dev nD) (t : Fin cfg0.N) (k : Fin 16) (q : Fin 64) :
    iblk0 V c 5 t (ix2 k q) = V c main_arg4 (ix2 k q) := by
  obtain ⟨-, -, -, -, -, -, -, -, -, -, e0, e1, -, -⟩ := idx_facts t
  show V c main_arg4 (((cfg0.win 5).blk t).view.emb (ix2 k q)) = V c main_arg4 (ix2 k q)
  refine congrArg (V c main_arg4) ?_
  funext a; apply Fin.ext
  match a with
  | ⟨0, _⟩ => show win0_5.index t (0 : Fin 2) * 16 + 1 * k.val = k.val; omega
  | ⟨1, _⟩ => show win0_5.index t (1 : Fin 2) * 64 + 1 * q.val = q.val; omega

/-- The output block of point t, at (p, q), lands at (2000 t + p, q) of the output array. -/
theorem emb_out (t : Fin cfg0.N) (p : Fin 2000) (q : Fin 64) :
    ((cfg0.win 6).blk t).view.emb (ix2 p q) = ix2 (row t p) q := by
  obtain ⟨-, -, -, -, -, -, -, -, -, -, -, -, e0, e1⟩ := idx_facts t
  funext a; apply Fin.ext
  match a with
  | ⟨0, _⟩ => show win0_6.index t (0 : Fin 2) * 2000 + 1 * p.val = t.val * 2000 + p.val; omega
  | ⟨1, _⟩ => show win0_6.index t (1 : Fin 2) * 64 + 1 * q.val = q.val; omega

/-- The layer at node r and output feature o. -/
theorem layer_at (agg root : Mat 50000 16) (inv : Fin 50000 → EReal) (Wl Wr : Mat 16 64) (b : Fin 64 → EReal)
    (r : Fin 50000) (o : Fin 64) :
    layer 16 agg root inv Wl Wr b (ix2 r o)
      = max (((∑ k : Fin 16, (agg (ix2 r k) * inv r) * Wl (ix2 k o)) + b o) + ∑ k : Fin 16, root (ix2 r k) * Wr (ix2 k o)) z32 :=
  rfl

/-- What point t writes back is block t of the whole layer. -/
theorem flushed_eq (c : Dev nD) (t : Fin cfg0.N) :
    (dat0 V c).flushed 6 t = ((cfg0.win 6).blk t).view.read (Elt Ideal)
      (layer 16 (V c main_v25) (V c main_arg0) (fun r => V c main_v15 (ix2 r (0 : Fin 1))) (V c main_arg2) (V c main_arg4)
        (fun o => V c main_v26 (ix2 (0 : Fin 1) o))) := by
  show (cfg0.win 6).cut (grid0.coords t) ((dat0 V c).after 6 t) = _
  rw [after0_6]
  unfold out0_6
  rw [View.canon_unit_zero hz]
  simp only [View.ld_unit_zero (S := S2000x16) hz, View.ld_unit_zero (S := S2000x1) hz, View.ld_unit_zero (S := S16x64) hz,
    View.ld_unit_zero (S := S1x64) hz]
  funext j
  obtain ⟨p, q, rfl⟩ : ∃ (p : Fin 2000) (q : Fin 64), j = ix2 p q := ⟨j 0, j 1, eq_ix2 j⟩
  refine (pay_at (iblk0 V c 0 t) (iblk0 V c 2 t) (iblk0 V c 3 t) (iblk0 V c 4 t) (iblk0 V c 1 t) (iblk0 V c 5 t) p q).trans ?_
  show _ = layer 16 (V c main_v25) (V c main_arg0) (fun r => V c main_v15 (ix2 r (0 : Fin 1))) (V c main_arg2) (V c main_arg4)
    (fun o => V c main_v26 (ix2 (0 : Fin 1) o)) (((cfg0.win 6).blk t).view.emb (ix2 p q))
  rw [emb_out t p q, layer_at]
  refine congrArg₂ max (congrArg₂ (· + ·) (congrArg₂ (· + ·) (Finset.sum_congr rfl fun k _ => ?_) (read_bias V c t q))
    (Finset.sum_congr rfl fun k _ => ?_)) rfl
  · rw [read_agg V c t p k, read_inv V c t p, read_wl V c t k q]
  · rw [read_root V c t p k, read_wr V c t k q]

/-- An index of the output array is in point t's block iff each coordinate is in the block's range. -/
theorem mem_blk (t : Fin cfg0.N) (i : S50000x64.Idx) :
    i ∈ ((cfg0.win 6).blk t).view.set ↔ ∀ a : Fin 2, win0_6.index t a * S2000x64.size a ≤ (i a).val ∧ (i a).val < win0_6.index t a * S2000x64.size a + S2000x64.size a := by
  show i ∈ ((View.whole main_v27).slice (win0_6.rect t)).set ↔ _
  rw [View.set_slice_whole, Rect.mem_set_unit]
  exact Iff.rfl

/-- Every index of the output array lies in the block of the point its row falls in. -/
theorem cover (i : S50000x64.Idx) : ∃ t : Fin cfg0.N, (cfg0.win 6).flush t = true ∧ i ∈ ((cfg0.win 6).blk t).view.set := by
  have hi0 : (i 0).val < 50000 := (i 0).isLt
  have hi1 : (i 1).val < 64 := (i 1).isLt
  have hN : cfg0.N = 25 := N_0
  let t : Fin cfg0.N := ⟨(i 0).val / 2000, by omega⟩
  obtain ⟨-, -, -, -, -, -, -, -, -, -, -, -, e0, e1⟩ := idx_facts t
  have ht : t.val = (i 0).val / 2000 := rfl
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 64 ≤ (i 1).val ∧ (i 1).val < win0_6.index t (1 : Fin 2) * 64 + 64; omega

/-- After the last point the output array is the whole first hidden layer of the arrays the call found. -/
theorem arr (c : Dev nD) : (dat0 V c).arrAt 6 cfg0.N
    = layer 16 (V c main_v25) (V c main_arg0) (fun r => V c main_v15 (ix2 r (0 : Fin 1))) (V c main_arg2) (V c main_arg4)
        (fun o => V c main_v26 (ix2 (0 : Fin 1) o)) :=
  (dat0 V c).arrAt_eq_of_cover 6 _ (fun t _ => flushed_eq V c t) cover

end Cert.KernelIdeal.Region0

end
-- ==== Proof.Region1.lean ====
/-
  The second hidden layer's call: 25 grid points, point t working on rows 2000 t … 2000 t + 1999 of the node arrays
  (the neighbour sum of the first layer, the first layer itself as root features, the reciprocal in-degree column) and
  on the whole of the two 64 x 64 weights and of the 1 x 64 bias row.  Every output row depends only on the same row of
  the node arrays: a row tile of a matrix product is the product of the row tile, and the column broadcast, the row
  broadcast and the pointwise operations are row-local.  So after the last point the output array holds the whole layer:
  entry (r, o) is
      max(((sum_k (agg (r,k) * inv r) * Wl (k,o)) + b o) + sum_k root (r,k) * Wr (k,o), 0).
-/
import proofs.«404284_j84817014161825_4_alg».proof.Proof.Gen.KernelIdeal.Frame
import proofs.«404284_j84817014161825_4_alg».proof.Proof.Spec
import proofs.«404284_j84817014161825_4_alg».proof.Proof.LibRowTile
import proofs.«404284_j84817014161825_4_alg».proof.Proof.LibLayoutColumn
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.Region1

open Cert.KernelIdeal Cert.KernelIdeal.Gen Cert.Sage Cert.Lib
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block products' dimension numbers are those of a plain [2000, 64] x [64, 64] product. -/
theorem plain : IsPlain dot_S2000x64_S64x64_S2000x64_1_0_0_1_n_n := ⟨rfl, rfl, rfl, rfl, rfl, rfl, rfl, rfl⟩

/-- What one point stores, at row p and column q of its block: the neighbour-sum row p scaled by the column's entry p
    and contracted with column q of the first weight, plus the bias row's entry q, plus the root row p contracted with
    column q of the second weight, clipped below at zero. -/
theorem pay_at (v0 : Vec Ideal S2000x64 .f32) (v2 : Vec Ideal S2000x1 .f32) (v6 : Vec Ideal S64x64 .f32)
    (v8 : Vec Ideal S1x64 .f32) (v12 : Vec Ideal S2000x64 .f32) (v14 : Vec Ideal S64x64 .f32) (p : Fin 2000) (q : Fin 64) :
    k1_pay1 (F := Ideal) v0 v2 v6 v8 v12 v14 (ix2 p q)
      = max (((∑ k : Fin 64, (v0 (ix2 p k) * v2 (ix2 p (0 : Fin 1))) * v6 (ix2 k q)) + v8 (ix2 (0 : Fin 1) q))
          + ∑ k : Fin 64, v12 (ix2 p k) * v14 (ix2 k q)) z32 := by
  unfold k1_pay1
  simp only [shapeCast_self]
  rw [maximumf_apply, addf_apply, addf_apply, broadcast_apply]
  refine congrArg₂ max (congrArg₂ (· + ·) (congrArg₂ (· + ·) ?_ ?_) ?_) rfl
  · refine (Ideal.matmul_constant_zero_apply _ none _ v6 (ix2 p q)).trans ?_
    refine (plain.sum_eq _ v6 (ix2 p q)).trans ?_
    exact Finset.sum_congr rfl fun k _ =>
      congrArg (fun z => (v0 (ix2 p k) * z) * v6 (ix2 k q)) (broadcastTo_a1_ab_apply v2 broadcasts_S2000x1_S2000x64 p k)
  · exact broadcastTo_1b_ab_apply v8 broadcasts_S1x64_S2000x64 p q
  · refine (Ideal.matmul_constant_zero_apply _ none v12 v14 (ix2 p q)).trans ?_
    exact plain.sum_eq v12 v14 (ix2 p q)

/-- The printed index maps over the grid: the three node windows and the output window sit at block row t, the two
    weight windows and the bias window at the origin. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Node row 2000 t + p. -/
def row (t : Fin cfg1.N) (p : Fin 2000) : Fin 50000 :=
  ⟨t.val * 2000 + p.val, by have := t.isLt; have h : cfg1.N = 25 := N_1; have := p.isLt; omega⟩

/-- The neighbour-sum block of point t, at (p, k), is the neighbour-sum array at (2000 t + p, k). -/
theorem read_agg (c : Dev nD) (t : Fin cfg1.N) (p : Fin 2000) (k : Fin 64) :
    iblk1 V c 0 t (ix2 p k) = V c main_v37 (ix2 (row t p) k) := by
  obtain ⟨e0, e1, -, -, -, -, -, -, -, -, -, -, -, -⟩ := idx_facts t
  show V c main_v37 (((cfg1.win 0).blk t).view.emb (ix2 p k)) = V c main_v37 (ix2 (row t p) k)
  refine congrArg (V c main_v37) ?_
  funext a; apply Fin.ext
  match a with
  | ⟨0, _⟩ => show win1_0.index t (0 : Fin 2) * 2000 + 1 * p.val = t.val * 2000 + p.val; omega
  | ⟨1, _⟩ => show win1_0.index t (1 : Fin 2) * 64 + 1 * k.val = k.val; omega

/-- The root-feature block of point t, at (p, k), is the root-feature array at (2000 t + p, k). -/
theorem read_root (c : Dev nD) (t : Fin cfg1.N) (p : Fin 2000) (k : Fin 64) :
    iblk1 V c 1 t (ix2 p k) = V c main_v27 (ix2 (row t p) k) := by
  obtain ⟨-, -, e0, e1, -, -, -, -, -, -, -, -, -, -⟩ := idx_facts t
  show V c main_v27 (((cfg1.win 1).blk t).view.emb (ix2 p k)) = V c main_v27 (ix2 (row t p) k)
  refine congrArg (V c main_v27) ?_
  funext a; apply Fin.ext
  match a with
  | ⟨0, _⟩ => show win1_1.index t (0 : Fin 2) * 2000 + 1 * p.val = t.val * 2000 + p.val; omega
  | ⟨1, _⟩ => show win1_1.index t (1 : Fin 2) * 64 + 1 * k.val = k.val; omega

/-- The reciprocal in-degree block of point t, at (p, 0), is the reciprocal in-degree column at (2000 t + p, 0). -/
theorem read_inv (c : Dev nD) (t : Fin cfg1.N) (p : Fin 2000) :
    iblk1 V c 2 t (ix2 p (0 : Fin 1)) = V c main_v15 (ix2 (row t p) (0 : Fin 1)) := by
  obtain ⟨-, -, -, -, e0, e1, -, -, -, -, -, -, -, -⟩ := idx_facts t
  show V c main_v15 (((cfg1.win 2).blk t).view.emb (ix2 p (0 : Fin 1))) = V c main_v15 (ix2 (row t p) (0 : Fin 1))
  refine congrArg (V c main_v15) ?_
  funext a; apply Fin.ext
  match a with
  | ⟨0, _⟩ => show win1_2.index t (0 : Fin 2) * 2000 + 1 * p.val = t.val * 2000 + p.val; omega
  | ⟨1, _⟩ => show win1_2.index t (1 : Fin 2) * 1 + 1 * 0 = 0; omega

/-- The first weight's block at any point is the whole weight. -/
theorem read_wl (c : Dev nD) (t : Fin cfg1.N) (k : Fin 64) (q : Fin 64) :
    iblk1 V c 3 t (ix2 k q) = V c main_arg5 (ix2 k q) := by
  obtain ⟨-, -, -, -, -, -, e0, e1, -, -, -, -, -, -⟩ := idx_facts t
  show V c main_arg5 (((cfg1.win 3).blk t).view.emb (ix2 k q)) = V c main_arg5 (ix2 k q)
  refine congrArg (V c main_arg5) ?_
  funext a; apply Fin.ext
  match a with
  | ⟨0, _⟩ => show win1_3.index t (0 : Fin 2) * 64 + 1 * k.val = k.val; omega
  | ⟨1, _⟩ => show win1_3.index t (1 : Fin 2) * 64 + 1 * q.val = q.val; omega

/-- The bias row's block at any point is the whole row. -/
theorem read_bias (c : Dev nD) (t : Fin cfg1.N) (q : Fin 64) :
    iblk1 V c 4 t (ix2 (0 : Fin 1) q) = V c main_v38 (ix2 (0 : Fin 1) q) := by
  obtain ⟨-, -, -, -, -, -, -, -, e0, e1, -, -, -, -⟩ := idx_facts t
  show V c main_v38 (((cfg1.win 4).blk t).view.emb (ix2 (0 : Fin 1) q)) = V c main_v38 (ix2 (0 : Fin 1) q)
  refine congrArg (V c main_v38) ?_
  funext a; apply Fin.ext
  match a with
  | ⟨0, _⟩ => show win1_4.index t (0 : Fin 2) * 1 + 1 * 0 = 0; omega
  | ⟨1, _⟩ => show win1_4.index t (1 : Fin 2) * 64 + 1 * q.val = q.val; omega

/-- The second weight's block at any point is the whole weight. -/
theorem read_wr (c : Dev nD) (t : Fin cfg1.N) (k : Fin 64) (q : Fin 64) :
    iblk1 V c 5 t (ix2 k q) = V c main_arg7 (ix2 k q) := by
  obtain ⟨-, -, -, -, -, -, -, -, -, -, e0, e1, -, -⟩ := idx_facts t
  show V c main_arg7 (((cfg1.win 5).blk t).view.emb (ix2 k q)) = V c main_arg7 (ix2 k q)
  refine congrArg (V c main_arg7) ?_
  funext a; apply Fin.ext
  match a with
  | ⟨0, _⟩ => show win1_5.index t (0 : Fin 2) * 64 + 1 * k.val = k.val; omega
  | ⟨1, _⟩ => show win1_5.index t (1 : Fin 2) * 64 + 1 * q.val = q.val; omega

/-- The output block of point t, at (p, q), lands at (2000 t + p, q) of the output array. -/
theorem emb_out (t : Fin cfg1.N) (p : Fin 2000) (q : Fin 64) :
    ((cfg1.win 6).blk t).view.emb (ix2 p q) = ix2 (row t p) q := by
  obtain ⟨-, -, -, -, -, -, -, -, -, -, -, -, e0, e1⟩ := idx_facts t
  funext a; apply Fin.ext
  match a with
  | ⟨0, _⟩ => show win1_6.index t (0 : Fin 2) * 2000 + 1 * p.val = t.val * 2000 + p.val; omega
  | ⟨1, _⟩ => show win1_6.index t (1 : Fin 2) * 64 + 1 * q.val = q.val; omega

/-- The layer at node r and output feature o. -/
theorem layer_at (agg root : Mat 50000 64) (inv : Fin 50000 → EReal) (Wl Wr : Mat 64 64) (b : Fin 64 → EReal)
    (r : Fin 50000) (o : Fin 64) :
    layer 64 agg root inv Wl Wr b (ix2 r o)
      = max (((∑ k : Fin 64, (agg (ix2 r k) * inv r) * Wl (ix2 k o)) + b o) + ∑ k : Fin 64, root (ix2 r k) * Wr (ix2 k o)) z32 :=
  rfl

/-- What point t writes back is block t of the whole layer. -/
theorem flushed_eq (c : Dev nD) (t : Fin cfg1.N) :
    (dat1 V c).flushed 6 t = ((cfg1.win 6).blk t).view.read (Elt Ideal)
      (layer 64 (V c main_v37) (V c main_v27) (fun r => V c main_v15 (ix2 r (0 : Fin 1))) (V c main_arg5) (V c main_arg7)
        (fun o => V c main_v38 (ix2 (0 : Fin 1) o))) := by
  show (cfg1.win 6).cut (grid1.coords t) ((dat1 V c).after 6 t) = _
  rw [after1_6]
  unfold out1_6
  rw [View.canon_unit_zero hz]
  simp only [View.ld_unit_zero (S := S2000x64) hz, View.ld_unit_zero (S := S2000x1) hz, View.ld_unit_zero (S := S64x64) hz,
    View.ld_unit_zero (S := S1x64) hz]
  funext j
  obtain ⟨p, q, rfl⟩ : ∃ (p : Fin 2000) (q : Fin 64), j = ix2 p q := ⟨j 0, j 1, eq_ix2 j⟩
  refine (pay_at (iblk1 V c 0 t) (iblk1 V c 2 t) (iblk1 V c 3 t) (iblk1 V c 4 t) (iblk1 V c 1 t) (iblk1 V c 5 t) p q).trans ?_
  show _ = layer 64 (V c main_v37) (V c main_v27) (fun r => V c main_v15 (ix2 r (0 : Fin 1))) (V c main_arg5) (V c main_arg7)
    (fun o => V c main_v38 (ix2 (0 : Fin 1) o)) (((cfg1.win 6).blk t).view.emb (ix2 p q))
  rw [emb_out t p q, layer_at]
  refine congrArg₂ max (congrArg₂ (· + ·) (congrArg₂ (· + ·) (Finset.sum_congr rfl fun k _ => ?_) (read_bias V c t q))
    (Finset.sum_congr rfl fun k _ => ?_)) rfl
  · rw [read_agg V c t p k, read_inv V c t p, read_wl V c t k q]
  · rw [read_root V c t p k, read_wr V c t k q]

/-- An index of the output array is in point t's block iff each coordinate is in the block's range. -/
theorem mem_blk (t : Fin cfg1.N) (i : S50000x64.Idx) :
    i ∈ ((cfg1.win 6).blk t).view.set ↔ ∀ a : Fin 2, win1_6.index t a * S2000x64.size a ≤ (i a).val ∧ (i a).val < win1_6.index t a * S2000x64.size a + S2000x64.size a := by
  show i ∈ ((View.whole main_v39).slice (win1_6.rect t)).set ↔ _
  rw [View.set_slice_whole, Rect.mem_set_unit]
  exact Iff.rfl

/-- Every index of the output array lies in the block of the point its row falls in. -/
theorem cover (i : S50000x64.Idx) : ∃ t : Fin cfg1.N, (cfg1.win 6).flush t = true ∧ i ∈ ((cfg1.win 6).blk t).view.set := by
  have hi0 : (i 0).val < 50000 := (i 0).isLt
  have hi1 : (i 1).val < 64 := (i 1).isLt
  have hN : cfg1.N = 25 := N_1
  let t : Fin cfg1.N := ⟨(i 0).val / 2000, by omega⟩
  obtain ⟨-, -, -, -, -, -, -, -, -, -, -, -, e0, e1⟩ := idx_facts t
  have ht : t.val = (i 0).val / 2000 := rfl
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 64 ≤ (i 1).val ∧ (i 1).val < win1_6.index t (1 : Fin 2) * 64 + 64; omega

/-- After the last point the output array is the whole second hidden layer of the arrays the call found. -/
theorem arr (c : Dev nD) : (dat1 V c).arrAt 6 cfg1.N
    = layer 64 (V c main_v37) (V c main_v27) (fun r => V c main_v15 (ix2 r (0 : Fin 1))) (V c main_arg5) (V c main_arg7)
        (fun o => V c main_v38 (ix2 (0 : Fin 1) o)) :=
  (dat1 V c).arrAt_eq_of_cover 6 _ (fun t _ => flushed_eq V c t) cover

end Cert.KernelIdeal.Region1

end
-- ==== Proof.Region2.lean ====
/-
  The projection call: 25 grid points, point t multiplying rows 2000 t … 2000 t + 1999 of the node features
  by the whole 64 x 2 weight.  A row tile of a matrix product is the product of the row tile, so after the last
  point the output array holds the whole product: entry (r, o) is the sum over k of h (r, k) * W (k, o).
-/
import proofs.«404284_j84817014161825_4_alg».proof.Proof.Gen.KernelIdeal.Frame
import proofs.«404284_j84817014161825_4_alg».proof.Proof.Spec
import proofs.«404284_j84817014161825_4_alg».proof.Proof.LibRowTile
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.Region2

open Cert.KernelIdeal Cert.KernelIdeal.Gen Cert.Sage Cert.Lib
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block product's dimension numbers are those of a plain [2000, 64] x [64, 2] product. -/
theorem plain : IsPlain dot_S2000x64_S64x2_S2000x2_1_0_0_1_n_n := ⟨rfl, rfl, rfl, rfl, rfl, rfl, rfl, rfl⟩

/-- What one point stores, at row p and column q of its block: the contraction of row p with column q. -/
theorem pay_at (x0 : Vec Ideal S2000x64 .f32) (x1 : Vec Ideal S64x2 .f32) (p : Fin 2000) (q : Fin 2) :
    k2_pay1 (F := Ideal) x0 x1 (ix2 p q) = ∑ k : Fin 64, x0 (ix2 p k) * x1 (ix2 k q) := by
  unfold k2_pay1
  rw [shapeCast_self]
  refine (Ideal.matmul_constant_zero_apply _ none x0 x1 (ix2 p q)).trans ?_
  exact plain.sum_eq x0 x1 (ix2 p q)

/-- The printed index maps over the grid: the feature window and the output window sit at block row t, the weight
    window at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Node row 2000 t + p. -/
def row (t : Fin cfg2.N) (p : Fin 2000) : Fin 50000 :=
  ⟨t.val * 2000 + p.val, by have := t.isLt; have h : cfg2.N = 25 := N_2; have := p.isLt; omega⟩

/-- The feature block of point t, at (p, k), is the feature array at (2000 t + p, k). -/
theorem read0 (c : Dev nD) (t : Fin cfg2.N) (p : Fin 2000) (k : Fin 64) :
    iblk2 V c 0 t (ix2 p k) = V c main_v39 (ix2 (row t p) k) := by
  obtain ⟨e0, e1, -, -, -, -⟩ := idx_facts t
  show V c main_v39 (((cfg2.win 0).blk t).view.emb (ix2 p k)) = V c main_v39 (ix2 (row t p) k)
  refine congrArg (V c main_v39) ?_
  funext a; apply Fin.ext
  match a with
  | ⟨0, _⟩ => show win2_0.index t (0 : Fin 2) * 2000 + 1 * p.val = t.val * 2000 + p.val; omega
  | ⟨1, _⟩ => show win2_0.index t (1 : Fin 2) * 64 + 1 * k.val = k.val; omega

/-- The weight block of any point is the whole weight. -/
theorem read1 (c : Dev nD) (t : Fin cfg2.N) (k : Fin 64) (q : Fin 2) :
    iblk2 V c 1 t (ix2 k q) = V c main_arg8 (ix2 k q) := by
  obtain ⟨-, -, e2, e3, -, -⟩ := idx_facts t
  show V c main_arg8 (((cfg2.win 1).blk t).view.emb (ix2 k q)) = V c main_arg8 (ix2 k q)
  refine congrArg (V c main_arg8) ?_
  funext a; apply Fin.ext
  match a with
  | ⟨0, _⟩ => show win2_1.index t (0 : Fin 2) * 64 + 1 * k.val = k.val; omega
  | ⟨1, _⟩ => show win2_1.index t (1 : Fin 2) * 2 + 1 * q.val = q.val; omega

/-- The output block of point t, at (p, q), lands at (2000 t + p, q) of the output array. -/
theorem emb2 (t : Fin cfg2.N) (p : Fin 2000) (q : Fin 2) :
    ((cfg2.win 2).blk t).view.emb (ix2 p q) = ix2 (row t p) q := by
  obtain ⟨-, -, -, -, e4, e5⟩ := idx_facts t
  funext a; apply Fin.ext
  match a with
  | ⟨0, _⟩ => show win2_2.index t (0 : Fin 2) * 2000 + 1 * p.val = t.val * 2000 + p.val; omega
  | ⟨1, _⟩ => show win2_2.index t (1 : Fin 2) * 2 + 1 * q.val = q.val; omega

/-- What point t writes back is block t of the whole product. -/
theorem flushed_eq (c : Dev nD) (t : Fin cfg2.N) :
    (dat2 V c).flushed 2 t = ((cfg2.win 2).blk t).view.read (Elt Ideal) (proj (V c main_v39) (V c main_arg8)) := by
  show (cfg2.win 2).cut (grid2.coords t) ((dat2 V c).after 2 t) = _
  rw [after2_2]
  unfold out2_2
  rw [View.canon_unit_zero hz]
  simp only [View.ld_unit_zero (S := S2000x64) hz, View.ld_unit_zero (S := S64x2) hz]
  funext j
  obtain ⟨p, q, rfl⟩ : ∃ (p : Fin 2000) (q : Fin 2), j = ix2 p q := ⟨j 0, j 1, eq_ix2 j⟩
  refine (pay_at (iblk2 V c 0 t) (iblk2 V c 1 t) p q).trans ?_
  show _ = proj (V c main_v39) (V c main_arg8) (((cfg2.win 2).blk t).view.emb (ix2 p q))
  rw [emb2 t p q]
  unfold proj
  exact Finset.sum_congr rfl fun k _ => by rw [read0 V c t p k, read1 V c t k q]

/-- An index of the output array is in point t's block iff each coordinate is in the block's range. -/
theorem mem_blk (t : Fin cfg2.N) (i : S50000x2.Idx) :
    i ∈ ((cfg2.win 2).blk t).view.set ↔ ∀ a : Fin 2, win2_2.index t a * S2000x2.size a ≤ (i a).val ∧ (i a).val < win2_2.index t a * S2000x2.size a + S2000x2.size a := by
  show i ∈ ((View.whole main_v40).slice (win2_2.rect t)).set ↔ _
  rw [View.set_slice_whole, Rect.mem_set_unit]
  exact Iff.rfl

/-- Every index of the output array lies in the block of the point its row falls in. -/
theorem cover (i : S50000x2.Idx) : ∃ t : Fin cfg2.N, (cfg2.win 2).flush t = true ∧ i ∈ ((cfg2.win 2).blk t).view.set := by
  have hi0 : (i 0).val < 50000 := (i 0).isLt
  have hi1 : (i 1).val < 2 := (i 1).isLt
  have hN : cfg2.N = 25 := N_2
  let t : Fin cfg2.N := ⟨(i 0).val / 2000, by omega⟩
  obtain ⟨-, -, -, -, e4, e5⟩ := idx_facts t
  have ht : t.val = (i 0).val / 2000 := rfl
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 2 ≤ (i 1).val ∧ (i 1).val < win2_2.index t (1 : Fin 2) * 2 + 2; omega

/-- After the last point the output array is the whole product of the feature array and the weight. -/
theorem arr (c : Dev nD) : (dat2 V c).arrAt 2 cfg2.N = proj (V c main_v39) (V c main_arg8) :=
  (dat2 V c).arrAt_eq_of_cover 2 (proj (V c main_v39) (V c main_arg8)) (fun t _ => flushed_eq V c t) cover

end Cert.KernelIdeal.Region2

end
-- ==== Proof.LibSoftmaxRows.lean ====
/-
  Softmax along the rows of a rank-two array, as a vector program spells it, read at an index.

  For an array `s` of shape [a, b] the program takes each row's maximum by a reduction over the second axis from -∞
  (and joins the result with -∞ once more, which changes nothing), views the [a] vector of maxima as an [a, 1] column
  and broadcasts the column across the row, subtracts, exponentiates, sums each row of exponentials from 0 the same
  way, broadcasts the sums, and divides.  At the ideal values every one of these is the textbook operation on the
  extended reals, so entry (i, j) of the result is

      exp (s i j - M i) / ∑ j', exp (s i j' - M i),     M i = max (-∞) (max over j of s i j),

  with the maximum a fold of `max` over the row's coordinates and the quotient the extended reals' `Ideal.div`.
  The two column forms of a layout operation that the reading needs — an [a] vector viewed as [a, 1], an [a, 1]
  column broadcast to [a, b] — are stated first; then a row reduction over the second axis at row `i`; then the
  composite.  Nothing here depends on a particular kernel: shapes are generic in `a` and `b`.
-/
import Idealize.ShloMosaic.PureOps.Ideal.Laws
import Idealize.ShloMosaic.Lib.ValueIdx
import Idealize.ShloMosaic.Lib.Pipeline.Value

noncomputable section

namespace Cert.Lib.SoftmaxRows

open Idealize.ShloMosaic Idealize.ShloMosaic.ValueIdx

variable {α : Type} {a b : ℕ}

/-! ## Two column forms of a layout operation -/

/-- An [a] vector viewed as an [a, 1] column reads, at (i, u), the vector at i: both have row-major position i. -/
theorem colCast_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast across [a, b] reads, at (i, j), the column at (i, 0). -/
theorem colBroadcast_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ fun c => match c with
    | ⟨0, _⟩ => by
        show i.val = if a = 1 then 0 else i.val
        have := i.isLt
        split_ifs <;> omega
    | ⟨1, _⟩ => by
        show (0 : ℕ) = if (1 : ℕ) = 1 then 0 else j.val
        rw [if_pos rfl]

/-! ## A reduction over the second axis, at row i -/

/-- Row i's index with the column coordinate j put back is (i, j). -/
theorem lift_row (h : (⟨2, ![a, b]⟩ : Shape).Reduces [1] ⟨1, ![a]⟩) (i : Fin a) (j : Fin b) :
    h.lift (ix1 i) j = ix2 i j :=
  funext fun c => Fin.ext (by match c with | ⟨0, _⟩ => rfl | ⟨1, _⟩ => rfl)

variable {φ : FTy}

/-- A maximum-reduction over the second axis is, at row i, the fold of `max` from the accumulator's value over the
    row's entries. -/
theorem rowMax_apply (s : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ s acc h hφ hacc (ix1 i)
      = (Finset.univ : Finset (Fin b)).fold max (Ideal.ofBits φ acc) (fun j => s (ix2 i j)) := by
  rw [Ideal.multiReduction_maximumf_single]
  have e : (s ∘ h.lift (ix1 i)) = fun j : Fin b => s (ix2 i j) := funext fun j => congrArg s (lift_row h i j)
  rw [e]
  rfl

/-- A sum-reduction over the second axis is, at row i, the sum of the row's entries. -/
theorem rowSum_apply (s : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ s acc h hφ hacc (ix1 i) = ∑ j : Fin b, s (ix2 i j) := by
  rw [Ideal.multiReduction_add_single]
  exact Finset.sum_congr rfl fun j _ => congrArg s (lift_row h i j)

/-! ## The same row maximum as a host reduction over the last axis of a rank-three array -/

/-- Row (p, i)'s index with the last coordinate j put back is (p, i, j). -/
theorem lift_row3 {c : ℕ} (h : (⟨3, ![a, b, c]⟩ : Shape).Reduces [2] ⟨2, ![a, b]⟩) (p : Fin a) (i : Fin b) (j : Fin c) :
    h.lift (ix2 p i) j = ix3 p i j :=
  funext fun d => Fin.ext (by match d with | ⟨0, _⟩ => rfl | ⟨1, _⟩ => rfl | ⟨2, _⟩ => rfl)

/-- A host reduction by `max` over the last axis is, at (p, i), the fold of `max` from the initial value over the
    entries (p, i, ·). -/
theorem hostRowMax_apply {c : ℕ} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (i : Fin b) :
    Host.reduce (FloatOps.maximumf (F := Ideal) (φ := φ)) x init h' hu (ix2 p i)
      = (Finset.univ : Finset (Fin c)).fold max (init (Shape.Idx.first hu)) (fun j => x (ix3 p i j)) := by
  refine (Host.reduce_eq_fold_single (FloatOps.maximumf (F := Ideal) (φ := φ)) x init h' h hu (ix2 p i)).trans ?_
  have e : (x ∘ h.lift (ix2 p i)) = fun j : Fin c => x (ix3 p i j) := funext fun j => congrArg x (lift_row3 h p i j)
  rw [e]
  rfl

/-! ## The composite -/

/-- The f32 pattern of -∞, which every maximum here starts from. -/
abbrev negInf : EReal := Ideal.ofBits .f32 0xFF800000#32

/-- A row's maximum as the program takes it: the fold of `max` from -∞ over the row, joined with -∞ once more. -/
def rowTop (r : Fin b → EReal) : EReal := max negInf ((Finset.univ : Finset (Fin b)).fold max negInf r)

/-- A row's softmax weight at column j: the exponential of the entry less the row's maximum, over the sum of the
    row's such exponentials (the extended reals' quotient). -/
def rowWeight (r : Fin b → EReal) (j : Fin b) : EReal :=
  Ideal.div (Ideal.exp (r j - rowTop r)) (∑ j' : Fin b, Ideal.exp (r j' - rowTop r))

section Program
variable (s : FVec Ideal ⟨2, ![a, b]⟩ .f32) (hr : (⟨2, ![a, b]⟩ : Shape).Reduces [1] ⟨1, ![a]⟩)
  (hc : (⟨1, ![a]⟩ : Shape).ShapeCasts ⟨2, ![a, 1]⟩) (hb : (⟨2, ![a, 1]⟩ : Shape).Broadcasts ⟨2, ![a, b]⟩)

/-- The vector of row maxima, in the program's operations. -/
def rowTopVec : FVec Ideal ⟨1, ![a]⟩ .f32 :=
  maximumf (broadcast ⟨1, ![a]⟩ (Scalar.ofBits .f32 0xFF800000#32))
    (multiReduction .maximumf [1] ⟨1, ![a]⟩ s 0xFF800000#32 hr (.inl rfl) rfl)

/-- The exponentials of the entries less their row's maximum, in the program's operations. -/
def expRows : FVec Ideal ⟨2, ![a, b]⟩ .f32 :=
  exp (subf s (broadcastTo ⟨2, ![a, b]⟩ (shapeCast ⟨2, ![a, 1]⟩ (rowTopVec s hr) hc) hb))

/-- Softmax along the rows, in the program's operations. -/
def softmaxRows : FVec Ideal ⟨2, ![a, b]⟩ .f32 :=
  divf (expRows s hr hc hb)
    (broadcastTo ⟨2, ![a, b]⟩ (shapeCast ⟨2, ![a, 1]⟩
      (multiReduction .add [1] ⟨1, ![a]⟩ (expRows s hr hc hb) 0x00000000#32 hr (.inl rfl) rfl) hc) hb)

theorem rowTopVec_apply (i : Fin a) : rowTopVec s hr (ix1 i) = rowTop fun j => s (ix2 i j) := by
  unfold rowTopVec rowTop
  exact congrArg (max negInf) (rowMax_apply s 0xFF800000#32 hr (.inl rfl) rfl i)

theorem expRows_apply (i : Fin a) (j : Fin b) :
    expRows s hr hc hb (ix2 i j) = Ideal.exp (s (ix2 i j) - rowTop fun j' => s (ix2 i j')) := by
  unfold expRows
  show Ideal.exp (s (ix2 i j) - broadcastTo ⟨2, ![a, b]⟩ (shapeCast ⟨2, ![a, 1]⟩ (rowTopVec s hr) hc) hb (ix2 i j)) = _
  rw [colBroadcast_apply, colCast_apply, rowTopVec_apply]

/-- Entry (i, j) of the program's softmax is row i's weight at column j. -/
theorem softmaxRows_apply (i : Fin a) (j : Fin b) :
    softmaxRows s hr hc hb (ix2 i j) = rowWeight (fun j' => s (ix2 i j')) j := by
  unfold softmaxRows rowWeight
  rw [divf_apply, colBroadcast_apply, colCast_apply]
  refine congrArg₂ Ideal.div (expRows_apply s hr hc hb i j) ?_
  refine (rowSum_apply (expRows s hr hc hb) 0x00000000#32 hr (.inl rfl) rfl i).trans ?_
  exact Finset.sum_congr rfl fun j' _ => expRows_apply s hr hc hb i j'

end Program

end Cert.Lib.SoftmaxRows

end
-- ==== Proof.Region3.lean ====
/-
  The last call: 25 grid points, point t working on rows 2000 t … 2000 t + 1999.  At row r and column o the logit is
      z (r, o) = ((agg (r, o) * inv r) + b o) + sum over k of h (r, k) * W (k, o),
  and the call stores the row log-softmax over the two columns: with top = max(-inf, max over j of z (r, j)),
      out (r, o) = (z (r, o) - top) - log (sum over j of exp (z (r, j) - top)).
  Every output row depends on the same row of the node arrays and on the whole bias row and weight, so after the last
  point the output array is this function of the whole arrays, index by index.
-/
import proofs.«404284_j84817014161825_4_alg».proof.Proof.Gen.KernelIdeal.Frame
import proofs.«404284_j84817014161825_4_alg».proof.Proof.Spec
import proofs.«404284_j84817014161825_4_alg».proof.Proof.LibRowTile
import proofs.«404284_j84817014161825_4_alg».proof.Proof.LibSoftmaxRows
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.Region3

open Cert.KernelIdeal Cert.KernelIdeal.Gen Cert.Sage Cert.Lib Cert.Lib.SoftmaxRows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## What one point stores -/

/-- The block product's dimension numbers are those of a plain [2000, 64] x [64, 2] product. -/
theorem plain : IsPlain dot_S2000x64_S64x2_S2000x2_1_0_0_1_n_n := ⟨rfl, rfl, rfl, rfl, rfl, rfl, rfl, rfl⟩

/-- The logits of one block, in the program's operations: the neighbour-sum block scaled by the reciprocal-degree
    column, plus the bias row, plus the block product of the features and the weight. -/
def logitsVec (x0 : Vec Ideal S2000x2 .f32) (x2 : Vec Ideal S2000x1 .f32) (x6 : Vec Ideal S1x2 .f32)
    (x10 : Vec Ideal S2000x64 .f32) (x12 : Vec Ideal S64x2 .f32) : FVec Ideal S2000x2 .f32 :=
  addf (addf (mulf (shapeCast S2000x2 x0 Gen.shapeCasts_S2000x2_S2000x2)
      (broadcastTo S2000x2 (shapeCast S2000x1 x2 Gen.shapeCasts_S2000x1_S2000x1) Gen.broadcasts_S2000x1_S2000x2))
      (broadcastTo S2000x2 (shapeCast S1x2 x6 Gen.shapeCasts_S1x2_S1x2) Gen.broadcasts_S1x2_S2000x2))
    (matmul (φ₁ := .f32) (φ₂ := .f32) dot_S2000x64_S64x2_S2000x2_1_0_0_1_n_n none
      (shapeCast S2000x64 x10 Gen.shapeCasts_S2000x64_S2000x64) x12 (constant S2000x2 .f32 0x00000000#32))

/-- The logit at row p and column q of the block. -/
theorem logits_at (x0 : Vec Ideal S2000x2 .f32) (x2 : Vec Ideal S2000x1 .f32) (x6 : Vec Ideal S1x2 .f32)
    (x10 : Vec Ideal S2000x64 .f32) (x12 : Vec Ideal S64x2 .f32) (p : Fin 2000) (q : Fin 2) :
    logitsVec x0 x2 x6 x10 x12 (ix2 p q)
      = ((x0 (ix2 p q) * x2 (ix2 p (0 : Fin 1))) + x6 (ix2 (0 : Fin 1) q)) + ∑ k : Fin 64, x10 (ix2 p k) * x12 (ix2 k q) := by
  unfold logitsVec
  rw [shapeCast_self, shapeCast_self, shapeCast_self, shapeCast_self]
  rw [addf_apply, addf_apply, mulf_apply]
  rw [colBroadcast_apply (a := 2000) (b := 2) x2 Gen.broadcasts_S2000x1_S2000x2 p q,
    broadcastTo_1b_ab_apply (a := 2000) (b := 2) x6 Gen.broadcasts_S1x2_S2000x2 p q]
  refine congrArg (fun s => ((x0 (ix2 p q) * x2 (ix2 p (0 : Fin 1))) + x6 (ix2 (0 : Fin 1) q)) + s) ?_
  refine (Ideal.matmul_constant_zero_apply _ none x10 x12 (ix2 p q)).trans ?_
  exact plain.sum_eq x10 x12 (ix2 p q)

/-- The row log-softmax of a [2000, 2] block, in the program's operations: the row maxima from -infinity joined with
    -infinity once more, the shifted block, the row sums of its exponentials from zero, their logarithms as a column,
    and the shifted block less that column. -/
def lsmVec (s : FVec Ideal S2000x2 .f32) : FVec Ideal S2000x2 .f32 :=
  subf (subf s (broadcastTo S2000x2 (shapeCast S2000x1
      (maximumf (broadcast S2000 (Scalar.ofBits .f32 0xFF800000#32))
        (multiReduction .maximumf [1] S2000 s 0xFF800000#32 Gen.reduces_S2000x2_S2000 (.inl rfl) rfl))
      Gen.shapeCasts_S2000_S2000x1) Gen.broadcasts_S2000x1_S2000x2))
    (broadcastTo S2000x2 (log (shapeCast S2000x1
      (multiReduction .add [1] S2000
        (exp (subf s (broadcastTo S2000x2 (shapeCast S2000x1
          (maximumf (broadcast S2000 (Scalar.ofBits .f32 0xFF800000#32))
            (multiReduction .maximumf [1] S2000 s 0xFF800000#32 Gen.reduces_S2000x2_S2000 (.inl rfl) rfl))
          Gen.shapeCasts_S2000_S2000x1) Gen.broadcasts_S2000x1_S2000x2)))
        0x00000000#32 Gen.reduces_S2000x2_S2000 (.inl rfl) rfl)
      Gen.shapeCasts_S2000_S2000x1)) Gen.broadcasts_S2000x1_S2000x2)

/-- The specification's row log-softmax, with the row's top named. -/
theorem lsm_eq (z : Fin 2 → EReal) (o : Fin 2) :
    lsm z o = (z o - rowTop z) - Ideal.log (∑ j : Fin 2, Ideal.exp (z j - rowTop z)) := rfl

/-- Entry (i, j) of the program's row log-softmax is the log-softmax of row i at column j. -/
theorem lsmVec_apply (s : FVec Ideal S2000x2 .f32) (i : Fin 2000) (j : Fin 2) :
    lsmVec s (ix2 i j) = lsm (fun j' => s (ix2 i j')) j := by
  rw [lsm_eq]
  show (s (ix2 i j) - broadcastTo S2000x2 (shapeCast S2000x1
        (rowTopVec (a := 2000) (b := 2) s Gen.reduces_S2000x2_S2000) Gen.shapeCasts_S2000_S2000x1) Gen.broadcasts_S2000x1_S2000x2 (ix2 i j))
      - broadcastTo S2000x2 (log (shapeCast S2000x1
          (multiReduction .add [1] S2000
            (expRows (a := 2000) (b := 2) s Gen.reduces_S2000x2_S2000 Gen.shapeCasts_S2000_S2000x1 Gen.broadcasts_S2000x1_S2000x2)
            0x00000000#32 Gen.reduces_S2000x2_S2000 (.inl rfl) rfl)
          Gen.shapeCasts_S2000_S2000x1)) Gen.broadcasts_S2000x1_S2000x2 (ix2 i j) = _
  rw [colBroadcast_apply (a := 2000) (b := 2) _ Gen.broadcasts_S2000x1_S2000x2 i j,
    colCast_apply (a := 2000) _ Gen.shapeCasts_S2000_S2000x1 i (0 : Fin 1),
    rowTopVec_apply (a := 2000) (b := 2) s Gen.reduces_S2000x2_S2000 i,
    colBroadcast_apply (a := 2000) (b := 2) _ Gen.broadcasts_S2000x1_S2000x2 i j]
  refine congrArg (fun u => (s (ix2 i j) - rowTop fun j' => s (ix2 i j')) - u) ?_
  show Ideal.log (shapeCast S2000x1
      (multiReduction .add [1] S2000
        (expRows (a := 2000) (b := 2) s Gen.reduces_S2000x2_S2000 Gen.shapeCasts_S2000_S2000x1 Gen.broadcasts_S2000x1_S2000x2)
        0x00000000#32 Gen.reduces_S2000x2_S2000 (.inl rfl) rfl)
      Gen.shapeCasts_S2000_S2000x1 (ix2 i (0 : Fin 1))) = _
  refine congrArg Ideal.log ?_
  rw [colCast_apply (a := 2000) _ Gen.shapeCasts_S2000_S2000x1 i (0 : Fin 1)]
  refine (rowSum_apply (a := 2000) (b := 2) _ 0x00000000#32 Gen.reduces_S2000x2_S2000 (.inl rfl) rfl i).trans ?_
  exact Finset.sum_congr rfl fun j' _ =>
    expRows_apply (a := 2000) (b := 2) s Gen.reduces_S2000x2_S2000 Gen.shapeCasts_S2000_S2000x1 Gen.broadcasts_S2000x1_S2000x2 i j'

/-- The body's arithmetic is the row log-softmax of the logits. -/
theorem pay_eq (x0 : Vec Ideal S2000x2 .f32) (x2 : Vec Ideal S2000x1 .f32) (x6 : Vec Ideal S1x2 .f32)
    (x10 : Vec Ideal S2000x64 .f32) (x12 : Vec Ideal S64x2 .f32) :
    k3_pay1 (F := Ideal) x0 x2 x6 x10 x12 = lsmVec (logitsVec x0 x2 x6 x10 x12) := rfl

/-- What one point stores, at row p and column q of its block: the log-softmax, at column q, of the row of logits. -/
theorem pay_at (x0 : Vec Ideal S2000x2 .f32) (x2 : Vec Ideal S2000x1 .f32) (x6 : Vec Ideal S1x2 .f32)
    (x10 : Vec Ideal S2000x64 .f32) (x12 : Vec Ideal S64x2 .f32) (p : Fin 2000) (q : Fin 2) :
    k3_pay1 (F := Ideal) x0 x2 x6 x10 x12 (ix2 p q)
      = lsm (fun j => ((x0 (ix2 p j) * x2 (ix2 p (0 : Fin 1))) + x6 (ix2 (0 : Fin 1) j)) + ∑ k : Fin 64, x10 (ix2 p k) * x12 (ix2 k j)) q := by
  rw [pay_eq]
  refine (lsmVec_apply (logitsVec x0 x2 x6 x10 x12) p q).trans ?_
  exact congrArg (fun z => lsm z q) (funext fun j => logits_at x0 x2 x6 x10 x12 p j)

/-! ## Where the blocks sit -/

/-- The printed index maps over the grid: the three node windows and the output window sit at block row t, the bias
    row and the weight at the origin. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Node row 2000 t + p. -/
def row (t : Fin cfg3.N) (p : Fin 2000) : Fin 50000 :=
  ⟨t.val * 2000 + p.val, by have := t.isLt; have h : cfg3.N = 25 := N_3; have := p.isLt; omega⟩

/-- The neighbour-sum block of point t, at (p, q), is the neighbour-sum array at (2000 t + p, q). -/
theorem read0 (c : Dev nD) (t : Fin cfg3.N) (p : Fin 2000) (q : Fin 2) :
    iblk3 V c 0 t (ix2 p q) = V c main_v50 (ix2 (row t p) q) := by
  obtain ⟨e0, e1, -, -, -, -, -, -, -, -, -, -⟩ := idx_facts t
  show V c main_v50 (((cfg3.win 0).blk t).view.emb (ix2 p q)) = V c main_v50 (ix2 (row t p) q)
  refine congrArg (V c main_v50) ?_
  funext a; apply Fin.ext
  match a with
  | ⟨0, _⟩ => show win3_0.index t (0 : Fin 2) * 2000 + 1 * p.val = t.val * 2000 + p.val; omega
  | ⟨1, _⟩ => show win3_0.index t (1 : Fin 2) * 2 + 1 * q.val = q.val; omega

/-- The feature block of point t, at (p, k), is the feature array at (2000 t + p, k). -/
theorem read1 (c : Dev nD) (t : Fin cfg3.N) (p : Fin 2000) (k : Fin 64) :
    iblk3 V c 1 t (ix2 p k) = V c main_v39 (ix2 (row t p) k) := by
  obtain ⟨-, -, e0, e1, -, -, -, -, -, -, -, -⟩ := idx_facts t
  show V c main_v39 (((cfg3.win 1).blk t).view.emb (ix2 p k)) = V c main_v39 (ix2 (row t p) k)
  refine congrArg (V c main_v39) ?_
  funext a; apply Fin.ext
  match a with
  | ⟨0, _⟩ => show win3_1.index t (0 : Fin 2) * 2000 + 1 * p.val = t.val * 2000 + p.val; omega
  | ⟨1, _⟩ => show win3_1.index t (1 : Fin 2) * 64 + 1 * k.val = k.val; omega

/-- The reciprocal-degree block of point t, at (p, 0), is the reciprocal-degree column at (2000 t + p, 0). -/
theorem read2 (c : Dev nD) (t : Fin cfg3.N) (p : Fin 2000) (u : Fin 1) :
    iblk3 V c 2 t (ix2 p u) = V c main_v15 (ix2 (row t p) u) := by
  obtain ⟨-, -, -, -, e0, e1, -, -, -, -, -, -⟩ := idx_facts t
  show V c main_v15 (((cfg3.win 2).blk t).view.emb (ix2 p u)) = V c main_v15 (ix2 (row t p) u)
  refine congrArg (V c main_v15) ?_
  funext a; apply Fin.ext
  match a with
  | ⟨0, _⟩ => show win3_2.index t (0 : Fin 2) * 2000 + 1 * p.val = t.val * 2000 + p.val; omega
  | ⟨1, _⟩ => show win3_2.index t (1 : Fin 2) * 1 + 1 * u.val = u.val; omega

/-- The bias block of any point is the whole bias row. -/
theorem read3 (c : Dev nD) (t : Fin cfg3.N) (u : Fin 1) (q : Fin 2) :
    iblk3 V c 3 t (ix2 u q) = V c main_v51 (ix2 u q) := by
  obtain ⟨-, -, -, -, -, -, e0, e1, -, -, -, -⟩ := idx_facts t
  show V c main_v51 (((cfg3.win 3).blk t).view.emb (ix2 u q)) = V c main_v51 (ix2 u q)
  refine congrArg (V c main_v51) ?_
  funext a; apply Fin.ext
  match a with
  | ⟨0, _⟩ => show win3_3.index t (0 : Fin 2) * 1 + 1 * u.val = u.val; omega
  | ⟨1, _⟩ => show win3_3.index t (1 : Fin 2) * 2 + 1 * q.val = q.val; omega

/-- The weight block of any point is the whole weight. -/
theorem read4 (c : Dev nD) (t : Fin cfg3.N) (k : Fin 64) (q : Fin 2) :
    iblk3 V c 4 t (ix2 k q) = V c main_arg10 (ix2 k q) := by
  obtain ⟨-, -, -, -, -, -, -, -, e0, e1, -, -⟩ := idx_facts t
  show V c main_arg10 (((cfg3.win 4).blk t).view.emb (ix2 k q)) = V c main_arg10 (ix2 k q)
  refine congrArg (V c main_arg10) ?_
  funext a; apply Fin.ext
  match a with
  | ⟨0, _⟩ => show win3_4.index t (0 : Fin 2) * 64 + 1 * k.val = k.val; omega
  | ⟨1, _⟩ => show win3_4.index t (1 : Fin 2) * 2 + 1 * q.val = q.val; omega

/-- The output block of point t, at (p, q), lands at (2000 t + p, q) of the output array. -/
theorem emb5 (t : Fin cfg3.N) (p : Fin 2000) (q : Fin 2) :
    ((cfg3.win 5).blk t).view.emb (ix2 p q) = ix2 (row t p) q := by
  obtain ⟨-, -, -, -, -, -, -, -, -, -, e0, e1⟩ := idx_facts t
  funext a; apply Fin.ext
  match a with
  | ⟨0, _⟩ => show win3_5.index t (0 : Fin 2) * 2000 + 1 * p.val = t.val * 2000 + p.val; omega
  | ⟨1, _⟩ => show win3_5.index t (1 : Fin 2) * 2 + 1 * q.val = q.val; omega

/-! ## From the blocks to the array -/

/-- The whole output: the row log-softmax of the logits formed from the arrays the call found. -/
abbrev whole (c : Dev nD) : Mat 50000 2 :=
  outK (V c main_v50) (V c main_v39) (fun r => V c main_v15 (ix2 r (0 : Fin 1))) (V c main_arg10)
    (fun o => V c main_v51 (ix2 (0 : Fin 1) o))

/-- The block's logit is the whole arrays' logit as soon as each block entry it reads is the array entry. -/
theorem logit_eq_zK (x0 : Vec Ideal S2000x2 .f32) (x2 : Vec Ideal S2000x1 .f32) (x6 : Vec Ideal S1x2 .f32)
    (x10 : Vec Ideal S2000x64 .f32) (x12 : Vec Ideal S64x2 .f32)
    (agg2 : Mat 50000 2) (root : Mat 50000 64) (inv : Fin 50000 → EReal) (Wr : Mat 64 2) (b : Fin 2 → EReal)
    (p : Fin 2000) (r : Fin 50000) (j : Fin 2)
    (h0 : x0 (ix2 p j) = agg2 (ix2 r j)) (h2 : x2 (ix2 p (0 : Fin 1)) = inv r) (h6 : x6 (ix2 (0 : Fin 1) j) = b j)
    (h10 : ∀ k : Fin 64, x10 (ix2 p k) = root (ix2 r k)) (h12 : ∀ k : Fin 64, x12 (ix2 k j) = Wr (ix2 k j)) :
    ((x0 (ix2 p j) * x2 (ix2 p (0 : Fin 1))) + x6 (ix2 (0 : Fin 1) j)) + ∑ k : Fin 64, x10 (ix2 p k) * x12 (ix2 k j)
      = zK agg2 root inv Wr b r j := by
  unfold zK
  rw [h0, h2, h6]
  exact congrArg (fun s => ((agg2 (ix2 r j) * inv r) + b j) + s) (Finset.sum_congr rfl fun k _ => by rw [h10 k, h12 k])

/-- What point t writes back is block t of the whole output. -/
theorem flushed_eq (c : Dev nD) (t : Fin cfg3.N) :
    (dat3 V c).flushed 5 t = ((cfg3.win 5).blk t).view.read (Elt Ideal) (whole V c) := by
  show (cfg3.win 5).cut (grid3.coords t) ((dat3 V c).after 5 t) = _
  rw [after3_5]
  unfold out3_5
  rw [View.canon_unit_zero hz]
  simp only [View.ld_unit_zero (S := S2000x2) hz, View.ld_unit_zero (S := S2000x64) hz, View.ld_unit_zero (S := S2000x1) hz,
    View.ld_unit_zero (S := S1x2) hz, View.ld_unit_zero (S := S64x2) hz]
  funext j
  obtain ⟨p, q, rfl⟩ : ∃ (p : Fin 2000) (q : Fin 2), j = ix2 p q := ⟨j 0, j 1, eq_ix2 j⟩
  refine (pay_at (iblk3 V c 0 t) (iblk3 V c 2 t) (iblk3 V c 3 t) (iblk3 V c 1 t) (iblk3 V c 4 t) p q).trans ?_
  show _ = whole V c (((cfg3.win 5).blk t).view.emb (ix2 p q))
  rw [emb5 t p q]
  show _ = lsm (fun j => zK (V c main_v50) (V c main_v39) (fun r => V c main_v15 (ix2 r (0 : Fin 1))) (V c main_arg10)
    (fun o => V c main_v51 (ix2 (0 : Fin 1) o)) (row t p) j) q
  refine congrArg (fun z => lsm z q) (funext fun j => ?_)
  exact logit_eq_zK (iblk3 V c 0 t) (iblk3 V c 2 t) (iblk3 V c 3 t) (iblk3 V c 1 t) (iblk3 V c 4 t)
    (V c main_v50) (V c main_v39) (fun r => V c main_v15 (ix2 r (0 : Fin 1))) (V c main_arg10)
    (fun o => V c main_v51 (ix2 (0 : Fin 1) o)) p (row t p) j
    (read0 V c t p j) (read2 V c t p (0 : Fin 1)) (read3 V c t (0 : Fin 1) j) (fun k => read1 V c t p k) (fun k => read4 V c t k j)

/-- An index of the output array is in point t's block iff each coordinate is in the block's range. -/
theorem mem_blk (t : Fin cfg3.N) (i : S50000x2.Idx) :
    i ∈ ((cfg3.win 5).blk t).view.set ↔ ∀ a : Fin 2, win3_5.index t a * S2000x2.size a ≤ (i a).val ∧ (i a).val < win3_5.index t a * S2000x2.size a + S2000x2.size a := by
  show i ∈ ((View.whole main_v52).slice (win3_5.rect t)).set ↔ _
  rw [View.set_slice_whole, Rect.mem_set_unit]
  exact Iff.rfl

/-- Every index of the output array lies in the block of the point its row falls in. -/
theorem cover (i : S50000x2.Idx) : ∃ t : Fin cfg3.N, (cfg3.win 5).flush t = true ∧ i ∈ ((cfg3.win 5).blk t).view.set := by
  have hi0 : (i 0).val < 50000 := (i 0).isLt
  have hi1 : (i 1).val < 2 := (i 1).isLt
  have hN : cfg3.N = 25 := N_3
  let t : Fin cfg3.N := ⟨(i 0).val / 2000, by omega⟩
  obtain ⟨-, -, -, -, -, -, -, -, -, -, e4, e5⟩ := idx_facts t
  have ht : t.val = (i 0).val / 2000 := rfl
  refine ⟨t, flush3_5 t, ?_⟩
  rw [mem_blk]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 2 ≤ (i 1).val ∧ (i 1).val < win3_5.index t (1 : Fin 2) * 2 + 2; omega

/-- After the last point the output array is the row log-softmax of the logits, over the whole arrays. -/
theorem arr (c : Dev nD) : (dat3 V c).arrAt 5 cfg3.N
    = outK (V c main_v50) (V c main_v39) (fun r => V c main_v15 (ix2 r (0 : Fin 1))) (V c main_arg10) (fun o => V c main_v51 (ix2 (0 : Fin 1) o)) :=
  (dat3 V c).arrAt_eq_of_cover 5 (whole V c) (fun t _ => flushed_eq V c t) cover

end Cert.KernelIdeal.Region3

end
-- ==== Proof.RefSpec.lean ====
/-
  The reference program is the specification's network.

  The reference is a three-layer mean-aggregating graph network written as plain array operations: per layer a
  neighbour sum (rows gathered at src, scatter-added at dst into zeros), scaled by the reciprocal in-degree, times a
  weight matrix, plus a bias row, plus the root features times a second weight matrix; layers one and two end in
  max(., 0), layer three in the row log-softmax over its two columns.  Read index by index, every stage of it is the
  same formula as the specification's: the neighbour sums and the reciprocal in-degree stay the opaque functions
  nbrSum and invOf of the edge columns (no gather or scatter-add is opened), each matrix product is the sum over the
  contracted coordinate, each broadcast reads its operand at the evident coordinate, and the row maximum of the
  log-softmax is the fold of max from -inf over the row's two entries.  Stage by stage:
      stage 34 = h1,   stage 54 = h2,   stage 73 at (p, o) = pre 64 2 (N h2) h2 inv W3l W3r b3 p o,   stage 74 = netR.
-/
import proofs.«404284_j84817014161825_4_alg».proof.Proof.Spec
import proofs.«404284_j84817014161825_4_alg».proof.Proof.RefReadP
import proofs.«404284_j84817014161825_4_alg».proof.Proof.LibSoftmaxRows

open scoped BigOperators

noncomputable section

namespace Cert.ReferenceIdeal.RefSpec

open Cert.ReferenceIdeal Cert.ReferenceIdeal.ReadP Idealize.ShloMosaic Idealize.ShloMosaic.ValueIdx Cert.Sage

/-- The reference's dst and src edge columns as functions of the edge-index input: the read module's own stages. -/
def dstR (ei : IVec (⟨2, ![2, 800000]⟩ : Shape) 32) : Cert.Sage.EdgeCol := Cert.ReferenceIdeal.ReadP.val_main_v23 (F := Ideal) ei
def srcR (ei : IVec (⟨2, ![2, 800000]⟩ : Shape) 32) : Cert.Sage.EdgeCol := Cert.ReferenceIdeal.ReadP.val_main_v20 (F := Ideal) ei

/-- The reference's records (the 2-column ones are parameters: the reference has none). -/
def recsR [Cert.ReferenceIdeal.Facts] (s2 : ScatterDims ⟨2, ![50000, 2]⟩ ⟨2, ![800000, 1]⟩ ⟨2, ![800000, 2]⟩)
    (g2 : GatherDims ⟨2, ![50000, 2]⟩ ⟨2, ![800000, 1]⟩ ⟨2, ![800000, 2]⟩) : Cert.Sage.Recs :=
  ⟨scatter_S50000_S800000x1_S800000_n_0_0_1, scatter_S50000x16_S800000x1_S800000x16_1_0_0_1,
   gather_S50000x16_S800000x1_S800000x16_1_0_n_n_0_1_116, scatter_S50000x64_S800000x1_S800000x64_1_0_0_1,
   gather_S50000x64_S800000x1_S800000x64_1_0_n_n_0_1_164, s2, g2⟩

variable [Cert.ReferenceIdeal.Facts]
  (s2 : ScatterDims ⟨2, ![50000, 2]⟩ ⟨2, ![800000, 1]⟩ ⟨2, ![800000, 2]⟩)
  (g2 : GatherDims ⟨2, ![50000, 2]⟩ ⟨2, ![800000, 1]⟩ ⟨2, ![800000, 2]⟩)

/-! ## The opaque pieces: the reciprocal in-degree and the neighbour sums -/

/-- The reference's reciprocal in-degree array is the specification's, over the reference's count record. -/
theorem v14_eq (ei : IVec (⟨2, ![2, 800000]⟩ : Shape) 32) :
    val_main_v14 (F := Ideal) ei = invOf (recsR s2 g2).v (dstR ei) := rfl

/-- At node `p` it is the specification's `inv`. -/
theorem v14_at (ei : IVec (⟨2, ![2, 800000]⟩ : Shape) 32) (p : Fin 50000) :
    val_main_v14 (F := Ideal) ei (ix1 p) = inv (recsR s2 g2) (dstR ei) p := rfl

/-- The reference's first scatter-add of gathered rows is the neighbour sum of the input features. -/
theorem v24_eq (x : Mat 50000 16) (ei : IVec (⟨2, ![2, 800000]⟩ : Shape) 32) :
    val_main_v24 (F := Ideal) x ei = nbrSum (recsR s2 g2).s16 (recsR s2 g2).g16 (dstR ei) (srcR ei) x := rfl

/-! ## Layer one -/

section Layer1
variable (x : Mat 50000 16) (ei : IVec (⟨2, ![2, 800000]⟩ : Shape) 32) (W1l : Mat 16 64) (b1 : Vec1 64) (W1r : Mat 16 64)

/-- The reciprocal in-degree broadcast across 16 columns reads, at (p, k), `inv p`. -/
theorem v26_at (p : Fin 50000) (k : Fin 16) :
    val_main_v26 (F := Ideal) ei (ix2 p k) = inv (recsR s2 g2) (dstR ei) p := by
  rw [val_main_v26_apply, val_main_v25_apply]
  have e : idx_main_v25 (idx_main_v26 (ix2 p k)) = ix1 p :=
    funext fun a => Fin.ext (by match a with | ⟨0, _⟩ => rfl)
  rw [e]
  exact v14_at s2 g2 ei p

/-- The scaled neighbour sum times the first weight matrix, at (p, q). -/
theorem v28_at (p : Fin 50000) (q : Fin 64) :
    val_main_v28 (F := Ideal) x ei W1l (ix2 p q)
      = ∑ k : Fin 16, (nbrSum (recsR s2 g2).s16 (recsR s2 g2).g16 (dstR ei) (srcR ei) x (ix2 p k) * inv (recsR s2 g2) (dstR ei) p)
          * W1l (ix2 k q) := by
  rw [val_main_v28_apply]
  refine Finset.sum_congr rfl fun k _ => ?_
  have el : lidx_main_v28 (ix2 p q) k = ix2 p k :=
    funext fun a => Fin.ext (by match a with | ⟨0, _⟩ => rfl | ⟨1, _⟩ => rfl)
  have er : ridx_main_v28 (ix2 p q) k = ix2 k q :=
    funext fun a => Fin.ext (by match a with | ⟨0, _⟩ => rfl | ⟨1, _⟩ => rfl)
  rw [el, er, val_main_v27_apply, v26_at s2 g2 ei p k, v24_eq s2 g2 x ei]
  rfl

/-- The bias row broadcast down the nodes reads, at (p, q), `b1 q`. -/
theorem v30_at (p : Fin 50000) (q : Fin 64) : val_main_v30 (F := Ideal) b1 (ix2 p q) = b1 (ix1 q) := by
  rw [val_main_v30_apply, val_main_v29_apply]
  exact congrArg b1 (funext fun a => Fin.ext (by match a with | ⟨0, _⟩ => rfl))

/-- The root term: the features times the second weight matrix, at (p, q). -/
theorem v32_at (p : Fin 50000) (q : Fin 64) :
    val_main_v32 (F := Ideal) x W1r (ix2 p q) = ∑ k : Fin 16, x (ix2 p k) * W1r (ix2 k q) := by
  rw [val_main_v32_apply]
  refine Finset.sum_congr rfl fun k _ => ?_
  have el : lidx_main_v32 (ix2 p q) k = ix2 p k :=
    funext fun a => Fin.ext (by match a with | ⟨0, _⟩ => rfl | ⟨1, _⟩ => rfl)
  have er : ridx_main_v32 (ix2 p q) k = ix2 k q :=
    funext fun a => Fin.ext (by match a with | ⟨0, _⟩ => rfl | ⟨1, _⟩ => rfl)
  rw [el, er]

/-- THE FIRST HIDDEN LAYER: the reference's stage is the specification's `h1`. -/
theorem v34_eq :
    val_main_v34 (F := Ideal) x ei W1l b1 W1r = h1 (recsR s2 g2) (dstR ei) (srcR ei) x W1l b1 W1r := by
  funext i
  obtain ⟨p, q, rfl⟩ : ∃ (p : Fin 50000) (q : Fin 64), i = ix2 p q := ⟨i 0, i 1, eq_ix2 i⟩
  rw [val_main_v34_apply, val_main_v33_apply, val_main_v31_apply, v28_at s2 g2 x ei W1l p q, v30_at b1 p q, v32_at x W1r p q]
  rfl

end Layer1

/-! ## Layer two -/

section Layer2
variable (x : Mat 50000 16) (ei : IVec (⟨2, ![2, 800000]⟩ : Shape) 32) (W1l : Mat 16 64) (b1 : Vec1 64) (W1r : Mat 16 64)
  (W2l : Mat 64 64) (b2 : Vec1 64) (W2r : Mat 64 64)

/-- The reference's second scatter-add of gathered rows is the neighbour sum of the first hidden layer. -/
theorem v44_eq :
    val_main_v44 (F := Ideal) x ei W1l b1 W1r
      = nbrSum (recsR s2 g2).s64 (recsR s2 g2).g64 (dstR ei) (srcR ei) (h1 (recsR s2 g2) (dstR ei) (srcR ei) x W1l b1 W1r) := by
  rw [← v34_eq s2 g2 x ei W1l b1 W1r]
  rfl

/-- The reciprocal in-degree broadcast across 64 columns reads, at (p, k), `inv p`. -/
theorem v46_at (p : Fin 50000) (k : Fin 64) :
    val_main_v46 (F := Ideal) ei (ix2 p k) = inv (recsR s2 g2) (dstR ei) p := by
  rw [val_main_v46_apply, val_main_v45_apply]
  have e : idx_main_v45 (idx_main_v46 (ix2 p k)) = ix1 p :=
    funext fun a => Fin.ext (by match a with | ⟨0, _⟩ => rfl)
  rw [e]
  exact v14_at s2 g2 ei p

/-- The scaled neighbour sum of the first layer times the second layer's first weight matrix, at (p, q). -/
theorem v48_at (p : Fin 50000) (q : Fin 64) :
    val_main_v48 (F := Ideal) x ei W1l b1 W1r W2l (ix2 p q)
      = ∑ k : Fin 64, (nbrSum (recsR s2 g2).s64 (recsR s2 g2).g64 (dstR ei) (srcR ei)
            (h1 (recsR s2 g2) (dstR ei) (srcR ei) x W1l b1 W1r) (ix2 p k) * inv (recsR s2 g2) (dstR ei) p)
          * W2l (ix2 k q) := by
  rw [val_main_v48_apply]
  refine Finset.sum_congr rfl fun k _ => ?_
  have el : lidx_main_v48 (ix2 p q) k = ix2 p k :=
    funext fun a => Fin.ext (by match a with | ⟨0, _⟩ => rfl | ⟨1, _⟩ => rfl)
  have er : ridx_main_v48 (ix2 p q) k = ix2 k q :=
    funext fun a => Fin.ext (by match a with | ⟨0, _⟩ => rfl | ⟨1, _⟩ => rfl)
  rw [el, er, val_main_v47_apply, v46_at s2 g2 ei p k, v44_eq s2 g2 x ei W1l b1 W1r]
  rfl

/-- The second bias row broadcast down the nodes reads, at (p, q), `b2 q`. -/
theorem v50_at (p : Fin 50000) (q : Fin 64) : val_main_v50 (F := Ideal) b2 (ix2 p q) = b2 (ix1 q) := by
  rw [val_main_v50_apply, val_main_v49_apply]
  exact congrArg b2 (funext fun a => Fin.ext (by match a with | ⟨0, _⟩ => rfl))

/-- The root term of layer two, at (p, q). -/
theorem v52_at (p : Fin 50000) (q : Fin 64) :
    val_main_v52 (F := Ideal) x ei W1l b1 W1r W2r (ix2 p q)
      = ∑ k : Fin 64, h1 (recsR s2 g2) (dstR ei) (srcR ei) x W1l b1 W1r (ix2 p k) * W2r (ix2 k q) := by
  rw [val_main_v52_apply]
  refine Finset.sum_congr rfl fun k _ => ?_
  have el : lidx_main_v52 (ix2 p q) k = ix2 p k :=
    funext fun a => Fin.ext (by match a with | ⟨0, _⟩ => rfl | ⟨1, _⟩ => rfl)
  have er : ridx_main_v52 (ix2 p q) k = ix2 k q :=
    funext fun a => Fin.ext (by match a with | ⟨0, _⟩ => rfl | ⟨1, _⟩ => rfl)
  rw [el, er, v34_eq s2 g2 x ei W1l b1 W1r]

/-- THE SECOND HIDDEN LAYER: the reference's stage is the specification's `h2`. -/
theorem v54_eq :
    val_main_v54 (F := Ideal) x ei W1l b1 W1r W2l b2 W2r = h2 (recsR s2 g2) (dstR ei) (srcR ei) x W1l b1 W1r W2l b2 W2r := by
  funext i
  obtain ⟨p, q, rfl⟩ : ∃ (p : Fin 50000) (q : Fin 64), i = ix2 p q := ⟨i 0, i 1, eq_ix2 i⟩
  rw [val_main_v54_apply, val_main_v53_apply, val_main_v51_apply, v48_at s2 g2 x ei W1l b1 W1r W2l p q, v50_at b2 p q,
    v52_at s2 g2 x ei W1l b1 W1r W2r p q]
  rfl

end Layer2

/-! ## Layer three's logits -/

section Layer3
variable (x : Mat 50000 16) (ei : IVec (⟨2, ![2, 800000]⟩ : Shape) 32) (W1l : Mat 16 64) (b1 : Vec1 64) (W1r : Mat 16 64)
  (W2l : Mat 64 64) (b2 : Vec1 64) (W2r : Mat 64 64) (W3l : Mat 64 2) (b3 : Vec1 2) (W3r : Mat 64 2)

/-- The reference's third scatter-add of gathered rows is the neighbour sum of the second hidden layer. -/
theorem v64_eq :
    val_main_v64 (F := Ideal) x ei W1l b1 W1r W2l b2 W2r
      = nbrSum (recsR s2 g2).s64 (recsR s2 g2).g64 (dstR ei) (srcR ei)
          (h2 (recsR s2 g2) (dstR ei) (srcR ei) x W1l b1 W1r W2l b2 W2r) := by
  rw [← v54_eq s2 g2 x ei W1l b1 W1r W2l b2 W2r]
  rfl

/-- The reciprocal in-degree broadcast across 64 columns reads, at (p, k), `inv p`. -/
theorem v66_at (p : Fin 50000) (k : Fin 64) :
    val_main_v66 (F := Ideal) ei (ix2 p k) = inv (recsR s2 g2) (dstR ei) p := by
  rw [val_main_v66_apply, val_main_v65_apply]
  have e : idx_main_v65 (idx_main_v66 (ix2 p k)) = ix1 p :=
    funext fun a => Fin.ext (by match a with | ⟨0, _⟩ => rfl)
  rw [e]
  exact v14_at s2 g2 ei p

/-- The scaled neighbour sum of the second layer times the 64 -> 2 weight matrix, at (p, o). -/
theorem v68_at (p : Fin 50000) (o : Fin 2) :
    val_main_v68 (F := Ideal) x ei W1l b1 W1r W2l b2 W2r W3l (ix2 p o)
      = ∑ k : Fin 64, (nbrSum (recsR s2 g2).s64 (recsR s2 g2).g64 (dstR ei) (srcR ei)
            (h2 (recsR s2 g2) (dstR ei) (srcR ei) x W1l b1 W1r W2l b2 W2r) (ix2 p k) * inv (recsR s2 g2) (dstR ei) p)
          * W3l (ix2 k o) := by
  rw [val_main_v68_apply]
  refine Finset.sum_congr rfl fun k _ => ?_
  have el : lidx_main_v68 (ix2 p o) k = ix2 p k :=
    funext fun a => Fin.ext (by match a with | ⟨0, _⟩ => rfl | ⟨1, _⟩ => rfl)
  have er : ridx_main_v68 (ix2 p o) k = ix2 k o :=
    funext fun a => Fin.ext (by match a with | ⟨0, _⟩ => rfl | ⟨1, _⟩ => rfl)
  rw [el, er, val_main_v67_apply, v66_at s2 g2 ei p k, v64_eq s2 g2 x ei W1l b1 W1r W2l b2 W2r]
  rfl

/-- The third bias row broadcast down the nodes reads, at (p, o), `b3 o`. -/
theorem v70_at (p : Fin 50000) (o : Fin 2) : val_main_v70 (F := Ideal) b3 (ix2 p o) = b3 (ix1 o) := by
  rw [val_main_v70_apply, val_main_v69_apply]
  exact congrArg b3 (funext fun a => Fin.ext (by match a with | ⟨0, _⟩ => rfl))

/-- The root term of layer three, at (p, o). -/
theorem v72_at (p : Fin 50000) (o : Fin 2) :
    val_main_v72 (F := Ideal) x ei W1l b1 W1r W2l b2 W2r W3r (ix2 p o)
      = ∑ k : Fin 64, h2 (recsR s2 g2) (dstR ei) (srcR ei) x W1l b1 W1r W2l b2 W2r (ix2 p k) * W3r (ix2 k o) := by
  rw [val_main_v72_apply]
  refine Finset.sum_congr rfl fun k _ => ?_
  have el : lidx_main_v72 (ix2 p o) k = ix2 p k :=
    funext fun a => Fin.ext (by match a with | ⟨0, _⟩ => rfl | ⟨1, _⟩ => rfl)
  have er : ridx_main_v72 (ix2 p o) k = ix2 k o :=
    funext fun a => Fin.ext (by match a with | ⟨0, _⟩ => rfl | ⟨1, _⟩ => rfl)
  rw [el, er, v54_eq s2 g2 x ei W1l b1 W1r W2l b2 W2r]

/-- THE LOGITS: the reference's pre-softmax stage is the specification's `pre` over the second layer, at (p, o). -/
theorem v73_at (p : Fin 50000) (o : Fin 2) :
    val_main_v73 (F := Ideal) x ei W1l b1 W1r W2l b2 W2r W3l b3 W3r (ix2 p o)
      = pre 64 2 (nbrSum (recsR s2 g2).s64 (recsR s2 g2).g64 (dstR ei) (srcR ei)
            (h2 (recsR s2 g2) (dstR ei) (srcR ei) x W1l b1 W1r W2l b2 W2r))
          (h2 (recsR s2 g2) (dstR ei) (srcR ei) x W1l b1 W1r W2l b2 W2r) (inv (recsR s2 g2) (dstR ei)) W3l W3r
          (fun o => b3 (ix1 o)) p o := by
  rw [val_main_v73_apply, val_main_v71_apply, v68_at s2 g2 x ei W1l b1 W1r W2l b2 W2r W3l p o, v70_at b3 p o,
    v72_at s2 g2 x ei W1l b1 W1r W2l b2 W2r W3r p o]
  rfl

/-! ## The row log-softmax -/

/-- A host reduction by `max` over the second axis of a rank-two array is, at row i, the fold of `max` from the
    initial value over the row's entries. -/
theorem hostRowMax2_apply {a b : ℕ} {φ : FTy} {u : Shape} (y : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce (FloatOps.maximumf (F := Ideal) (φ := φ)) y init h' hu (ix1 i)
      = (Finset.univ : Finset (Fin b)).fold max (init (Shape.Idx.first hu)) (fun j => y (ix2 i j)) := by
  refine (Host.reduce_eq_fold_single (FloatOps.maximumf (F := Ideal) (φ := φ)) y init h' h hu (ix1 i)).trans ?_
  have e : (y ∘ h.lift (ix1 i)) = fun j : Fin b => y (ix2 i j) :=
    funext fun j => congrArg y (Cert.Lib.SoftmaxRows.lift_row h i j)
  rw [e]
  rfl

/-- The row maximum from -inf, at node p. -/
theorem call3_v0_at (p : Fin 50000) :
    val_main_call3_v0 (F := Ideal) x ei W1l b1 W1r W2l b2 W2r W3l b3 W3r (ix1 p)
      = (Finset.univ : Finset (Fin 2)).fold max ninf32
          (fun j => val_main_v73 (F := Ideal) x ei W1l b1 W1r W2l b2 W2r W3l b3 W3r (ix2 p j)) := by
  unfold val_main_call3_v0
  exact hostRowMax2_apply _ _ _ (by decide) _ p

/-- The shift: the row maximum joined with -inf once more, broadcast back across the row. -/
theorem call3_v4_at (p : Fin 50000) (o : Fin 2) :
    val_main_call3_v4 (F := Ideal) x ei W1l b1 W1r W2l b2 W2r W3l b3 W3r (ix2 p o)
      = max ninf32 ((Finset.univ : Finset (Fin 2)).fold max ninf32
          (fun j => val_main_v73 (F := Ideal) x ei W1l b1 W1r W2l b2 W2r W3l b3 W3r (ix2 p j))) := by
  rw [val_main_call3_v4_apply, val_main_call3_v3_apply]
  have e : idx_main_call3_v3 (idx_main_call3_v4 (ix2 p o)) = ix1 p :=
    funext fun a => Fin.ext (by match a with | ⟨0, _⟩ => rfl)
  rw [e, val_main_call3_v2_apply, call3_v0_at x ei W1l b1 W1r W2l b2 W2r W3l b3 W3r p]
  rfl

/-- The shifted logits. -/
theorem call3_v5_at (p : Fin 50000) (o : Fin 2) :
    val_main_call3_v5 (F := Ideal) x ei W1l b1 W1r W2l b2 W2r W3l b3 W3r (ix2 p o)
      = val_main_v73 (F := Ideal) x ei W1l b1 W1r W2l b2 W2r W3l b3 W3r (ix2 p o)
        - max ninf32 ((Finset.univ : Finset (Fin 2)).fold max ninf32
          (fun j => val_main_v73 (F := Ideal) x ei W1l b1 W1r W2l b2 W2r W3l b3 W3r (ix2 p j))) := by
  rw [val_main_call3_v5_apply, call3_v4_at x ei W1l b1 W1r W2l b2 W2r W3l b3 W3r p o]
  rfl

/-- The row sum of exponentials from 0, at node p. -/
theorem call3_v7_at (p : Fin 50000) :
    val_main_call3_v7 (F := Ideal) x ei W1l b1 W1r W2l b2 W2r W3l b3 W3r (ix1 p)
      = ∑ k : Fin 2, Ideal.exp (val_main_call3_v5 (F := Ideal) x ei W1l b1 W1r W2l b2 W2r W3l b3 W3r (ix2 p k)) := by
  refine (val_main_call3_v7_apply x ei W1l b1 W1r W2l b2 W2r W3l b3 W3r (ix1 p)).trans ?_
  have h0 : val_main_call3_cst_1 (F := Ideal) (Shape.Idx.first Gen.h_S_) = 0 := Ideal.ofBits_zero_f32
  rw [h0, zero_add]
  refine Finset.sum_congr rfl fun k _ => ?_
  have e : idx_main_call3_v7 (ix1 p) k = ix2 p k :=
    funext fun a => Fin.ext (by match a with | ⟨0, _⟩ => rfl | ⟨1, _⟩ => rfl)
  rw [e, val_main_call3_v6_apply]
  exact Ideal.hostUnary_exp_def _

/-- The log of the row sum, broadcast back across the row. -/
theorem call3_v10_at (p : Fin 50000) (o : Fin 2) :
    val_main_call3_v10 (F := Ideal) x ei W1l b1 W1r W2l b2 W2r W3l b3 W3r (ix2 p o)
      = Ideal.log (∑ k : Fin 2, Ideal.exp (val_main_call3_v5 (F := Ideal) x ei W1l b1 W1r W2l b2 W2r W3l b3 W3r (ix2 p k))) := by
  rw [val_main_call3_v10_apply, val_main_call3_v9_apply, val_main_call3_v8_apply]
  have e : idx_main_call3_v8 (idx_main_call3_v10 (ix2 p o)) = ix1 p :=
    funext fun a => Fin.ext (by match a with | ⟨0, _⟩ => rfl)
  rw [e, call3_v7_at x ei W1l b1 W1r W2l b2 W2r W3l b3 W3r p]
  exact Ideal.hostUnary_log_def _

/-- The reference's last stage at (p, o) is the row log-softmax of its logits. -/
theorem v74_at (p : Fin 50000) (o : Fin 2) :
    val_main_v74 (F := Ideal) x ei W1l b1 W1r W2l b2 W2r W3l b3 W3r (ix2 p o)
      = lsm (fun j => val_main_v73 (F := Ideal) x ei W1l b1 W1r W2l b2 W2r W3l b3 W3r (ix2 p j)) o := by
  rw [val_main_v74_apply, call3_v10_at x ei W1l b1 W1r W2l b2 W2r W3l b3 W3r p o]
  simp only [call3_v5_at x ei W1l b1 W1r W2l b2 W2r W3l b3 W3r p]
  rfl

/-- THE NETWORK: the reference's last stage is the specification's `netR`. -/
theorem v74_eq :
    val_main_v74 (F := Ideal) x ei W1l b1 W1r W2l b2 W2r W3l b3 W3r
      = netR (recsR s2 g2) (dstR ei) (srcR ei) x W1l b1 W1r W2l b2 W2r W3l b3 W3r := by
  funext i
  obtain ⟨p, o, rfl⟩ : ∃ (p : Fin 50000) (o : Fin 2), i = ix2 p o := ⟨i 0, i 1, eq_ix2 i⟩
  rw [v74_at x ei W1l b1 W1r W2l b2 W2r W3l b3 W3r p o]
  have e : (fun j => val_main_v73 (F := Ideal) x ei W1l b1 W1r W2l b2 W2r W3l b3 W3r (ix2 p j))
      = fun j => pre 64 2 (nbrSum (recsR s2 g2).s64 (recsR s2 g2).g64 (dstR ei) (srcR ei)
            (h2 (recsR s2 g2) (dstR ei) (srcR ei) x W1l b1 W1r W2l b2 W2r))
          (h2 (recsR s2 g2) (dstR ei) (srcR ei) x W1l b1 W1r W2l b2 W2r) (inv (recsR s2 g2) (dstR ei)) W3l W3r
          (fun o => b3 (ix1 o)) p j :=
    funext fun j => v73_at s2 g2 x ei W1l b1 W1r W2l b2 W2r W3l b3 W3r p j
  rw [e]
  rfl

end Layer3

/-- THE REFERENCE IS THE SPECIFICATION: its result array is `netR` of its arguments. -/
theorem result_eq (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v74 (F := Ideal) m c
      = Cert.Sage.netR (recsR s2 g2) (dstR (m ((c.tc : Thread nD τ).loc main_arg1))) (srcR (m ((c.tc : Thread nD τ).loc main_arg1)))
          (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9))
          (m ((c.tc : Thread nD τ).loc main_arg10)) := by
  rw [val_main_v74_eq]
  exact v74_eq s2 g2 _ _ _ _ _ _ _ _ _ _ _

end Cert.ReferenceIdeal.RefSpec

end
-- ==== Proof.LibScatterAdd.lean ====
/-
  An accumulating scatter read at an entry.

  jnp's `x.at[idx].add(u)` (or a segment sum) over a vector of E positions prints as a `stablehlo.scatter` with an
  `add` body whose scatter indices are the [E, 1] column of positions, with the index vector on axis 1, operand
  axis 0 both inserted and named by the scatter-dims-to-operand-dims map, and no batching axes.  Two shapes occur.
  Over a vector operand [N] with updates [E] there is no window axis; over a table [N, C] with updates [E, C] the
  updates' axis 1 is the one window axis and goes to the operand's axis 1, so whole rows are added.

  Update e lands at the operand row its position names, the position read as a signed integer and NOT clamped:
  a position below 0 or at or past N lands nowhere and contributes nothing.  So at the exact (extended-real)
  instance the result's entry r (or (r, o)) is the operand's entry plus the sum, over all e, of update e (or of
  its entry o) when position e reads exactly r, and of 0 otherwise.
-/
import Idealize.ShloMosaic.PureOps.Ideal
import Idealize.ShloMosaic.Lib.ValueIdx
import Idealize.ShloMosaic.Lib.ValueIdxRank1

namespace Cert.Lib

open Idealize.ShloMosaic Idealize.ShloMosaic.ValueIdx
open scoped BigOperators

/-! ## A vector operand: operand [N], positions [E, 1], updates [E] -/

/-- The dimension numbers of a scatter into a vector: operand [N], start indices [E, 1], updates [E]. Their
    conditions `wf` are decided on a program's literal shapes. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The window of update j starts, on the operand's one axis, at position j's index word read signed. -/
theorem vec_start {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) :
    (vecScatterDims N E wf).start j idx (0 : Fin 1) = (idx (ix2 (j (0 : Fin 1)) (0 : Fin 1))).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j (0 : Fin 1)) (0 : Fin 1) := by
    funext b; refine Fin.ext ?_
    match b with
    | ⟨0, _⟩ => rfl
    | ⟨1, _⟩ => rfl
  rw [hsi]
  rfl

/-- The operand's one axis is inserted: the window coordinate on it is 0. -/
theorem vec_window {N E : Nat} (wf : ScatterDims.WF ⟨1, ![N]⟩ ⟨2, ![E, 1]⟩ ⟨1, ![E]⟩ [] [0] [0] 1)
    (j : (⟨1, ![E]⟩ : Shape).Idx) :
    (vecScatterDims N E wf).window j (0 : Fin 1) = 0 := by
  unfold ScatterDims.window
  rw [dif_neg]
  intro h
  simp [ScatterDims.sKept, Shape.kept] at h

/-- Update j lands on entry r exactly when position j's index word, read signed, is r. -/
theorem vec_resultIdx {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (r : Fin N) :
    (vecScatterDims N E wf).resultIdx? j idx = some (ix1 r)
      ↔ (idx (ix2 (j (0 : Fin 1)) (0 : Fin 1))).toInt = (r.val : Int) := by
  have hs := vec_start wf j idx
  have hw := vec_window wf j
  unfold ScatterDims.resultIdx?
  constructor
  · intro h
    split at h
    · rename_i hc
      have h0 := congrFun (Option.some.inj h) (0 : Fin 1)
      have h1 := congrArg Fin.val h0
      have hc0 := hc (0 : Fin 1)
      simp only [hs, hw] at h1 hc0
      change ((idx (ix2 (j (0 : Fin 1)) (0 : Fin 1))).toInt + ((0 : Nat) : Int)).toNat = r.val at h1
      omega
    · exact absurd h (by simp)
  · intro h
    have hc : ∀ a : Fin 1, 0 ≤ (vecScatterDims N E wf).start j idx a + (vecScatterDims N E wf).window j a ∧
        (vecScatterDims N E wf).start j idx a + (vecScatterDims N E wf).window j a < (⟨1, ![N]⟩ : Shape).size a := by
      intro a
      match a with
      | ⟨0, _⟩ =>
        show 0 ≤ (vecScatterDims N E wf).start j idx (0 : Fin 1) + (vecScatterDims N E wf).window j (0 : Fin 1) ∧
          (vecScatterDims N E wf).start j idx (0 : Fin 1) + (vecScatterDims N E wf).window j (0 : Fin 1) < (N : Int)
        rw [hs, hw, h]
        have := r.isLt
        omega
    rw [dif_pos hc]
    congr 1
    funext a
    refine Fin.ext ?_
    match a with
    | ⟨0, _⟩ =>
      show ((vecScatterDims N E wf).start j idx (0 : Fin 1) + (vecScatterDims N E wf).window j (0 : Fin 1)).toNat = r.val
      rw [hs, hw, h]
      omega

/-- THE VECTOR SCATTER READ AT r: the operand's entry plus the updates whose position reads exactly r. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (r : Fin N) :
    Ideal.hostScatterAdd (vecScatterDims N E wf) x idx upd (ix1 r)
      = x (ix1 r) + ∑ e : Fin E, if (idx (ix2 e (0 : Fin 1))).toInt = (r.val : Int) then upd (ix1 e) else 0 := by
  unfold Ideal.hostScatterAdd
  congr 1
  rw [Finset.sum_filter, ← Equiv.sum_comp (idxEquiv1 (n := E)).symm]
  refine Finset.sum_congr rfl (fun e _ => ?_)
  show (if (vecScatterDims N E wf).resultIdx? (ix1 e) idx = some (ix1 r) then upd (ix1 e) else 0) = _
  by_cases h : (idx (ix2 e (0 : Fin 1))).toInt = (r.val : Int)
  · rw [if_pos h, if_pos ((vec_resultIdx wf (ix1 e) idx r).mpr h)]
  · rw [if_neg h, if_neg (fun h' => h ((vec_resultIdx wf (ix1 e) idx r).mp h'))]

/-! ## A table operand: operand [N, C], positions [E, 1], updates [E, C] -/

/-- The dimension numbers of a scatter of whole rows: operand [N, C], start indices [E, 1], updates [E, C]: whole
    rows added at the rows the positions name. Their conditions `wf` are decided on a program's literal shapes. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the operand's axis 0 the window of update j starts at position (j 0)'s index word read signed. -/
theorem row_start0 {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowScatterDims N C E wf).start j idx (0 : Fin 2) = (idx (ix2 (j (0 : Fin 2)) (0 : Fin 1))).toInt := by
  unfold ScatterDims.start
  rw [dif_pos (show (0 : Fin 2) ∈ (rowScatterDims N C E wf).scatterDimsToOperandDims from List.mem_singleton.mpr rfl)]
  have hsi : (rowScatterDims N C E wf).siIdx j ⟨List.idxOf (0 : Fin 2) (rowScatterDims N C E wf).scatterDimsToOperandDims,
      List.idxOf_lt_length_iff.2 (List.mem_singleton.mpr rfl)⟩ = ix2 (j (0 : Fin 2)) (0 : Fin 1) := by
    funext b; refine Fin.ext ?_
    match b with
    | ⟨0, _⟩ => rfl
    | ⟨1, _⟩ => rfl
  rw [hsi]
  rfl

/-- The map does not name the operand's axis 1: the window starts at 0 there. -/
theorem row_start1 {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowScatterDims N C E wf).start j idx (1 : Fin 2) = 0 := by
  unfold ScatterDims.start
  rw [dif_neg (show ¬ (1 : Fin 2) ∈ (rowScatterDims N C E wf).scatterDimsToOperandDims from
    fun h => absurd (List.mem_singleton.mp h) (by decide : (1 : Fin 2) ≠ 0))]

/-- The operand's axis 0 is inserted: the window coordinate on it is 0. -/
theorem row_window0 {N C E : Nat} (wf : ScatterDims.WF ⟨2, ![N, C]⟩ ⟨2, ![E, 1]⟩ ⟨2, ![E, C]⟩ [1] [0] [0] 1)
    (j : (⟨2, ![E, C]⟩ : Shape).Idx) :
    (rowScatterDims N C E wf).window j (0 : Fin 2) = 0 := by
  unfold ScatterDims.window
  rw [dif_neg]
  intro h
  simp [ScatterDims.sKept, Shape.kept] at h

/-- The operand's axis 1 takes the updates' window axis: the window coordinate on it is j's second coordinate. -/
theorem row_window1 {N C E : Nat} (wf : ScatterDims.WF ⟨2, ![N, C]⟩ ⟨2, ![E, 1]⟩ ⟨2, ![E, C]⟩ [1] [0] [0] 1)
    (j : (⟨2, ![E, C]⟩ : Shape).Idx) :
    (rowScatterDims N C E wf).window j (1 : Fin 2) = (j (1 : Fin 2)).val := by
  unfold ScatterDims.window
  rw [dif_pos (show (1 : Fin 2) ∈ (rowScatterDims N C E wf).sKept by
    simp [ScatterDims.sKept, Shape.kept])]
  rfl

/-- Update (e, o') lands on entry (r, o) exactly when position e's index word, read signed, is r and o' = o. -/
theorem row_resultIdx {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) (r : Fin N) (o : Fin C) :
    (rowScatterDims N C E wf).resultIdx? j idx = some (ix2 r o)
      ↔ (idx (ix2 (j (0 : Fin 2)) (0 : Fin 1))).toInt = (r.val : Int) ∧ j (1 : Fin 2) = o := by
  have hs0 := row_start0 wf j idx
  have hs1 := row_start1 wf j idx
  have hw0 := row_window0 wf j
  have hw1 := row_window1 wf j
  unfold ScatterDims.resultIdx?
  constructor
  · intro h
    split at h
    · rename_i hc
      have hf := Option.some.inj h
      have h0 := congrArg Fin.val (congrFun hf (0 : Fin 2))
      have h1 := congrArg Fin.val (congrFun hf (1 : Fin 2))
      have hc0 := hc (0 : Fin 2)
      simp only [hs0, hw0] at h0 hc0
      simp only [hs1, hw1] at h1
      change ((idx (ix2 (j (0 : Fin 2)) (0 : Fin 1))).toInt + ((0 : Nat) : Int)).toNat = r.val at h0
      change ((0 : Int) + (((j (1 : Fin 2)).val : Nat) : Int)).toNat = o.val at h1
      refine ⟨by omega, Fin.ext ?_⟩
      omega
    · exact absurd h (by simp)
  · rintro ⟨h, ho⟩
    have hc : ∀ a : Fin 2, 0 ≤ (rowScatterDims N C E wf).start j idx a + (rowScatterDims N C E wf).window j a ∧
        (rowScatterDims N C E wf).start j idx a + (rowScatterDims N C E wf).window j a < (⟨2, ![N, C]⟩ : Shape).size a := by
      intro a
      match a with
      | ⟨0, _⟩ =>
        show 0 ≤ (rowScatterDims N C E wf).start j idx (0 : Fin 2) + (rowScatterDims N C E wf).window j (0 : Fin 2) ∧
          (rowScatterDims N C E wf).start j idx (0 : Fin 2) + (rowScatterDims N C E wf).window j (0 : Fin 2) < (N : Int)
        rw [hs0, hw0, h]
        have := r.isLt
        omega
      | ⟨1, _⟩ =>
        show 0 ≤ (rowScatterDims N C E wf).start j idx (1 : Fin 2) + (rowScatterDims N C E wf).window j (1 : Fin 2) ∧
          (rowScatterDims N C E wf).start j idx (1 : Fin 2) + (rowScatterDims N C E wf).window j (1 : Fin 2) < (C : Int)
        rw [hs1, hw1, ho]
        have := o.isLt
        omega
    rw [dif_pos hc]
    congr 1
    funext a
    refine Fin.ext ?_
    match a with
    | ⟨0, _⟩ =>
      show ((rowScatterDims N C E wf).start j idx (0 : Fin 2) + (rowScatterDims N C E wf).window j (0 : Fin 2)).toNat = r.val
      rw [hs0, hw0, h]
      omega
    | ⟨1, _⟩ =>
      show ((rowScatterDims N C E wf).start j idx (1 : Fin 2) + (rowScatterDims N C E wf).window j (1 : Fin 2)).toNat = o.val
      rw [hs1, hw1, ho]
      omega

/-- THE ROW SCATTER READ AT (r, o): the operand's entry plus entry o of the update rows whose position reads exactly r. -/
theorem scatterAdd_rows_apply {N C E w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (r : Fin N) (o : Fin C) :
    Ideal.hostScatterAdd (rowScatterDims N C E wf) x idx upd (ix2 r o)
      = x (ix2 r o) + ∑ e : Fin E, if (idx (ix2 e (0 : Fin 1))).toInt = (r.val : Int) then upd (ix2 e o) else 0 := by
  unfold Ideal.hostScatterAdd
  congr 1
  rw [Finset.sum_filter, sum_idx2]
  refine Finset.sum_congr rfl (fun e _ => ?_)
  by_cases h : (idx (ix2 e (0 : Fin 1))).toInt = (r.val : Int)
  · rw [if_pos h]
    rw [Finset.sum_eq_single o]
    · rw [if_pos ((row_resultIdx wf (ix2 e o) idx r o).mpr ⟨h, rfl⟩)]
    · intro o' _ hne
      rw [if_neg (fun h' => hne ((row_resultIdx wf (ix2 e o') idx r o).mp h').2)]
    · intro hn
      exact absurd (Finset.mem_univ o) hn
  · rw [if_neg h]
    refine Finset.sum_eq_zero (fun o' _ => ?_)
    rw [if_neg (fun h' => h ((row_resultIdx wf (ix2 e o') idx r o).mp h').1)]

end Cert.Lib
-- ==== Proof.LibGatherRows.lean ====
/-
  A row gather read at an entry.

  jnp's `table[idx]` (or `jnp.take(table, idx, axis=0)`) over a rank-2 table [N, C] and a vector of E positions
  prints as a `stablehlo.gather` whose start indices are the [E, 1] column of positions, whose operand axis 0 is
  collapsed and start-indexed, whose operand axis 1 is the one offset axis (slice sizes [1, C]), with no batching
  axes and the index vector on axis 1.  Result entry (e, o) is the table's entry (r, o) where r is position e's
  start index read as a signed integer and clamped into [0, N − 1]: a negative index reads row 0, one past the
  end reads the last row.  So the result's row e is a whole row of the table, chosen by position e alone.
-/
import Idealize.ShloMosaic.PureOps.ShapeOps
import Idealize.ShloMosaic.Lib.ValueIdx

namespace Cert.Lib

open Idealize.ShloMosaic Idealize.ShloMosaic.ValueIdx

/-- The dimension numbers of a row gather: operand [N, C], start indices [E, 1], result [E, C]. Their
    conditions `wf` are decided on a program's literal shapes. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, o): the table at (r, o), r the start index of position e read signed and clamped
    into [0, N − 1]. -/
theorem gather_rows_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (rowGatherDims N C E wf) x idx (ix2 e o)
      = x (ix2 (⟨min (idx (ix2 e (0 : Fin 1))).toInt.toNat (N - 1), by omega⟩ : Fin N) o) := by
  unfold Host.gather
  congr 1
  funext a
  refine Fin.ext ?_
  match a with
  | ⟨0, _⟩ =>
    show (rowGatherDims N C E wf).start (ix2 e o) idx 0 + (rowGatherDims N C E wf).batchCoord (ix2 e o) 0
      + (rowGatherDims N C E wf).offCoord (ix2 e o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e o) ⟨List.idxOf (0 : Fin 2) (rowGatherDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C E wf).start (ix2 e o) idx 1 + (rowGatherDims N C E wf).batchCoord (ix2 e o) 1
      + (rowGatherDims N C E wf).offCoord (ix2 e o) 1 = o.val
    rw [GatherDims.batchCoord_eq_zero _ _ _ List.not_mem_nil]
    unfold GatherDims.start
    rw [dif_neg (show ¬ (1 : Fin 2) ∈ (rowGatherDims N C E wf).startIndexMap from
      fun h => absurd (List.mem_singleton.mp h) (by decide : (1 : Fin 2) ≠ 0))]
    unfold GatherDims.offCoord
    rw [dif_pos (show (1 : Fin 2) ∈ (rowGatherDims N C E wf).sKept from
      (GatherDims.mem_sKept _ _).mpr ⟨fun h => absurd (List.mem_singleton.mp h) (by decide : (1 : Fin 2) ≠ 0), List.not_mem_nil⟩)]
    simp only [Nat.zero_add, Nat.add_zero]
    rfl

end Cert.Lib
-- ==== Proof.LibPropagate.lean ====
/-
  Two finite contractions in either order, over the extended reals.

  Let H be a family indexed by N × E, d and Y families over N and ide a family over E, all with real entries.  Contracting H with
  the scaled family Y·d over N, scaling by ide, contracting with H over E and scaling by d gives, at i,

      (∑ e, H i e * ((∑ j, H j e * (Y j * d j)) * ide e)) * d i,

  and forming the kernel G i j = ∑ e, ((d i * H i e) * ide e) * (d j * H j e) first and then contracting it with Y gives

      ∑ j, G i j * Y j.

  The two are one number: distribute the outer factors into the inner sum, exchange the two finite sums, and compare the
  summands as products of the same six reals.  Distributivity of * over + fails at the infinities of the extended reals, so
  every entry is asked to be a real number; the identity is then the image of the identity over ℝ under the coercion, which
  commutes with *, + and finite sums.

  The file also regroups a sum of a·b terms into a blocks of b terms.
-/
import Mathlib.Data.EReal.Operations
import Mathlib.Algebra.BigOperators.Ring.Finset
import Mathlib.Algebra.BigOperators.Fin
import Mathlib.Logic.Equiv.Fin.Basic
import Mathlib.Tactic.Ring

open scoped BigOperators

namespace Cert.Lib.Propagate

/-! ### Real entries are closed under +, * and finite sums -/

/-- The sum of two extended reals that are real numbers is a real number. -/
theorem add_real {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The product of two extended reals that are real numbers is a real number. -/
theorem mul_real {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The coercion from ℝ commutes with a finite sum: by induction on the index set, one term at a time. -/
theorem coe_finsetSum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over a finite set of extended reals that are all real numbers is a real number. -/
theorem finsetSum_real {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_finsetSum]; exact Finset.sum_congr rfl fun i _ => hg i⟩

/-- A sum over a finite type of extended reals that are all real numbers is a real number. -/
theorem sum_real {ι : Type} [Fintype ι] (f : ι → EReal) (hf : ∀ i, ∃ r : ℝ, f i = (r : EReal)) :
    ∃ r : ℝ, ∑ i, f i = (r : EReal) :=
  finsetSum_real Finset.univ f hf

/-! ### The two orders of contraction -/

section Propagate

variable {N E : Type} [Fintype N] [Fintype E]

/-- Over ℝ: scaling and contracting over N first and over E second equals contracting the kernel
    `∑ e, ((d i * H i e) * ide e) * (d j * H j e)` with `Y`.  Both sides are the double sum over (j, e) of the product
    of the six factors `d i, H i e, ide e, d j, H j e, Y j`. -/
theorem propagate_eq_real (h : N → E → ℝ) (δ : N → ℝ) (ε : E → ℝ) (y : N → ℝ) (i : N) :
    (∑ e, h i e * ((∑ j, h j e * (y j * δ j)) * ε e)) * δ i
      = ∑ j, (∑ e, ((δ i * h i e) * ε e) * (δ j * h j e)) * y j := by
  have hl : (∑ e, h i e * ((∑ j, h j e * (y j * δ j)) * ε e)) * δ i
      = ∑ e, ∑ j, δ i * h i e * ε e * (δ j * h j e) * y j := by
    rw [Finset.sum_mul]
    refine Finset.sum_congr rfl fun e _ => ?_
    rw [Finset.sum_mul, Finset.mul_sum, Finset.sum_mul]
    refine Finset.sum_congr rfl fun j _ => ?_
    ring
  have hr : (∑ j, (∑ e, ((δ i * h i e) * ε e) * (δ j * h j e)) * y j)
      = ∑ j, ∑ e, δ i * h i e * ε e * (δ j * h j e) * y j :=
    Finset.sum_congr rfl fun j _ => Finset.sum_mul _ _ _
  rw [hl, hr, Finset.sum_comm]

/-- Over the extended reals, with every entry a real number: the contraction over N first and E second, scaled by `ide`
    between and by `d` at both ends, equals the kernel `∑ e, ((d i * H i e) * ide e) * (d j * H j e)` contracted with `Y`.
    The real witnesses are chosen, the coercion is moved outside both sides, and the identity over ℝ closes it. -/
theorem propagate_eq (H : N → E → EReal) (d : N → EReal) (ide : E → EReal) (Y : N → EReal)
    (hH : ∀ i e, ∃ r : ℝ, H i e = (r : EReal)) (hd : ∀ i, ∃ r : ℝ, d i = (r : EReal))
    (hide : ∀ e, ∃ r : ℝ, ide e = (r : EReal)) (hY : ∀ j, ∃ r : ℝ, Y j = (r : EReal)) (i : N) :
    (∑ e, H i e * ((∑ j, H j e * (Y j * d j)) * ide e)) * d i
      = ∑ j, (∑ e, ((d i * H i e) * ide e) * (d j * H j e)) * Y j := by
  choose h hh using hH
  choose δ hδ using hd
  choose ε hε using hide
  choose y hy using hY
  have hl : (∑ e, H i e * ((∑ j, H j e * (Y j * d j)) * ide e)) * d i
      = (((∑ e, h i e * ((∑ j, h j e * (y j * δ j)) * ε e)) * δ i : ℝ) : EReal) := by
    simp only [hh, hδ, hε, hy, EReal.coe_mul, coe_finsetSum]
  have hr : (∑ j, (∑ e, ((d i * H i e) * ide e) * (d j * H j e)) * Y j)
      = ((∑ j, (∑ e, ((δ i * h i e) * ε e) * (δ j * h j e)) * y j : ℝ) : EReal) := by
    simp only [hh, hδ, hε, hy, EReal.coe_mul, coe_finsetSum]
  rw [hl, hr, propagate_eq_real]

/-- With every entry a real number, the propagated value is a real number: it is built from the entries by products and
    finite sums only. -/
theorem propagate_real (H : N → E → EReal) (d : N → EReal) (ide : E → EReal) (Y : N → EReal)
    (hH : ∀ i e, ∃ r : ℝ, H i e = (r : EReal)) (hd : ∀ i, ∃ r : ℝ, d i = (r : EReal))
    (hide : ∀ e, ∃ r : ℝ, ide e = (r : EReal)) (hY : ∀ j, ∃ r : ℝ, Y j = (r : EReal)) (i : N) :
    ∃ r : ℝ, (∑ e, H i e * ((∑ j, H j e * (Y j * d j)) * ide e)) * d i = (r : EReal) :=
  mul_real
    (sum_real _ fun e =>
      mul_real (hH i e) (mul_real (sum_real _ fun j => mul_real (hH j e) (mul_real (hY j) (hd j))) (hide e)))
    (hd i)

end Propagate

/-! ### A sum of a·b terms as a blocks of b -/

/-- Regrouping: the sum of `g` over the first `a * b` naturals is the sum over `a` consecutive blocks of `b` terms, block
    `t` holding the arguments `t * b + r` for `r < b`.  The pairs (t, r) and the naturals below `a * b` correspond by
    `(t, r) ↦ r + b * t`. -/
theorem sum_blocks {M : Type} [AddCommMonoid M] (a b : ℕ) (g : ℕ → M) :
    ∑ t : Fin a, ∑ r : Fin b, g (t.val * b + r.val) = ∑ j : Fin (a * b), g j.val := by
  rw [← Fintype.sum_prod_type', ← (finProdFinEquiv (m := a) (n := b)).sum_comp]
  refine Fintype.sum_congr _ _ fun p => ?_
  rw [finProdFinEquiv_apply_val, Nat.add_comm, Nat.mul_comm]

/-- The regrouping at 10000 = 25 · 400: 25 blocks of 400 consecutive terms. -/
theorem sum_blocks_25_400 {M : Type} [AddCommMonoid M] (g : ℕ → M) :
    (∑ t : Fin 25, ∑ r : Fin 400, g (t.val * 400 + r.val)) = ∑ j : Fin 10000, g j.val :=
  sum_blocks 25 400 g

end Cert.Lib.Propagate
-- ==== Proof.Finite.lean ====
/-
  Every array the network meets is real-valued.

  The extended reals carry the two infinities, and there multiplication does not distribute over addition.  The two
  orders of layer three (neighbour sum then projection, projection then neighbour sum) agree because they do over ℝ, so
  each array that enters layer three must first be known to have real entries only.  This file shows it in two steps.

  The inputs.  The precondition says, array by array, that |x| < +infinity at every entry (an "and" over all entries,
  and the "and" of these over the ten float arrays).  An extended real whose absolute value max(x, -x) lies below
  +infinity is neither infinity, hence a real number.

  What is computed from them.  A scatter-add of real updates into a real operand is the operand's entry plus a finite
  sum of updates, and a gather only selects entries: both keep real arrays real, whatever their dimension records.  The
  in-degree is such a scatter-add of ones into zeros; max(deg, 1) is a real at least 1, so 1 / max(deg, 1) is real, and
  the reciprocal in-degree picks that or zero.  A layer's pre-activation is built from real entries by sums and
  products, and its clipping max(., 0) picks one of two reals.  So the first and the second hidden layer are real.
-/
import proofs.«404284_j84817014161825_4_alg».proof.Proof.Spec
import proofs.«404284_j84817014161825_4_alg».proof.Pre_finite_inputs
import proofs.«404284_j84817014161825_4_alg».proof.Proof.LibScatterAdd
import proofs.«404284_j84817014161825_4_alg».proof.Proof.LibGatherRows
import proofs.«404284_j84817014161825_4_alg».proof.Proof.LibPropagate
import Idealize.ShloMosaic.Lib.ReduceAll
import Idealize.ShloMosaic.Lib.IdealHost

open scoped BigOperators

noncomputable section

namespace Cert.Sage

open Idealize.ShloMosaic Idealize.ShloMosaic.ValueIdx
open Cert.Lib.Propagate (add_real mul_real sum_real finsetSum_real)

/-- The records of the Lib files' generic shapes, for any well-formedness proofs. -/
def libRecs (wv : ScatterDims.WF ⟨1, ![50000]⟩ ⟨2, ![800000, 1]⟩ ⟨1, ![800000]⟩ [] [0] [0] 1)
    (ws16 : ScatterDims.WF ⟨2, ![50000, 16]⟩ ⟨2, ![800000, 1]⟩ ⟨2, ![800000, 16]⟩ [1] [0] [0] 1)
    (wg16 : GatherDims.WF ⟨2, ![50000, 16]⟩ ⟨2, ![800000, 1]⟩ ⟨2, ![800000, 16]⟩ [1] [0] [] [0] [] 1 ![1, 16])
    (ws64 : ScatterDims.WF ⟨2, ![50000, 64]⟩ ⟨2, ![800000, 1]⟩ ⟨2, ![800000, 64]⟩ [1] [0] [0] 1)
    (wg64 : GatherDims.WF ⟨2, ![50000, 64]⟩ ⟨2, ![800000, 1]⟩ ⟨2, ![800000, 64]⟩ [1] [0] [] [0] [] 1 ![1, 64])
    (ws2 : ScatterDims.WF ⟨2, ![50000, 2]⟩ ⟨2, ![800000, 1]⟩ ⟨2, ![800000, 2]⟩ [1] [0] [0] 1)
    (wg2 : GatherDims.WF ⟨2, ![50000, 2]⟩ ⟨2, ![800000, 1]⟩ ⟨2, ![800000, 2]⟩ [1] [0] [] [0] [] 1 ![1, 2]) : Recs :=
  ⟨Cert.Lib.vecScatterDims 50000 800000 wv, Cert.Lib.rowScatterDims 50000 16 800000 ws16, Cert.Lib.rowGatherDims 50000 16 800000 wg16,
   Cert.Lib.rowScatterDims 50000 64 800000 ws64, Cert.Lib.rowGatherDims 50000 64 800000 wg64,
   Cert.Lib.rowScatterDims 50000 2 800000 ws2, Cert.Lib.rowGatherDims 50000 2 800000 wg2⟩

/-! ### The inputs are real under the precondition -/

/-- The scalar shape has one index. -/
instance : Subsingleton (⟨0, ![]⟩ : Shape).Idx := ⟨fun a b => funext fun d => d.elim0⟩

/-- An extended real whose absolute value max(x, -x) is below +infinity is a real number: at either infinity the
    absolute value is +infinity itself. -/
theorem real_of_abs_lt_inf (x : EReal)
    (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

/-- If the "and" over all entries of |x| < +infinity is true, every entry of x is a real number. -/
theorem isReal_of_all_lt_inf {s : Shape} {axes : List (Fin s.rank)} (x : s.Idx → EReal)
    (bc : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
          (cmpf (F := Ideal) (φ := .f32) .olt (Host.absf (F := Ideal) (φ := .f32) x)
            (broadcastInDim s ![] bc (constant (F := Ideal) ⟨0, ![]⟩ .f32 0x7F800000#32)))
          (constantI ⟨0, ![]⟩ 1 1#1) hr hu ix0 = 1#1) : IsReal x := by
  intro i
  exact real_of_abs_lt_inf (x i) (Host.reduce_andi_all _ _ hr hu ix0 e i)

/-- An entrywise "and" of two one-bit arrays that is 1 at an index has both operands 1 there. -/
theorem andi_apply_eq_one {s : Shape} (a b : IVec s 1) (i : s.Idx) (h : andi a b i = 1#1) :
    a i = 1#1 ∧ b i = 1#1 := IntOp.andi_eq_one.1 h

/-- Under the printed precondition every float input is real-valued. -/
theorem isReal_of_pre [Cert.Pre_finite_inputs.Facts]
    (x0 : Mat 50000 16) (x1 : IVec (⟨2, ![2, 800000]⟩ : Shape) 32) (x2 : Mat 16 64) (x3 : Vec1 64) (x4 : Mat 16 64) (x5 : Mat 64 64) (x6 : Vec1 64)
    (x7 : Mat 64 64) (x8 : Mat 64 2) (x9 : Vec1 2) (x10 : Mat 64 2)
    (h : Cert.Pre_finite_inputs.fn (F := Ideal) x0 x1 x2 x3 x4 x5 x6 x7 x8 x9 x10 = fun _ => 1#1) :
    IsReal x0 ∧ IsReal x2 ∧ IsReal x3 ∧ IsReal x4 ∧ IsReal x5 ∧ IsReal x6 ∧ IsReal x7 ∧ IsReal x8 ∧ IsReal x9 ∧ IsReal x10 := by
  have h0 := congrFun h ValueIdx.ix0
  dsimp only [Cert.Pre_finite_inputs.fn, Cert.Pre_finite_inputs.fn_part1, Cert.Pre_finite_inputs.fn_part2] at h0
  obtain ⟨h0, e10⟩ := andi_apply_eq_one _ _ _ h0
  obtain ⟨h0, e9⟩ := andi_apply_eq_one _ _ _ h0
  obtain ⟨h0, e8⟩ := andi_apply_eq_one _ _ _ h0
  obtain ⟨h0, e7⟩ := andi_apply_eq_one _ _ _ h0
  obtain ⟨h0, e6⟩ := andi_apply_eq_one _ _ _ h0
  obtain ⟨h0, e5⟩ := andi_apply_eq_one _ _ _ h0
  obtain ⟨h0, e4⟩ := andi_apply_eq_one _ _ _ h0
  obtain ⟨h0, e3⟩ := andi_apply_eq_one _ _ _ h0
  obtain ⟨e0, e2⟩ := andi_apply_eq_one _ _ _ h0
  exact ⟨isReal_of_all_lt_inf x0 _ _ _ e0, isReal_of_all_lt_inf x2 _ _ _ e2, isReal_of_all_lt_inf x3 _ _ _ e3,
    isReal_of_all_lt_inf x4 _ _ _ e4, isReal_of_all_lt_inf x5 _ _ _ e5, isReal_of_all_lt_inf x6 _ _ _ e6,
    isReal_of_all_lt_inf x7 _ _ _ e7, isReal_of_all_lt_inf x8 _ _ _ e8, isReal_of_all_lt_inf x9 _ _ _ e9,
    isReal_of_all_lt_inf x10 _ _ _ e10⟩

/-! ### What is computed from real arrays is real -/

/-- The float word of +0.0 is the real number zero. -/
theorem z32_eq : z32 = ((0 : ℝ) : EReal) := by
  show Ideal.ofBits .f32 0x00000000#32 = _
  rw [Ideal.ofBits_zero_f32, EReal.coe_zero]

/-- The float word of 1.0 is the real number one. -/
theorem one32_eq : one32 = ((1 : ℝ) : EReal) := by
  show Ideal.ofBits .f32 0x3F800000#32 = _
  rw [Ideal.ofBits_one_f32, EReal.coe_one]

/-- The larger of two real numbers is one of them, hence real. -/
theorem max_real {x y : EReal} (hx : ∃ r : ℝ, x = (r : EReal)) (hy : ∃ r : ℝ, y = (r : EReal)) :
    ∃ r : ℝ, max x y = (r : EReal) := by
  rcases le_total x y with h | h
  · rw [max_eq_right h]; exact hy
  · rw [max_eq_left h]; exact hx

/-- A scatter-add of real updates into a real operand is real, whatever its dimension records: each entry is the
    operand's entry plus a finite sum of updates. -/
theorem scatterAdd_real {s si su : Shape} {w : Nat} (d : ScatterDims s si su) (x : s.Idx → EReal) (idx : IVec si w)
    (upd : su.Idx → EReal) (hx : IsReal x) (hu : IsReal upd) :
    IsReal (Host.scatterAdd (F := Ideal) (φ := .f32) d x idx upd) := by
  intro i
  show ∃ r : ℝ, Ideal.hostScatterAdd d x idx upd i = (r : EReal)
  unfold Ideal.hostScatterAdd
  exact add_real (hx i) (finsetSum_real _ _ hu)

/-- A gather from a real array is real, whatever its dimension records: each entry is one of the array's. -/
theorem gather_real {s si t : Shape} {w : Nat} (d : GatherDims s si t) (x : s.Idx → EReal) (idx : IVec si w)
    (hx : IsReal x) : IsReal (Host.gather d x idx) := by
  intro j
  unfold Host.gather
  exact hx _

/-- The in-degree is real: a finite sum of ones added to zero. -/
theorem degOf_real (vd : ScatterDims ⟨1, ![50000]⟩ ⟨2, ![800000, 1]⟩ ⟨1, ![800000]⟩) (dst : EdgeCol) :
    IsReal (degOf vd dst) :=
  scatterAdd_real vd _ dst _ (fun _ => ⟨0, z32_eq⟩) (fun _ => ⟨1, one32_eq⟩)

/-- For a real deg, whichever of 1 / max(deg, 1) and 0 a one-bit condition picks is real: max(deg, 1) is a real at
    least 1, so the quotient is the real 1 · (1 / that). -/
theorem recip_or_zero_real (c : BitVec 1) (deg one zero : EReal) (h1 : one = ((1 : ℝ) : EReal))
    (h0 : zero = ((0 : ℝ) : EReal)) (hdeg : ∃ r : ℝ, deg = (r : EReal)) :
    ∃ r : ℝ, Scalar.select c (Ideal.div one (max deg one)) zero = (r : EReal) := by
  subst h1 h0
  unfold Scalar.select
  by_cases hc : c = 1
  · rw [if_pos hc]
    obtain ⟨μ, hμ⟩ := max_real hdeg ⟨1, rfl⟩
    have hone : (1 : ℝ) ≤ μ := by
      have hle : ((1 : ℝ) : EReal) ≤ max deg ((1 : ℝ) : EReal) := le_max_right _ _
      rw [hμ] at hle
      exact EReal.coe_le_coe_iff.1 hle
    rw [hμ, Ideal.div_coe (lt_of_lt_of_le one_pos hone).ne']
    exact ⟨1 * (1 / μ), (EReal.coe_mul _ _).symm⟩
  · rw [if_neg hc]
    exact ⟨0, rfl⟩

/-- The reciprocal in-degree is real: at each node it is 1 / max(deg, 1) or zero, with deg real. -/
theorem invOf_real (vd : ScatterDims ⟨1, ![50000]⟩ ⟨2, ![800000, 1]⟩ ⟨1, ![800000]⟩) (dst : EdgeCol) :
    IsReal (invOf vd dst) := by
  intro i
  unfold invOf
  rw [select_apply, hostDivf_apply, maximumf_apply]
  exact recip_or_zero_real _ _ _ _ one32_eq z32_eq (degOf_real vd dst i)

/-- The reciprocal in-degree by node number is real. -/
theorem inv_real (R : Recs) (dst : EdgeCol) : IsReal (inv R dst) := fun r => invOf_real R.v dst (ix1 r)

/-- The neighbour sum of a real array is real. -/
theorem nbrSum_real {C : ℕ} (sd : ScatterDims ⟨2, ![50000, C]⟩ ⟨2, ![800000, 1]⟩ ⟨2, ![800000, C]⟩)
    (gd : GatherDims ⟨2, ![50000, C]⟩ ⟨2, ![800000, 1]⟩ ⟨2, ![800000, C]⟩) (dst src : EdgeCol) (h : Mat 50000 C)
    (hh : IsReal h) : IsReal (nbrSum sd gd dst src h) :=
  scatterAdd_real sd _ dst _ (fun _ => ⟨0, z32_eq⟩) (gather_real gd h src hh)

/-- A layer's pre-activation over real arrays is real: sums and products of reals. -/
theorem pre_real (D C : ℕ) (agg root : Mat 50000 D) (inv : Fin 50000 → EReal) (Wl Wr : Mat D C) (b : Fin C → EReal)
    (hagg : IsReal agg) (hroot : IsReal root) (hinv : IsReal inv) (hWl : IsReal Wl) (hWr : IsReal Wr) (hb : IsReal b)
    (r : Fin 50000) (o : Fin C) : ∃ x : ℝ, pre D C agg root inv Wl Wr b r o = (x : EReal) := by
  unfold pre
  exact add_real (add_real (sum_real _ fun k => mul_real (mul_real (hagg _) (hinv r)) (hWl _)) (hb o))
    (sum_real _ fun k => mul_real (hroot _) (hWr _))

/-- A hidden layer over real arrays is real: the larger of its real pre-activation and zero. -/
theorem layer_real (D : ℕ) (agg root : Mat 50000 D) (inv : Fin 50000 → EReal) (Wl Wr : Mat D 64) (b : Fin 64 → EReal)
    (hagg : IsReal agg) (hroot : IsReal root) (hinv : IsReal inv) (hWl : IsReal Wl) (hWr : IsReal Wr) (hb : IsReal b) :
    IsReal (layer D agg root inv Wl Wr b) := by
  intro i
  unfold layer
  exact max_real (pre_real D 64 agg root inv Wl Wr b hagg hroot hinv hWl hWr hb (i 0) (i 1)) ⟨0, z32_eq⟩

/-- The first hidden layer over real inputs is real. -/
theorem h1_real (R : Recs) (dst src : EdgeCol) (x : Mat 50000 16) (W1l : Mat 16 64) (b1 : Vec1 64) (W1r : Mat 16 64)
    (hx : IsReal x) (hW1l : IsReal W1l) (hb1 : IsReal b1) (hW1r : IsReal W1r) :
    IsReal (h1 R dst src x W1l b1 W1r) :=
  layer_real 16 _ x _ W1l W1r _ (nbrSum_real R.s16 R.g16 dst src x hx) hx (inv_real R dst) hW1l hW1r
    (fun o => hb1 (ix1 o))

/-- The second hidden layer over real inputs is real. -/
theorem h2_real (R : Recs) (dst src : EdgeCol) (x : Mat 50000 16) (W1l : Mat 16 64) (b1 : Vec1 64) (W1r : Mat 16 64)
    (W2l : Mat 64 64) (b2 : Vec1 64) (W2r : Mat 64 64)
    (hx : IsReal x) (hW1l : IsReal W1l) (hb1 : IsReal b1) (hW1r : IsReal W1r)
    (hW2l : IsReal W2l) (hb2 : IsReal b2) (hW2r : IsReal W2r) :
    IsReal (h2 R dst src x W1l b1 W1r W2l b2 W2r) :=
  layer_real 64 _ _ _ W2l W2r _
    (nbrSum_real R.s64 R.g64 dst src _ (h1_real R dst src x W1l b1 W1r hx hW1l hb1 hW1r))
    (h1_real R dst src x W1l b1 W1r hx hW1l hb1 hW1r) (inv_real R dst) hW2l hW2r (fun o => hb2 (ix1 o))

end Cert.Sage

end
-- ==== Proof.Bridge.lean ====
/-
  Layer three in either order: the neighbour sum is linear.

  One program takes the neighbour sum of the 64-column features h and multiplies the result by the 64 x 2 weight W;
  the other multiplies first and takes the neighbour sum of the 2-column product.  At node r and column o, with
  s(e) the (clamped) source row of edge e, the edges running over those whose destination is r, and inv r the
  reciprocal in-degree, the claim is

      (sum_e sum_k h (s e, k) * W (k, o)) * inv r  =  sum_k ((sum_e h (s e, k)) * inv r) * W (k, o).

  Over the reals both sides are the double sum over (e, k) of h (s e, k) * W (k, o) * inv r: distribute the outer
  factor into the sums and exchange the two finite sums.  Over the extended reals multiplication distributes over
  addition only away from the infinities, so the identity is taken over the reals and carried across by the coercion,
  which commutes with products and finite sums; that needs every entry of h, of W and inv r to be a real number.  The
  features h are the second hidden layer, which is real when the inputs are (shown with the other closure facts),
  and so is the reciprocal in-degree.

  The edge set is never enumerated: the exchange is stated over an arbitrary finite set of an arbitrary index type.
  The rest of layer three (bias, root term, log-softmax) is the same expression of the same arrays in both programs.
-/
import proofs.«404284_j84817014161825_4_alg».proof.Proof.Finite

open scoped BigOperators

noncomputable section

namespace Cert.Sage

open Idealize.ShloMosaic Idealize.ShloMosaic.ValueIdx

/-! ### The exchange of the two sums -/

/-- Over the reals: summing over the edges the products contracted over k, then scaling, equals contracting over k the
    scaled edge sums.  Both are the double sum of a e k * w k * δ. -/
theorem exchange_real {ι κ : Type} [Fintype κ] (s : Finset ι) (a : ι → κ → ℝ) (w : κ → ℝ) (δ : ℝ) :
    (∑ e ∈ s, ∑ k, a e k * w k) * δ = ∑ k, ((∑ e ∈ s, a e k) * δ) * w k := by
  rw [Finset.sum_comm, Finset.sum_mul]
  refine Finset.sum_congr rfl fun k _ => ?_
  rw [← Finset.sum_mul]
  ring

/-- Over the extended reals with every entry a real number: the same exchange.  Real witnesses are chosen, the coercion
    is moved outside both sides, and the identity over the reals closes it. -/
theorem exchange {ι κ : Type} [Fintype κ] (s : Finset ι) (A : ι → κ → EReal) (W : κ → EReal) (d : EReal)
    (hA : ∀ e k, ∃ r : ℝ, A e k = (r : EReal)) (hW : ∀ k, ∃ r : ℝ, W k = (r : EReal)) (hd : ∃ r : ℝ, d = (r : EReal)) :
    (∑ e ∈ s, ∑ k, A e k * W k) * d = ∑ k, ((∑ e ∈ s, A e k) * d) * W k := by
  choose a ha using hA
  choose w hw using hW
  obtain ⟨δ, rfl⟩ := hd
  have hl : (∑ e ∈ s, ∑ k, A e k * W k) * (δ : EReal) = (((∑ e ∈ s, ∑ k, a e k * w k) * δ : ℝ) : EReal) := by
    simp only [ha, hw, EReal.coe_mul, Cert.Lib.Propagate.coe_finsetSum]
  have hr : (∑ k, ((∑ e ∈ s, A e k) * (δ : EReal)) * W k) = ((∑ k, ((∑ e ∈ s, a e k) * δ) * w k : ℝ) : EReal) := by
    simp only [ha, hw, EReal.coe_mul, Cert.Lib.Propagate.coe_finsetSum]
  rw [hl, hr, exchange_real]

/-! ### The neighbour sum read at an entry -/

/-- At the exact instance the accumulating scatter is the operand's entry plus the sum of the updates that land there. -/
theorem hostScatterAdd_eq {s si su : Shape} {w : Nat} (d : ScatterDims s si su) (x : s.Idx → EReal) (idx : IVec si w)
    (upd : su.Idx → EReal) :
    Host.scatterAdd (F := Ideal) (φ := .f32) d x idx upd = Ideal.hostScatterAdd d x idx upd := rfl

/-- The source row of edge e as the gather reads it: the index word read signed and clamped into [0, 49999]. -/
def srcRow (src : EdgeCol) (e : Fin 800000) : Fin 50000 :=
  ⟨min (src (ix2 e (0 : Fin 1))).toInt.toNat (50000 - 1), by omega⟩

/-- The neighbour sum at (r, o): the sum, over the edges whose destination word reads r, of h at the edge's source row
    and column o. -/
theorem nbrSum_apply {C : ℕ} (ws : ScatterDims.WF ⟨2, ![50000, C]⟩ ⟨2, ![800000, 1]⟩ ⟨2, ![800000, C]⟩ [1] [0] [0] 1)
    (wg : GatherDims.WF ⟨2, ![50000, C]⟩ ⟨2, ![800000, 1]⟩ ⟨2, ![800000, C]⟩ [1] [0] [] [0] [] 1 ![1, C])
    (dst src : EdgeCol) (h : Mat 50000 C) (r : Fin 50000) (o : Fin C) :
    nbrSum (Cert.Lib.rowScatterDims 50000 C 800000 ws) (Cert.Lib.rowGatherDims 50000 C 800000 wg) dst src h (ix2 r o)
      = ∑ e ∈ Finset.univ.filter (fun e : Fin 800000 => (dst (ix2 e (0 : Fin 1))).toInt = (r.val : Int)),
          h (ix2 (srcRow src e) o) := by
  rw [nbrSum, hostScatterAdd_eq, Cert.Lib.scatterAdd_rows_apply, z32_eq, EReal.coe_zero, zero_add, Finset.sum_filter]
  refine Finset.sum_congr rfl fun e _ => ?_
  have hg : Host.gather (Cert.Lib.rowGatherDims 50000 C 800000 wg) h src (ix2 e o) = h (ix2 (srcRow src e) o) :=
    Cert.Lib.gather_rows_apply (by norm_num) wg h src e o
  rw [hg]

/-! ### Layer three's first summand, and the two networks -/

/-- The first summand of layer three in either order, for real features, weight and reciprocal in-degree. -/
theorem agg_proj_eq (ws64 : ScatterDims.WF ⟨2, ![50000, 64]⟩ ⟨2, ![800000, 1]⟩ ⟨2, ![800000, 64]⟩ [1] [0] [0] 1)
    (wg64 : GatherDims.WF ⟨2, ![50000, 64]⟩ ⟨2, ![800000, 1]⟩ ⟨2, ![800000, 64]⟩ [1] [0] [] [0] [] 1 ![1, 64])
    (ws2 : ScatterDims.WF ⟨2, ![50000, 2]⟩ ⟨2, ![800000, 1]⟩ ⟨2, ![800000, 2]⟩ [1] [0] [0] 1)
    (wg2 : GatherDims.WF ⟨2, ![50000, 2]⟩ ⟨2, ![800000, 1]⟩ ⟨2, ![800000, 2]⟩ [1] [0] [] [0] [] 1 ![1, 2])
    (dst src : EdgeCol) (H : Mat 50000 64) (iv : Fin 50000 → EReal) (W : Mat 64 2)
    (hH : IsReal H) (hiv : IsReal iv) (hW : IsReal W) (r : Fin 50000) (o : Fin 2) :
    nbrSum (Cert.Lib.rowScatterDims 50000 2 800000 ws2) (Cert.Lib.rowGatherDims 50000 2 800000 wg2) dst src (proj H W) (ix2 r o) * iv r
      = ∑ k : Fin 64, (nbrSum (Cert.Lib.rowScatterDims 50000 64 800000 ws64) (Cert.Lib.rowGatherDims 50000 64 800000 wg64)
          dst src H (ix2 r k) * iv r) * W (ix2 k o) := by
  have hP : ∀ e : Fin 800000,
      proj H W (ix2 (srcRow src e) o) = ∑ k : Fin 64, H (ix2 (srcRow src e) k) * W (ix2 k o) := fun _ => rfl
  have hE := exchange (Finset.univ.filter (fun e : Fin 800000 => (dst (ix2 e (0 : Fin 1))).toInt = (r.val : Int)))
    (fun e k => H (ix2 (srcRow src e) k)) (fun k => W (ix2 k o)) (iv r) (fun e k => hH _) (fun k => hW _) (hiv r)
  rw [nbrSum_apply, Finset.sum_congr rfl (fun e _ => hP e)]
  refine hE.trans (Finset.sum_congr rfl fun k _ => ?_)
  rw [nbrSum_apply]

/-- Layer three in either order over abstract real features H and reciprocal in-degree iv: the two outputs agree. -/
theorem outK_eq_outR_of_real
    (ws64 : ScatterDims.WF ⟨2, ![50000, 64]⟩ ⟨2, ![800000, 1]⟩ ⟨2, ![800000, 64]⟩ [1] [0] [0] 1)
    (wg64 : GatherDims.WF ⟨2, ![50000, 64]⟩ ⟨2, ![800000, 1]⟩ ⟨2, ![800000, 64]⟩ [1] [0] [] [0] [] 1 ![1, 64])
    (ws2 : ScatterDims.WF ⟨2, ![50000, 2]⟩ ⟨2, ![800000, 1]⟩ ⟨2, ![800000, 2]⟩ [1] [0] [0] 1)
    (wg2 : GatherDims.WF ⟨2, ![50000, 2]⟩ ⟨2, ![800000, 1]⟩ ⟨2, ![800000, 2]⟩ [1] [0] [] [0] [] 1 ![1, 2])
    (dst src : EdgeCol) (H : Mat 50000 64) (iv : Fin 50000 → EReal) (Wl Wr : Mat 64 2) (b : Fin 2 → EReal)
    (hH : IsReal H) (hiv : IsReal iv) (hWl : IsReal Wl) :
    outK (nbrSum (Cert.Lib.rowScatterDims 50000 2 800000 ws2) (Cert.Lib.rowGatherDims 50000 2 800000 wg2) dst src (proj H Wl))
        H iv Wr b
      = outR (nbrSum (Cert.Lib.rowScatterDims 50000 64 800000 ws64) (Cert.Lib.rowGatherDims 50000 64 800000 wg64) dst src H)
        H iv Wl Wr b := by
  refine outK_eq_outR _ _ _ _ _ _ _ (fun r o => ?_)
  rw [zK, pre, agg_proj_eq ws64 wg64 ws2 wg2 dst src H iv Wl hH hiv hWl r o]

/-- THE BRIDGE: over real-valued inputs the two networks agree, for the Lib files' records. -/
theorem netK_eq_netR (wv : ScatterDims.WF ⟨1, ![50000]⟩ ⟨2, ![800000, 1]⟩ ⟨1, ![800000]⟩ [] [0] [0] 1)
    (ws16 : ScatterDims.WF ⟨2, ![50000, 16]⟩ ⟨2, ![800000, 1]⟩ ⟨2, ![800000, 16]⟩ [1] [0] [0] 1)
    (wg16 : GatherDims.WF ⟨2, ![50000, 16]⟩ ⟨2, ![800000, 1]⟩ ⟨2, ![800000, 16]⟩ [1] [0] [] [0] [] 1 ![1, 16])
    (ws64 : ScatterDims.WF ⟨2, ![50000, 64]⟩ ⟨2, ![800000, 1]⟩ ⟨2, ![800000, 64]⟩ [1] [0] [0] 1)
    (wg64 : GatherDims.WF ⟨2, ![50000, 64]⟩ ⟨2, ![800000, 1]⟩ ⟨2, ![800000, 64]⟩ [1] [0] [] [0] [] 1 ![1, 64])
    (ws2 : ScatterDims.WF ⟨2, ![50000, 2]⟩ ⟨2, ![800000, 1]⟩ ⟨2, ![800000, 2]⟩ [1] [0] [0] 1)
    (wg2 : GatherDims.WF ⟨2, ![50000, 2]⟩ ⟨2, ![800000, 1]⟩ ⟨2, ![800000, 2]⟩ [1] [0] [] [0] [] 1 ![1, 2])
    (dst src : EdgeCol) (x : Mat 50000 16) (W1l : Mat 16 64) (b1 : Vec1 64) (W1r : Mat 16 64) (W2l : Mat 64 64) (b2 : Vec1 64)
    (W2r : Mat 64 64) (W3l : Mat 64 2) (b3 : Vec1 2) (W3r : Mat 64 2)
    (hx : IsReal x) (hW1l : IsReal W1l) (hb1 : IsReal b1) (hW1r : IsReal W1r) (hW2l : IsReal W2l) (hb2 : IsReal b2)
    (hW2r : IsReal W2r) (hW3l : IsReal W3l) :
    netK (libRecs wv ws16 wg16 ws64 wg64 ws2 wg2) dst src x W1l b1 W1r W2l b2 W2r W3l b3 W3r
      = netR (libRecs wv ws16 wg16 ws64 wg64 ws2 wg2) dst src x W1l b1 W1r W2l b2 W2r W3l b3 W3r :=
  outK_eq_outR_of_real ws64 wg64 ws2 wg2 dst src
    (h2 (libRecs wv ws16 wg16 ws64 wg64 ws2 wg2) dst src x W1l b1 W1r W2l b2 W2r)
    (inv (libRecs wv ws16 wg16 ws64 wg64 ws2 wg2) dst) W3l W3r (fun o => b3 (ix1 o))
    (h2_real _ dst src x W1l b1 W1r W2l b2 W2r hx hW1l hb1 hW1r hW2l hb2 hW2r) (inv_real _ dst) hW3l

end Cert.Sage

end
-- ==== Proof.lean ====
/-
  A three-layer mean-aggregating graph network on 50000 nodes and 800000 edges, computed two ways.

  Both programs count each node's in-degree, take its reciprocal (zero for a node no edge points to), and in
  every layer add the mean of the neighbours' features times one weight, a bias, and the node's own features times
  another weight; layers one and two clip below at zero and layer three takes the row log-softmax of its two columns.
  The kernel's program does the dense part of each layer in tiled calls over 25 blocks of 2000 rows; a row tile of a
  matrix product is the product of the row tile, so each call leaves in its output array one whole-array function of
  its inputs.  The programs differ in layer three only: the kernel's program multiplies the features by the 64 x 2
  weight FIRST and sums the two-column rows over the neighbours, the reference sums the 64-column rows and multiplies
  after.  The neighbour sum is linear, so the two agree wherever distributivity holds: over real entries.  The inputs
  are real by the precondition, the reciprocal in-degree because a degree is a finite count, the hidden layers because
  sums, products and maxima of reals are real.

  The three frames: the two kernel programs' are the generated frame certificates; the reference's is its run with the
  result dropped.  The idealization rewrote nothing, so nothing is owed for it.
-/
import proofs.«404284_j84817014161825_4_alg».proof.Defs
import proofs.«404284_j84817014161825_4_alg».proof.Proof.Gen.Kernel
import proofs.«404284_j84817014161825_4_alg».proof.Proof.Gen.Kernel.Skeleton
import proofs.«404284_j84817014161825_4_alg».proof.Proof.Gen.Kernel.Launch
import proofs.«404284_j84817014161825_4_alg».proof.Proof.Gen.Kernel.Points
import proofs.«404284_j84817014161825_4_alg».proof.Proof.Gen.Kernel.Frame
import proofs.«404284_j84817014161825_4_alg».proof.Proof.Gen.KernelIdeal
import proofs.«404284_j84817014161825_4_alg».proof.Proof.Gen.KernelIdeal.Skeleton
import proofs.«404284_j84817014161825_4_alg».proof.Proof.Gen.KernelIdeal.Launch
import proofs.«404284_j84817014161825_4_alg».proof.Proof.Gen.KernelIdeal.Points
import proofs.«404284_j84817014161825_4_alg».proof.Proof.Gen.KernelIdeal.Frame
import proofs.«404284_j84817014161825_4_alg».proof.Proof.Gen.ReferenceIdeal
import proofs.«404284_j84817014161825_4_alg».proof.Proof.Gen.Pre_finite_inputs
import proofs.«404284_j84817014161825_4_alg».proof.Proof.KernelRun
import proofs.«404284_j84817014161825_4_alg».proof.Proof.Fold0
import proofs.«404284_j84817014161825_4_alg».proof.Proof.Region0
import proofs.«404284_j84817014161825_4_alg».proof.Proof.Region1
import proofs.«404284_j84817014161825_4_alg».proof.Proof.Region2
import proofs.«404284_j84817014161825_4_alg».proof.Proof.Region3
import proofs.«404284_j84817014161825_4_alg».proof.Proof.RefRun
import proofs.«404284_j84817014161825_4_alg».proof.Proof.RefSpec
import proofs.«404284_j84817014161825_4_alg».proof.Proof.Finite
import proofs.«404284_j84817014161825_4_alg».proof.Proof.Bridge
import Idealize.ShloMosaic.Adequacy
import Idealize.ShloMosaic.Init

set_option maxRecDepth 16384

noncomputable section

namespace Cert.Proof

open Idealize.ShloMosaic Idealize.SL.Sem Cert.Sage

/-! ## The two programs carry the same index columns and the same dimension records -/

/-- The target-node column is the same function of the edge index in both programs. -/
theorem dst_eq (e : IVec (⟨2, ![2, 800000]⟩ : Shape) 32) : Cert.KernelIdeal.Fold.dstK e = Cert.ReferenceIdeal.RefSpec.dstR e := rfl
/-- The wrapped source-node column is the same function of the edge index in both programs. -/
theorem src_eq (e : IVec (⟨2, ![2, 800000]⟩ : Shape) 32) : Cert.KernelIdeal.Fold.srcK e = Cert.ReferenceIdeal.RefSpec.srcR e := rfl

/-- The kernel program's records are the generic row and vector records. -/
theorem recsK_eq : Cert.KernelIdeal.Fold.recsK
    = libRecs Cert.KernelIdeal.Facts₀.scatter_S50000_S800000x1_S800000_n_0_0_1_wf
        Cert.KernelIdeal.Facts₀.scatter_S50000x16_S800000x1_S800000x16_1_0_0_1_wf Cert.KernelIdeal.Facts₀.gather_S50000x16_S800000x1_S800000x16_1_0_n_n_0_1_116_wf
        Cert.KernelIdeal.Facts₀.scatter_S50000x64_S800000x1_S800000x64_1_0_0_1_wf Cert.KernelIdeal.Facts₀.gather_S50000x64_S800000x1_S800000x64_1_0_n_n_0_1_164_wf
        Cert.KernelIdeal.Facts₀.scatter_S50000x2_S800000x1_S800000x2_1_0_0_1_wf Cert.KernelIdeal.Facts₀.gather_S50000x2_S800000x1_S800000x2_1_0_n_n_0_1_12_wf := rfl

/-- So are the reference's, its two-column slots filled with the generic ones. -/
theorem recsR_eq : Cert.ReferenceIdeal.RefSpec.recsR
      (Cert.Lib.rowScatterDims 50000 2 800000 Cert.KernelIdeal.Facts₀.scatter_S50000x2_S800000x1_S800000x2_1_0_0_1_wf)
      (Cert.Lib.rowGatherDims 50000 2 800000 Cert.KernelIdeal.Facts₀.gather_S50000x2_S800000x1_S800000x2_1_0_n_n_0_1_12_wf)
    = libRecs Cert.KernelIdeal.Facts₀.scatter_S50000_S800000x1_S800000_n_0_0_1_wf
        Cert.KernelIdeal.Facts₀.scatter_S50000x16_S800000x1_S800000x16_1_0_0_1_wf Cert.KernelIdeal.Facts₀.gather_S50000x16_S800000x1_S800000x16_1_0_n_n_0_1_116_wf
        Cert.KernelIdeal.Facts₀.scatter_S50000x64_S800000x1_S800000x64_1_0_0_1_wf Cert.KernelIdeal.Facts₀.gather_S50000x64_S800000x1_S800000x64_1_0_n_n_0_1_164_wf
        Cert.KernelIdeal.Facts₀.scatter_S50000x2_S800000x1_S800000x2_1_0_0_1_wf Cert.KernelIdeal.Facts₀.gather_S50000x2_S800000x1_S800000x2_1_0_n_n_0_1_12_wf := rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with the same network output: the kernel's program at
    `netK` of its launch contents, the reference at `netR` of its own, and the two are one function over real inputs. -/
theorem algebraic : Cert.algebraic_KernelIdeal_ReferenceIdeal := by
  intro m ρ m' ρ' hpre hagree
  refine ⟨_, (θ_run Cert.KernelIdeal.defs _ _).mono (fun r h c =>
      ⟨(h c).1.trans (Cert.KernelIdeal.Fold.result m ρ c Cert.KernelIdeal.Region0.arr Cert.KernelIdeal.Region1.arr
        Cert.KernelIdeal.Region2.arr Cert.KernelIdeal.Region3.arr), (h c).2⟩) (Cert.KernelIdeal.GenP.run_result m ρ), ?_⟩
  refine (θ_run Cert.ReferenceIdeal.defs _ _).mono (fun r h c => ⟨(h c).1.trans ?_, (h c).2⟩)
    (Cert.ReferenceIdeal.ValueP.run (F := Ideal) m' ρ')
  obtain ⟨a0, a1, a2, a3, a4, a5, a6, a7, a8, a9, a10⟩ := hagree c
  obtain ⟨r0, r2, r3, r4, r5, r6, r7, r8, -, -⟩ := isReal_of_pre _ _ _ _ _ _ _ _ _ _ _ (hpre c)
  rw [Cert.ReferenceIdeal.RefSpec.result_eq
      (Cert.Lib.rowScatterDims 50000 2 800000 Cert.KernelIdeal.Facts₀.scatter_S50000x2_S800000x1_S800000x2_1_0_0_1_wf)
      (Cert.Lib.rowGatherDims 50000 2 800000 Cert.KernelIdeal.Facts₀.gather_S50000x2_S800000x1_S800000x2_1_0_n_n_0_1_12_wf) m' c,
    a0, a1, a2, a3, a4, a5, a6, a7, a8, a9, a10, recsR_eq, ← dst_eq, ← src_eq]
  show _ = netK Cert.KernelIdeal.Fold.recsK _ _ _ _ _ _ _ _ _ _ _ _
  rw [recsK_eq]
  exact (netK_eq_netR _ _ _ _ _ _ _ _ _ _ _ _ _ _ _ _ _ _ _ r0 r2 r3 r4 r5 r6 r7 r8).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
